-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x300x81 : Shape := ⟨3, ![4, 300, 81]⟩
abbrev S4x300x50176 : Shape := ⟨3, ![4, 300, 50176]⟩
abbrev S4x100 : Shape := ⟨2, ![4, 100]⟩
abbrev S4x100x50176 : Shape := ⟨3, ![4, 100, 50176]⟩
abbrev S4x12544 : Shape := ⟨2, ![4, 12544]⟩
abbrev S_ : Shape := ⟨0, ![]⟩

class Facts : Prop where
  bcast_S_S4x300x81 : S_.BroadcastsInDim S4x300x81 (![] : Fin 0 → Fin S4x300x81.rank)
  reducesTo_S4x300x81_S_d0_1_2 : S4x300x81.ReducesTo [0, 1, 2] S_
  h_S_ : 0 < S_.numel
  bcast_S_S4x300x50176 : S_.BroadcastsInDim S4x300x50176 (![] : Fin 0 → Fin S4x300x50176.rank)
  reducesTo_S4x300x50176_S_d0_1_2 : S4x300x50176.ReducesTo [0, 1, 2] S_
  bcast_S_S4x12544 : S_.BroadcastsInDim S4x12544 (![] : Fin 0 → Fin S4x12544.rank)
  reducesTo_S4x12544_S_d0_1 : S4x12544.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x300x81 .f32) (main_arg1 : FVec F S4x300x50176 .f32) (main_arg2 : IVec S4x100 32) (main_arg3 : IVec S4x100x50176 32) (main_arg4 : IVec S4x12544 32) : IVec S_ 1 :=
  let main_v0 : FVec F S4x300x81 .f32 := Host.absf main_arg0
  let main_cst : FVec F S_ .f32 := constant S_ .f32 0x7F800000#32
  let main_v1 : FVec F S4x300x81 .f32 := broadcastInDim S4x300x81 ![] bcast_S_S4x300x81 main_cst
  let main_v2 : IVec S4x300x81 1 := cmpf .olt main_v0 main_v1
  let main_c : IVec S_ 1 := constantI S_ 1 1#1
  let main_v3 : IVec S_ 1 := (fun x v => Host.reduce IntOp.andi x v reducesTo_S4x300x81_S_d0_1_2 h_S_) main_v2 main_c
  let main_v4 : FVec F S4x300x50176 .f32 := Host.absf main_arg1
  let main_cst_0 : FVec F S_ .f32 := constant S_ .f32 0x7F800000#32
  let main_v5 : FVec F S4x300x50176 .f32 := broadcastInDim S4x300x50176 ![] bcast_S_S4x300x50176 main_cst_0
  let main_v6 : IVec S4x300x50176 1 := cmpf .olt main_v4 main_v5
  let main_c_1 : IVec S_ 1 := constantI S_ 1 1#1
  let main_v7 : IVec S_ 1 := (fun x v => Host.reduce IntOp.andi x v reducesTo_S4x300x50176_S_d0_1_2 h_S_) main_v6 main_c_1
  let main_v8 : IVec S_ 1 := andi main_v3 main_v7
  let main_c_2 : IVec S_ 32 := constantI S_ 32 0#32
  let main_v9 : IVec S4x12544 32 := broadcastInDim S4x12544 ![] bcast_S_S4x12544 main_c_2
  let main_v10 : IVec S4x12544 1 := cmpi .sge main_arg4 main_v9
  let main_c_3 : IVec S_ 1 := constantI S_ 1 1#1
  let main_v11 : IVec S_ 1 := (fun x v => Host.reduce IntOp.andi x v reducesTo_S4x12544_S_d0_1 h_S_) main_v10 main_c_3
  let main_v12 : IVec S_ 1 := andi main_v8 main_v11
  let main_c_4 : IVec S_ 32 := constantI S_ 32 50176#32
  let main_v13 : IVec S4x12544 32 := broadcastInDim S4x12544 ![] bcast_S_S4x12544 main_c_4
  let main_v14 : IVec S4x12544 1 := cmpi .slt main_arg4 main_v13
  let main_c_5 : IVec S_ 1 := constantI S_ 1 1#1
  let main_v15 : IVec S_ 1 := (fun x v => Host.reduce IntOp.andi x v reducesTo_S4x12544_S_d0_1 h_S_) main_v14 main_c_5
  fn_part1 (F := F) main_v12 main_v15
-- ==== Kernel.lean ====
abbrev S4x300x81 : Shape := ⟨3, ![4, 300, 81]⟩
abbrev S4x300x50176 : Shape := ⟨3, ![4, 300, 50176]⟩
abbrev S4x100 : Shape := ⟨2, ![4, 100]⟩
abbrev S4x100x50176 : Shape := ⟨3, ![4, 100, 50176]⟩
abbrev S4x12544 : Shape := ⟨2, ![4, 12544]⟩
abbrev S_ : Shape := ⟨0, ![]⟩
abbrev S4x300 : Shape := ⟨2, ![4, 300]⟩
abbrev S4x300x1 : Shape := ⟨3, ![4, 300, 1]⟩
abbrev S4x100x1 : Shape := ⟨3, ![4, 100, 1]⟩
abbrev S4x300x100 : Shape := ⟨3, ![4, 300, 100]⟩
abbrev S4x50176 : Shape := ⟨2, ![4, 50176]⟩
abbrev S4 : Shape := ⟨1, ![4]⟩
abbrev S4x1 : Shape := ⟨2, ![4, 1]⟩
abbrev S4x12544x1 : Shape := ⟨3, ![4, 12544, 1]⟩
abbrev S4x12544x2 : Shape := ⟨3, ![4, 12544, 2]⟩
abbrev S4x1x50176 : Shape := ⟨3, ![4, 1, 50176]⟩
abbrev S1x300x1792 : Shape := ⟨3, ![1, 300, 1792]⟩
abbrev S1x100x1792 : Shape := ⟨3, ![1, 100, 1792]⟩
abbrev S1x1x1792 : Shape := ⟨3, ![1, 1, 1792]⟩
abbrev S1x300x100 : Shape := ⟨3, ![1, 300, 100]⟩
abbrev S1x300x1 : Shape := ⟨3, ![1, 300, 1]⟩
abbrev S1x100x1 : Shape := ⟨3, ![1, 100, 1]⟩
abbrev S300x100 : Shape := ⟨2, ![300, 100]⟩
abbrev S300x1 : Shape := ⟨2, ![300, 1]⟩
abbrev S100x1 : Shape := ⟨2, ![100, 1]⟩
abbrev S300x1792 : Shape := ⟨2, ![300, 1792]⟩
abbrev S100x1792 : Shape := ⟨2, ![100, 1792]⟩
abbrev S1x1792 : Shape := ⟨2, ![1, 1792]⟩
abbrev S300 : Shape := ⟨1, ![300]⟩
abbrev S100 : Shape := ⟨1, ![100]⟩
abbrev S1792x100 : Shape := ⟨2, ![1792, 100]⟩
abbrev S4x1x100 : Shape := ⟨3, ![4, 1, 100]⟩

abbrev nBuf : Space → Nat
  | .hbm => 108
  | .vmem => 14
  | .smem => 0
  | _ => 0

abbrev bufTy : (tb : Table) → Fin (tcTables nBuf tb) → BufTy
  | .hbm, ⟨0, _⟩ => ⟨S4x300x81, .f32⟩
  | .hbm, ⟨1, _⟩ => ⟨S4x300x50176, .f32⟩
  | .hbm, ⟨2, _⟩ => ⟨S4x100, .i32⟩
  | .hbm, ⟨3, _⟩ => ⟨S4x100x50176, .i32⟩
  | .hbm, ⟨4, _⟩ => ⟨S4x12544, .i32⟩
  | .hbm, ⟨5, _⟩ => ⟨S_, .f32⟩
  | .hbm, ⟨6, _⟩ => ⟨S4x300, .f32⟩
  | .hbm, ⟨7, _⟩ => ⟨S_, .f32⟩
  | .hbm, ⟨8, _⟩ => ⟨S4x300, .f32⟩
  | .hbm, ⟨9, _⟩ => ⟨S4x300, .f32⟩
  | .hbm, ⟨10, _⟩ => ⟨S4x300x1, .f32⟩
  | .hbm, ⟨11, _⟩ => ⟨S4x300x81, .f32⟩
  | .hbm, ⟨12, _⟩ => ⟨S4x300x81, .f32⟩
  | .hbm, ⟨13, _⟩ => ⟨S4x300x81, .f32⟩
  | .hbm, ⟨14, _⟩ => ⟨S_, .f32⟩
  | .hbm, ⟨15, _⟩ => ⟨S4x300, .f32⟩
  | .hbm, ⟨16, _⟩ => ⟨S4x300x1, .f32⟩
  | .hbm, ⟨17, _⟩ => ⟨S4x300x81, .f32⟩
  | .hbm, ⟨18, _⟩ => ⟨S4x300x81, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4x100, .i32⟩
  | .hbm, ⟨23, _⟩ => ⟨S4x100, .i32⟩
  | .hbm, ⟨24, _⟩ => ⟨S_, .i32⟩
  | .hbm, ⟨25, _⟩ => ⟨S4x100, .i32⟩
  | .hbm, ⟨26, _⟩ => ⟨S4x100, .i32⟩
  | .hbm, ⟨27, _⟩ => ⟨S_, .i32⟩
  | .hbm, ⟨28, _⟩ => ⟨S4x100, .i32⟩
  | .hbm, ⟨29, _⟩ => ⟨S4x100, .i1⟩
  | .hbm, ⟨30, _⟩ => ⟨S_, .i32⟩
  | .hbm, ⟨31, _⟩ => ⟨S4x100, .i32⟩
  | .hbm, ⟨32, _⟩ => ⟨S4x100, .i32⟩
  | .hbm, ⟨33, _⟩ => ⟨S4x100, .i32⟩
  | .hbm, ⟨34, _⟩ => ⟨S4x100x1, .i32⟩
  | .hbm, ⟨35, _⟩ => ⟨S4x300x100, .f32⟩
  | .hbm, ⟨36, _⟩ => ⟨S4x300x100, .f32⟩
  | .hbm, ⟨37, _⟩ => ⟨S_, .f32⟩
  | .hbm, ⟨38, _⟩ => ⟨S4x50176, .f32⟩
  | .hbm, ⟨39, _⟩ => ⟨S4, .i32⟩
  | .hbm, ⟨40, _⟩ => ⟨S4x1, .i32⟩
  | .hbm, ⟨41, _⟩ => ⟨S_, .i32⟩
  | .hbm, ⟨42, _⟩ => ⟨S4x1, .i32⟩
  | .hbm, ⟨43, _⟩ => ⟨S4x1, .i1⟩
  | .hbm, ⟨44, _⟩ => ⟨S_, .i32⟩
  | .hbm, ⟨45, _⟩ => ⟨S4x1, .i32⟩
  | .hbm, ⟨46, _⟩ => ⟨S4x1, .i32⟩
  | .hbm, ⟨47, _⟩ => ⟨S4x1, .i32⟩
  | .hbm, ⟨48, _⟩ => ⟨S_, .i32⟩
  | .hbm, ⟨49, _⟩ => ⟨S4x12544, .i32⟩
  | .hbm, ⟨50, _⟩ => ⟨S4x12544, .i1⟩
  | .hbm, ⟨51, _⟩ => ⟨S_, .i32⟩
  | .hbm, ⟨52, _⟩ => ⟨S4x12544, .i32⟩
  | .hbm, ⟨53, _⟩ => ⟨S4x12544, .i32⟩
  | .hbm, ⟨54, _⟩ => ⟨S4x12544, .i32⟩
  | .hbm, ⟨55, _⟩ => ⟨S4x12544, .i32⟩
  | .hbm, ⟨56, _⟩ => ⟨S4x12544x1, .i32⟩
  | .hbm, ⟨57, _⟩ => ⟨S4x12544x1, .i32⟩
  | .hbm, ⟨58, _⟩ => ⟨S4x12544x2, .i32⟩
  | .hbm, ⟨59, _⟩ => ⟨S_, .f32⟩
  | .hbm, ⟨60, _⟩ => ⟨S4x12544, .f32⟩
  | .hbm, ⟨61, _⟩ => ⟨S4x50176, .f32⟩
  | .hbm, ⟨62, _⟩ => ⟨S4x1x50176, .f32⟩
  | .hbm, ⟨63, _⟩ => ⟨S4x300x100, .f32⟩
  | .hbm, ⟨64, _⟩ => ⟨S4x300x1, .f32⟩
  | .hbm, ⟨65, _⟩ => ⟨S4x300x1, .f32⟩
  | .hbm, ⟨66, _⟩ => ⟨S4x100x1, .f32⟩
  | .hbm, ⟨67, _⟩ => ⟨S4x300, .f32⟩
  | .hbm, ⟨68, _⟩ => ⟨S4x300, .f32⟩
  | .hbm, ⟨69, _⟩ => ⟨S4x100, .f32⟩
  | .hbm, ⟨70, _⟩ => ⟨S_, .f32⟩
  | .hbm, ⟨71, _⟩ => ⟨S4x300, .f32⟩
  | .hbm, ⟨72, _⟩ => ⟨S4x300, .f32⟩
  | .hbm, ⟨73, _⟩ => ⟨S4x300x1, .f32⟩
  | .hbm, ⟨74, _⟩ => ⟨S_, .f32⟩
  | .hbm, ⟨75, _⟩ => ⟨S4x300x100, .f32⟩
  | .hbm, ⟨76, _⟩ => ⟨S4x300x100, .f32⟩
  | .hbm, ⟨77, _⟩ => ⟨S4x300x100, .f32⟩
  | .hbm, ⟨78, _⟩ => ⟨S4x300x100, .f32⟩
  | .hbm, ⟨79, _⟩ => ⟨S4x300x1, .f32⟩
  | .hbm, ⟨80, _⟩ => ⟨S4x1x100, .f32⟩
  | .hbm, ⟨81, _⟩ => ⟨S4x300x100, .f32⟩
  | .hbm, ⟨82, _⟩ => ⟨S4x300x100, .f32⟩
  | .hbm, ⟨83, _⟩ => ⟨S4x300x100, .f32⟩
  | .hbm, ⟨84, _⟩ => ⟨S_, .f32⟩
  | .hbm, ⟨85, _⟩ => ⟨S4x300x100, .f32⟩
  | .hbm, ⟨86, _⟩ => ⟨S4x300x100, .f32⟩
  | .hbm, ⟨87, _⟩ => ⟨S_, .f32⟩
  | .hbm, ⟨88, _⟩ => ⟨S4x300x100, .f32⟩
  | .hbm, ⟨89, _⟩ => ⟨S4x300x100, .f32⟩
  | .hbm, ⟨90, _⟩ => ⟨S_, .f32⟩
  | .hbm, ⟨91, _⟩ => ⟨S4x300x100, .f32⟩
  | .hbm, ⟨92, _⟩ => ⟨S4x300x100, .f32⟩
  | .hbm, ⟨93, _⟩ => ⟨S4x300x100, .f32⟩
  | .hbm, ⟨94, _⟩ => ⟨S_, .f32⟩
  | .hbm, ⟨95, _⟩ => ⟨S4x300x100, .f32⟩
  | .hbm, ⟨96, _⟩ => ⟨S4x300x100, .f32⟩
  | .hbm, ⟨97, _⟩ => ⟨S_, .f32⟩
  | .hbm, ⟨98, _⟩ => ⟨S4x300x100, .f32⟩
  | .hbm, ⟨99, _⟩ => ⟨S4x300x100, .f32⟩
  | .hbm, ⟨100, _⟩ => ⟨S_, .f32⟩
  | .hbm, ⟨101, _⟩ => ⟨S4x300x100, .f32⟩
  | .hbm, ⟨102, _⟩ => ⟨S4x300x100, .f32⟩
  | .hbm, ⟨103, _⟩ => ⟨S4x300x100, .f32⟩
  | .hbm, ⟨104, _⟩ => ⟨S_, .f32⟩
  | .hbm, ⟨105, _⟩ => ⟨S4x300x100, .f32⟩
  | .hbm, ⟨106, _⟩ => ⟨S4x300x100, .f32⟩
  | .hbm, ⟨107, _⟩ => ⟨S4x300x100, .f32⟩
  | .local _ .vmem, ⟨0, _⟩ => ⟨S1x300x1792, .f32⟩
  | .local _ .vmem, ⟨1, _⟩ => ⟨S1x300x1792, .f32⟩
  | .local _ .vmem, ⟨2, _⟩ => ⟨S1x100x1792, .i32⟩
  | .local _ .vmem, ⟨3, _⟩ => ⟨S1x100x1792, .i32⟩
  | .local _ .vmem, ⟨4, _⟩ => ⟨S1x1x1792, .f32⟩
  | .local _ .vmem, ⟨5, _⟩ => ⟨S1x1x1792, .f32⟩
  | .local _ .vmem, ⟨6, _⟩ => ⟨S1x300x100, .f32⟩
  | .local _ .vmem, ⟨7, _⟩ => ⟨S1x300x100, .f32⟩
  | .local _ .vmem, ⟨8, _⟩ => ⟨S1x300x1, .f32⟩
  | .local _ .vmem, ⟨9, _⟩ => ⟨S1x300x1, .f32⟩
  | .local _ .vmem, ⟨10, _⟩ => ⟨S1x300x1, .f32⟩
  | .local _ .vmem, ⟨11, _⟩ => ⟨S1x300x1, .f32⟩
  | .local _ .vmem, ⟨12, _⟩ => ⟨S1x100x1, .f32⟩
  | .local _ .vmem, ⟨13, _⟩ => ⟨S1x100x1, .f32⟩
  | _, _ => ⟨S4x300x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40_0 : Ref sig .tc := ⟨.hbm, 63, rfl⟩
abbrev main_v40_1 : Ref sig .tc := ⟨.hbm, 64, rfl⟩
abbrev main_v40_2 : Ref sig .tc := ⟨.hbm, 65, rfl⟩
abbrev main_v40_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_16 : Ref sig .tc := ⟨.hbm, 94, rfl⟩
abbrev main_v63 : Ref sig .tc := ⟨.hbm, 95, rfl⟩
abbrev main_v64 : Ref sig .tc := ⟨.hbm, 96, rfl⟩
abbrev main_cst_17 : Ref sig .tc := ⟨.hbm, 97, rfl⟩
abbrev main_v65 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_19 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 28], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x300x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x1792 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x300x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x300x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x300x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x100x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4x300x81_S4x300_d2 : S4x300x81.ReducesTo [2] S4x300
  h_S_ : 0 < S_.numel
  bcast_S_S4x300 : S_.BroadcastsInDim S4x300 (![] : Fin 0 → Fin S4x300.rank)
  bcast_S4x300_S4x300x1_0_1 : S4x300.BroadcastsInDim S4x300x1 (![0, 1] : Fin 2 → Fin S4x300x1.rank)
  bcast_S4x300x1_S4x300x81_0_1_2 : S4x300x1.BroadcastsInDim S4x300x81 (![0, 1, 2] : Fin 3 → Fin S4x300x81.rank)
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S_S4x50176 : S_.BroadcastsInDim S4x50176 (![] : Fin 0 → Fin S4x50176.rank)
  bcast_S4_S4x1_0 : S4.BroadcastsInDim S4x1 (![0] : Fin 1 → Fin S4x1.rank)
  bcast_S_S4x1 : S_.BroadcastsInDim S4x1 (![] : Fin 0 → Fin S4x1.rank)
  bcast_S_S4x12544 : S_.BroadcastsInDim S4x12544 (![] : Fin 0 → Fin S4x12544.rank)
  bcast_S4x1_S4x12544_0_1 : S4x1.BroadcastsInDim S4x12544 (![0, 1] : Fin 2 → Fin S4x12544.rank)
  bcast_S4x12544_S4x12544x1_0_1 : S4x12544.BroadcastsInDim S4x12544x1 (![0, 1] : Fin 2 → Fin S4x12544x1.rank)
  concatenates_S4x12544x1_S4x12544x1_S4x12544x2_d2 : Shape.Concatenates [S4x12544x1, S4x12544x1] S4x12544x2 2
  shapeCasts_S4x50176_S4x1x50176 : S4x50176.ShapeCasts S4x1x50176
  inb_S1x300x100_S1x300x100_0_0_0 : ∀ a, (![0, 0, 0] : Fin 3 → Nat) a + S1x300x100.size a ≤ S1x300x100.size a
  h_S1x300x100 : 0 < S1x300x100.numel
  shapeCasts_S1x300x100_S300x100 : S1x300x100.ShapeCasts S300x100
  shapeCasts_S300x100_S1x300x100 : S300x100.ShapeCasts S1x300x100
  inb_S1x300x1_S1x300x1_0_0_0 : ∀ a, (![0, 0, 0] : Fin 3 → Nat) a + S1x300x1.size a ≤ S1x300x1.size a
  h_S1x300x1 : 0 < S1x300x1.numel
  shapeCasts_S1x300x1_S300x1 : S1x300x1.ShapeCasts S300x1
  shapeCasts_S300x1_S1x300x1 : S300x1.ShapeCasts S1x300x1
  inb_S1x100x1_S1x100x1_0_0_0 : ∀ a, (![0, 0, 0] : Fin 3 → Nat) a + S1x100x1.size a ≤ S1x100x1.size a
  h_S1x100x1 : 0 < S1x100x1.numel
  shapeCasts_S1x100x1_S100x1 : S1x100x1.ShapeCasts S100x1
  shapeCasts_S100x1_S1x100x1 : S100x1.ShapeCasts S1x100x1
  inb_S1x300x1792_S1x300x1792_0_0_0 : ∀ a, (![0, 0, 0] : Fin 3 → Nat) a + S1x300x1792.size a ≤ S1x300x1792.size a
  h_S1x300x1792 : 0 < S1x300x1792.numel
  shapeCasts_S1x300x1792_S300x1792 : S1x300x1792.ShapeCasts S300x1792
  inb_S1x100x1792_S1x100x1792_0_0_0 : ∀ a, (![0, 0, 0] : Fin 3 → Nat) a + S1x100x1792.size a ≤ S1x100x1792.size a
  h_S1x100x1792 : 0 < S1x100x1792.numel
  shapeCasts_S1x100x1792_S100x1792 : S1x100x1792.ShapeCasts S100x1792
  inb_S1x1x1792_S1x1x1792_0_0_0 : ∀ a, (![0, 0, 0] : Fin 3 → Nat) a + S1x1x1792.size a ≤ S1x1x1792.size a
  h_S1x1x1792 : 0 < S1x1x1792.numel
  shapeCasts_S1x1x1792_S1x1792 : S1x1x1792.ShapeCasts S1x1792
  broadcasts_S1x1792_S300x1792 : S1x1792.Broadcasts S300x1792
  broadcasts_S1x1792_S100x1792 : S1x1792.Broadcasts S100x1792
  reduces_S300x1792_S300 : S300x1792.Reduces [1] S300
  shapeCasts_S300_S300x1 : S300.ShapeCasts S300x1
  reduces_S100x1792_S100 : S100x1792.Reduces [1] S100
  shapeCasts_S100_S100x1 : S100.ShapeCasts S100x1
  bitsLt_bf16_f32 : FTy.bits .bf16 < FTy.bits .f32
  transposes_S100x1792_p1_0_S1792x100 : S100x1792.Transposes [1, 0] S1792x100
  shapeCasts_S4x300x1_S4x300 : S4x300x1.ShapeCasts S4x300
  shapeCasts_S4x100x1_S4x100 : S4x100x1.ShapeCasts S4x100
  bcast_S_S4x300x100 : S_.BroadcastsInDim S4x300x100 (![] : Fin 0 → Fin S4x300x100.rank)
  bcast_S4x300x1_S4x300x100_0_1_2 : S4x300x1.BroadcastsInDim S4x300x100 (![0, 1, 2] : Fin 3 → Fin S4x300x100.rank)
  bcast_S4x100_S4x1x100_0_2 : S4x100.BroadcastsInDim S4x1x100 (![0, 2] : Fin 2 → Fin S4x1x100.rank)
  bcast_S4x1x100_S4x300x100_0_1_2 : S4x1x100.BroadcastsInDim S4x300x100 (![0, 1, 2] : Fin 3 → Fin S4x300x100.rank)
  gather_S4x300x81_S4x100x1_S4x300x100_1_2_0_0_2_2_13001_wf : GatherDims.WF S4x300x81 S4x100x1 S4x300x100 [1] [2] [0] [2] [0] 2 ![1, 300, 1]
  scatter_S4x50176_S4x12544x2_S4x12544_n_01_01_2_wf : ScatterDims.WF S4x50176 S4x12544x2 S4x12544 [] [0, 1] [0, 1] 2
  dot_S300x1792_S1792x100_S300x100_1_0_0_1_n_n_wf : DotDims.WF S300x1792 S1792x100 S300x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x300x1792.size a ≤ S4x300x50176.size a
  hwx0_0 : ∀ i : grid0.Coords, EltTy.bits .f32 = 32 ∨ (Rect.block (s := S4x300x50176) S1x300x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x1792.size a ≤ S4x100x50176.size a
  hwx0_1 : ∀ i : grid0.Coords, EltTy.bits .i32 = 32 ∨ (Rect.block (s := S4x100x50176) S1x100x1792.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1792.size a ≤ S4x1x50176.size a
  hwx0_2 : ∀ i : grid0.Coords, EltTy.bits .f32 = 32 ∨ (Rect.block (s := S4x1x50176) S1x1x1792.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x300x100.size a ≤ S4x300x100.size a
  hwx0_3 : ∀ i : grid0.Coords, EltTy.bits .f32 = 32 ∨ (Rect.block (s := S4x300x100) S1x300x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x300x1.size a ≤ S4x300x1.size a
  hwx0_4 : ∀ i : grid0.Coords, EltTy.bits .f32 = 32 ∨ (Rect.block (s := S4x300x1) S1x300x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x300x1.size a ≤ S4x300x1.size a
  hwx0_5 : ∀ i : grid0.Coords, EltTy.bits .f32 = 32 ∨ (Rect.block (s := S4x300x1) S1x300x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x100x1.size a ≤ S4x100x1.size a
  hwx0_6 : ∀ i : grid0.Coords, EltTy.bits .f32 = 32 ∨ (Rect.block (s := S4x100x1) S1x100x1.size (cc0_transform_6 i) (hinb0_6 i)).WholeWords (EltTy.packing .f32)

variable [Facts₀]

def gather_S4x300x81_S4x100x1_S4x300x100_1_2_0_0_2_2_13001 : GatherDims S4x300x81 S4x100x1 S4x300x100 where
  offsetDims := [1]
  collapsedSliceDims := [2]
  operandBatchingDims := [0]
  startIndicesBatchingDims := [0]
  startIndexMap := [2]
  indexVectorDim := 2
  sliceSizes := ![1, 300, 1]
  wf := gather_S4x300x81_S4x100x1_S4x300x100_1_2_0_0_2_2_13001_wf
def scatter_S4x50176_S4x12544x2_S4x12544_n_01_01_2 : ScatterDims S4x50176 S4x12544x2 S4x12544 where
  updateWindowDims := []
  insertedWindowDims := [0, 1]
  scatterDimsToOperandDims := [0, 1]
  indexVectorDim := 2
  wf := scatter_S4x50176_S4x12544x2_S4x12544_n_01_01_2_wf
def dot_S300x1792_S1792x100_S300x100_1_0_0_1_n_n : DotDims S300x1792 S1792x100 S300x100 where
  lhsContracting := [1]
  rhsContracting := [0]
  lhsNonContracting := [0]
  rhsNonContracting := [1]
  lhsBatch := []
  rhsBatch := []
  wf := dot_S300x1792_S1792x100_S300x100_1_0_0_1_n_n_wf

abbrev win0_0 : Pipeline.Window sig grid0 :=
  Pipeline.Window.ofSpec (Memref.whole main_arg1) S1x300x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x100x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x1x1792.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40_0) S1x300x100.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_1) S1x300x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_2) S1x300x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40_3) S1x100x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x300x81 : Shape := ⟨3, ![4, 300, 81]⟩
abbrev S4x300x50176 : Shape := ⟨3, ![4, 300, 50176]⟩
abbrev S4x100 : Shape := ⟨2, ![4, 100]⟩
abbrev S4x100x50176 : Shape := ⟨3, ![4, 100, 50176]⟩
abbrev S4x12544 : Shape := ⟨2, ![4, 12544]⟩
abbrev S_ : Shape := ⟨0, ![]⟩
abbrev S4x300 : Shape := ⟨2, ![4, 300]⟩
abbrev S4x300x1 : Shape := ⟨3, ![4, 300, 1]⟩
abbrev S4x100x1 : Shape := ⟨3, ![4, 100, 1]⟩
abbrev S4x300x100 : Shape := ⟨3, ![4, 300, 100]⟩
abbrev S4x12544x1 : Shape := ⟨3, ![4, 12544, 1]⟩
abbrev S4x300x12544 : Shape := ⟨3, ![4, 300, 12544]⟩
abbrev S4x100x12544 : Shape := ⟨3, ![4, 100, 12544]⟩
abbrev S4x1x100 : Shape := ⟨3, ![4, 1, 100]⟩

abbrev nBuf : Space → Nat
  | .hbm => 123
  | .vmem => 0
  | .smem => 0
  | _ => 0

abbrev bufTy : (tb : Table) → Fin (tcTables nBuf tb) → BufTy
  | .hbm, ⟨0, _⟩ => ⟨S4x300x81, .f32⟩
  | .hbm, ⟨1, _⟩ => ⟨S4x300x50176, .f32⟩
  | .hbm, ⟨2, _⟩ => ⟨S4x100, .i32⟩
  | .hbm, ⟨3, _⟩ => ⟨S4x100x50176, .i32⟩
  | .hbm, ⟨4, _⟩ => ⟨S4x12544, .i32⟩
  | .hbm, ⟨5, _⟩ => ⟨S_, .f32⟩
  | .hbm, ⟨6, _⟩ => ⟨S4x300, .f32⟩
  | .hbm, ⟨7, _⟩ => ⟨S_, .f32⟩
  | .hbm, ⟨8, _⟩ => ⟨S4x300, .f32⟩
  | .hbm, ⟨9, _⟩ => ⟨S4x300, .f32⟩
  | .hbm, ⟨10, _⟩ => ⟨S4x300x1, .f32⟩
  | .hbm, ⟨11, _⟩ => ⟨S4x300x81, .f32⟩
  | .hbm, ⟨12, _⟩ => ⟨S4x300x81, .f32⟩
  | .hbm, ⟨13, _⟩ => ⟨S4x300x81, .f32⟩
  | .hbm, ⟨14, _⟩ => ⟨S_, .f32⟩
  | .hbm, ⟨15, _⟩ => ⟨S4x300, .f32⟩
  | .hbm, ⟨16, _⟩ => ⟨S4x300x1, .f32⟩
  | .hbm, ⟨17, _⟩ => ⟨S4x300x81, .f32⟩
  | .hbm, ⟨18, _⟩ => ⟨S4x300x81, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4x100, .i32⟩
  | .hbm, ⟨23, _⟩ => ⟨S4x100, .i32⟩
  | .hbm, ⟨24, _⟩ => ⟨S_, .i32⟩
  | .hbm, ⟨25, _⟩ => ⟨S4x100, .i32⟩
  | .hbm, ⟨26, _⟩ => ⟨S4x100, .i32⟩
  | .hbm, ⟨27, _⟩ => ⟨S_, .i32⟩
  | .hbm, ⟨28, _⟩ => ⟨S4x100, .i32⟩
  | .hbm, ⟨29, _⟩ => ⟨S4x100, .i1⟩
  | .hbm, ⟨30, _⟩ => ⟨S_, .i32⟩
  | .hbm, ⟨31, _⟩ => ⟨S4x100, .i32⟩
  | .hbm, ⟨32, _⟩ => ⟨S4x100, .i32⟩
  | .hbm, ⟨33, _⟩ => ⟨S4x100, .i32⟩
  | .hbm, ⟨34, _⟩ => ⟨S4x100x1, .i32⟩
  | .hbm, ⟨35, _⟩ => ⟨S4x300x100, .f32⟩
  | .hbm, ⟨36, _⟩ => ⟨S4x300x100, .f32⟩
  | .hbm, ⟨37, _⟩ => ⟨S_, .i32⟩
  | .hbm, ⟨38, _⟩ => ⟨S4x12544, .i32⟩
  | .hbm, ⟨39, _⟩ => ⟨S4x12544, .i1⟩
  | .hbm, ⟨40, _⟩ => ⟨S_, .i32⟩
  | .hbm, ⟨41, _⟩ => ⟨S4x12544, .i32⟩
  | .hbm, ⟨42, _⟩ => ⟨S4x12544, .i32⟩
  | .hbm, ⟨43, _⟩ => ⟨S4x12544, .i32⟩
  | .hbm, ⟨44, _⟩ => ⟨S4x12544x1, .i32⟩
  | .hbm, ⟨45, _⟩ => ⟨S4x300x12544, .f32⟩
  | .hbm, ⟨46, _⟩ => ⟨S_, .i32⟩
  | .hbm, ⟨47, _⟩ => ⟨S4x12544, .i32⟩
  | .hbm, ⟨48, _⟩ => ⟨S4x12544, .i1⟩
  | .hbm, ⟨49, _⟩ => ⟨S_, .i32⟩
  | .hbm, ⟨50, _⟩ => ⟨S4x12544, .i32⟩
  | .hbm, ⟨51, _⟩ => ⟨S4x12544, .i32⟩
  | .hbm, ⟨52, _⟩ => ⟨S4x12544, .i32⟩
  | .hbm, ⟨53, _⟩ => ⟨S4x12544x1, .i32⟩
  | .hbm, ⟨54, _⟩ => ⟨S4x100x12544, .i32⟩
  | .hbm, ⟨55, _⟩ => ⟨S4x100x12544, .f32⟩
  | .hbm, ⟨56, _⟩ => ⟨S4x300x12544, .f32⟩
  | .hbm, ⟨57, _⟩ => ⟨S4x300x12544, .f32⟩
  | .hbm, ⟨58, _⟩ => ⟨S_, .f32⟩
  | .hbm, ⟨59, _⟩ => ⟨S4x300x12544, .f32⟩
  | .hbm, ⟨60, _⟩ => ⟨S4x300x12544, .f32⟩
  | .hbm, ⟨61, _⟩ => ⟨S_, .f32⟩
  | .hbm, ⟨62, _⟩ => ⟨S4x300x12544, .f32⟩
  | .hbm, ⟨63, _⟩ => ⟨S4x300x12544, .f32⟩
  | .hbm, ⟨64, _⟩ => ⟨S_, .f32⟩
  | .hbm, ⟨65, _⟩ => ⟨S4x300x12544, .f32⟩
  | .hbm, ⟨66, _⟩ => ⟨S4x300x12544, .f32⟩
  | .hbm, ⟨67, _⟩ => ⟨S4x300x12544, .f32⟩
  | .hbm, ⟨68, _⟩ => ⟨S4x300x12544, .f32⟩
  | .hbm, ⟨69, _⟩ => ⟨S4x300x12544, .i1⟩
  | .hbm, ⟨70, _⟩ => ⟨S4x300x12544, .f32⟩
  | .hbm, ⟨71, _⟩ => ⟨S4x300x12544, .f32⟩
  | .hbm, ⟨72, _⟩ => ⟨S4x300x12544, .f32⟩
  | .hbm, ⟨73, _⟩ => ⟨S4x300x12544, .f32⟩
  | .hbm, ⟨74, _⟩ => ⟨S4x300x12544, .f32⟩
  | .hbm, ⟨75, _⟩ => ⟨S4x300x12544, .f32⟩
  | .hbm, ⟨76, _⟩ => ⟨S4x300x12544, .f32⟩
  | .hbm, ⟨77, _⟩ => ⟨S4x300x12544, .f32⟩
  | .hbm, ⟨78, _⟩ => ⟨S_, .f32⟩
  | .hbm, ⟨79, _⟩ => ⟨S4x300, .f32⟩
  | .hbm, ⟨80, _⟩ => ⟨S_, .f32⟩
  | .hbm, ⟨81, _⟩ => ⟨S4x300, .f32⟩
  | .hbm, ⟨82, _⟩ => ⟨S4x300, .f32⟩
  | .hbm, ⟨83, _⟩ => ⟨S4x300x100, .f32⟩
  | .hbm, ⟨84, _⟩ => ⟨S4x300x1, .f32⟩
  | .hbm, ⟨85, _⟩ => ⟨S_, .f32⟩
  | .hbm, ⟨86, _⟩ => ⟨S4x300x100, .f32⟩
  | .hbm, ⟨87, _⟩ => ⟨S4x300x100, .f32⟩
  | .hbm, ⟨88, _⟩ => ⟨S4x300x100, .f32⟩
  | .hbm, ⟨89, _⟩ => ⟨S4x300x100, .f32⟩
  | .hbm, ⟨90, _⟩ => ⟨S_, .f32⟩
  | .hbm, ⟨91, _⟩ => ⟨S4x300, .f32⟩
  | .hbm, ⟨92, _⟩ => ⟨S4x300x1, .f32⟩
  | .hbm, ⟨93, _⟩ => ⟨S_, .f32⟩
  | .hbm, ⟨94, _⟩ => ⟨S4x100, .f32⟩
  | .hbm, ⟨95, _⟩ => ⟨S4x1x100, .f32⟩
  | .hbm, ⟨96, _⟩ => ⟨S4x300x100, .f32⟩
  | .hbm, ⟨97, _⟩ => ⟨S4x300x100, .f32⟩
  | .hbm, ⟨98, _⟩ => ⟨S4x300x100, .f32⟩
  | .hbm, ⟨99, _⟩ => ⟨S_, .f32⟩
  | .hbm, ⟨100, _⟩ => ⟨S4x300x100, .f32⟩
  | .hbm, ⟨101, _⟩ => ⟨S4x300x100, .f32⟩
  | .hbm, ⟨102, _⟩ => ⟨S_, .f32⟩
  | .hbm, ⟨103, _⟩ => ⟨S4x300x100, .f32⟩
  | .hbm, ⟨104, _⟩ => ⟨S4x300x100, .f32⟩
  | .hbm, ⟨105, _⟩ => ⟨S_, .f32⟩
  | .hbm, ⟨106, _⟩ => ⟨S4x300x100, .f32⟩
  | .hbm, ⟨107, _⟩ => ⟨S4x300x100, .f32⟩
  | .hbm, ⟨108, _⟩ => ⟨S4x300x100, .f32⟩
  | .hbm, ⟨109, _⟩ => ⟨S_, .f32⟩
  | .hbm, ⟨110, _⟩ => ⟨S4x300x100, .f32⟩
  | .hbm, ⟨111, _⟩ => ⟨S4x300x100, .f32⟩
  | .hbm, ⟨112, _⟩ => ⟨S_, .f32⟩
  | .hbm, ⟨113, _⟩ => ⟨S4x300x100, .f32⟩
  | .hbm, ⟨114, _⟩ => ⟨S4x300x100, .f32⟩
  | .hbm, ⟨115, _⟩ => ⟨S_, .f32⟩
  | .hbm, ⟨116, _⟩ => ⟨S4x300x100, .f32⟩
  | .hbm, ⟨117, _⟩ => ⟨S4x300x100, .f32⟩
  | .hbm, ⟨118, _⟩ => ⟨S4x300x100, .f32⟩
  | .hbm, ⟨119, _⟩ => ⟨S_, .f32⟩
  | .hbm, ⟨120, _⟩ => ⟨S4x300x100, .f32⟩
  | .hbm, ⟨121, _⟩ => ⟨S4x300x100, .f32⟩
  | .hbm, ⟨122, _⟩ => ⟨S4x300x100, .f32⟩
  | _, _ => ⟨S4x300x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v41 : Ref sig .tc := ⟨.hbm, 77, rfl⟩
abbrev main_cst_11 : Ref sig .tc := ⟨.hbm, 78, rfl⟩
abbrev main_v42 : Ref sig .tc := ⟨.hbm, 79, rfl⟩
abbrev main_cst_12 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_13 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_14 : Ref sig .tc := ⟨.hbm, 90, rfl⟩
abbrev main_v51 : Ref sig .tc := ⟨.hbm, 91, rfl⟩
abbrev main_v52 : Ref sig .tc := ⟨.hbm, 92, rfl⟩
abbrev main_cst_15 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_16 : Ref sig .tc := ⟨.hbm, 99, rfl⟩
abbrev main_v58 : Ref sig .tc := ⟨.hbm, 100, rfl⟩
abbrev main_v59 : Ref sig .tc := ⟨.hbm, 101, rfl⟩
abbrev main_cst_17 : Ref sig .tc := ⟨.hbm, 102, rfl⟩
abbrev main_v60 : Ref sig .tc := ⟨.hbm, 103, rfl⟩
abbrev main_v61 : Ref sig .tc := ⟨.hbm, 104, rfl⟩
abbrev main_cst_18 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_19 : Ref sig .tc := ⟨.hbm, 109, rfl⟩
abbrev main_v65 : Ref sig .tc := ⟨.hbm, 110, rfl⟩
abbrev main_v66 : Ref sig .tc := ⟨.hbm, 111, rfl⟩
abbrev main_cst_20 : Ref sig .tc := ⟨.hbm, 112, rfl⟩
abbrev main_v67 : Ref sig .tc := ⟨.hbm, 113, rfl⟩
abbrev main_v68 : Ref sig .tc := ⟨.hbm, 114, rfl⟩
abbrev main_cst_21 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_22 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩

abbrev nD : Nat := 1
abbrev τ : Topo := Topo.v7x

variable {F : FTy → Type} [FloatOps F]

class Facts₀ : Prop where
  reducesTo_S4x300x81_S4x300_d2 : S4x300x81.ReducesTo [2] S4x300
  h_S_ : 0 < S_.numel
  bcast_S_S4x300 : S_.BroadcastsInDim S4x300 (![] : Fin 0 → Fin S4x300.rank)
  bcast_S4x300_S4x300x1_0_1 : S4x300.BroadcastsInDim S4x300x1 (![0, 1] : Fin 2 → Fin S4x300x1.rank)
  bcast_S4x300x1_S4x300x81_0_1_2 : S4x300x1.BroadcastsInDim S4x300x81 (![0, 1, 2] : Fin 3 → Fin S4x300x81.rank)
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S_S4x12544 : S_.BroadcastsInDim S4x12544 (![] : Fin 0 → Fin S4x12544.rank)
  bcast_S4x12544_S4x12544x1_0_1 : S4x12544.BroadcastsInDim S4x12544x1 (![0, 1] : Fin 2 → Fin S4x12544x1.rank)
  bcast_S_S4x300x12544 : S_.BroadcastsInDim S4x300x12544 (![] : Fin 0 → Fin S4x300x12544.rank)
  reducesTo_S4x300x12544_S4x300_d2 : S4x300x12544.ReducesTo [2] S4x300
  bcast_S_S4x300x100 : S_.BroadcastsInDim S4x300x100 (![] : Fin 0 → Fin S4x300x100.rank)
  bcast_S4x300x1_S4x300x100_0_1_2 : S4x300x1.BroadcastsInDim S4x300x100 (![0, 1, 2] : Fin 3 → Fin S4x300x100.rank)
  reducesTo_S4x100x12544_S4x100_d2 : S4x100x12544.ReducesTo [2] S4x100
  bcast_S4x100_S4x1x100_0_2 : S4x100.BroadcastsInDim S4x1x100 (![0, 2] : Fin 2 → Fin S4x1x100.rank)
  bcast_S4x1x100_S4x300x100_0_1_2 : S4x1x100.BroadcastsInDim S4x300x100 (![0, 1, 2] : Fin 3 → Fin S4x300x100.rank)
  gather_S4x300x81_S4x100x1_S4x300x100_1_2_0_0_2_2_13001_wf : GatherDims.WF S4x300x81 S4x100x1 S4x300x100 [1] [2] [0] [2] [0] 2 ![1, 300, 1]
  gather_S4x300x50176_S4x12544x1_S4x300x12544_1_2_0_0_2_2_13001_wf : GatherDims.WF S4x300x50176 S4x12544x1 S4x300x12544 [1] [2] [0] [2] [0] 2 ![1, 300, 1]
  gather_S4x100x50176_S4x12544x1_S4x100x12544_1_2_0_0_2_2_11001_wf : GatherDims.WF S4x100x50176 S4x12544x1 S4x100x12544 [1] [2] [0] [2] [0] 2 ![1, 100, 1]
  dot_S4x300x12544_S4x100x12544_S4x300x100_2_2_1_1_0_0_wf : DotDims.WF S4x300x12544 S4x100x12544 S4x300x100 [2] [2] [1] [1] [0] [0]

variable [Facts₀]

def gather_S4x300x81_S4x100x1_S4x300x100_1_2_0_0_2_2_13001 : GatherDims S4x300x81 S4x100x1 S4x300x100 where
  offsetDims := [1]
  collapsedSliceDims := [2]
  operandBatchingDims := [0]
  startIndicesBatchingDims := [0]
  startIndexMap := [2]
  indexVectorDim := 2
  sliceSizes := ![1, 300, 1]
  wf := gather_S4x300x81_S4x100x1_S4x300x100_1_2_0_0_2_2_13001_wf
def gather_S4x300x50176_S4x12544x1_S4x300x12544_1_2_0_0_2_2_13001 : GatherDims S4x300x50176 S4x12544x1 S4x300x12544 where
  offsetDims := [1]
  collapsedSliceDims := [2]
  operandBatchingDims := [0]
  startIndicesBatchingDims := [0]
  startIndexMap := [2]
  indexVectorDim := 2
  sliceSizes := ![1, 300, 1]
  wf := gather_S4x300x50176_S4x12544x1_S4x300x12544_1_2_0_0_2_2_13001_wf
def gather_S4x100x50176_S4x12544x1_S4x100x12544_1_2_0_0_2_2_11001 : GatherDims S4x100x50176 S4x12544x1 S4x100x12544 where
  offsetDims := [1]
  collapsedSliceDims := [2]
  operandBatchingDims := [0]
  startIndicesBatchingDims := [0]
  startIndexMap := [2]
  indexVectorDim := 2
  sliceSizes := ![1, 100, 1]
  wf := gather_S4x100x50176_S4x12544x1_S4x100x12544_1_2_0_0_2_2_11001_wf
def dot_S4x300x12544_S4x100x12544_S4x300x100_2_2_1_1_0_0 : DotDims S4x300x12544 S4x100x12544 S4x300x100 where
  lhsContracting := [2]
  rhsContracting := [2]
  lhsNonContracting := [1]
  rhsNonContracting := [1]
  lhsBatch := [0]
  rhsBatch := [0]
  wf := dot_S4x300x12544_S4x100x12544_S4x300x100_2_2_1_1_0_0_wf

class Facts : Prop extends Facts₀ where

variable [Facts]
-- ==== Proof.Spec.lean ====
/-
  The mathematics shared by the two programs of this certificate.

  Both programs compute, for a batch element b, a query q and a target g, the matching cost
      2 * cc + 5 * (SP b q / N - XG b q g / N) + 5 * (1 - (2 * XG b q g + 1) / ((XW b q + GW b g) + 1))
  from four sums over the N = 12544 sampled mask columns `col b n` (n < N) of the 50176 columns:
      XW b q   = sum over n of s(pm[b,q,col b n])                      (s the logistic function)
      SP b q   = sum over n of softplus(s(pm[b,q,col b n]))
      GW b g   = sum over n of gt[b,g,col b n]
      XG b q g = sum over n of s(pm[b,q,col b n]) * gt[b,g,col b n].
  The reference sums over the samples. The kernel sums over ALL columns p, each weighted by the
  number of samples that chose it, `wgt b p` = #{n | col b n = p}; the two are the same sum
  regrouped by column.
-/
import Idealize.ShloMosaic.PureOps.Ideal
import Idealize.ShloMosaic.Lib.ValueIdx

noncomputable section

namespace Cert.MaskCost

open Idealize.ShloMosaic Idealize.ShloMosaic.ValueIdx

/-- The shapes of the mask logits, the target masks, the sampled column indices and the result. -/
abbrev SPm : Shape := ⟨3, ![4, 300, 50176]⟩
abbrev SGt : Shape := ⟨3, ![4, 100, 50176]⟩
abbrev SIx : Shape := ⟨2, ![4, 12544]⟩
abbrev SOut : Shape := ⟨3, ![4, 300, 100]⟩

/-- Every sampled column index, read as a natural number, is a column of the masks. -/
def InRange (a4 : SIx.Idx → BitVec 32) : Prop := ∀ i : SIx.Idx, (a4 i).toNat < 50176

/-- The column sample n of batch element b chooses (the index word, kept inside the 50176 columns). -/
def col (a4 : SIx.Idx → BitVec 32) (b : Fin 4) (n : Fin 12544) : Fin 50176 :=
  ⟨min (a4 (ix2 b n)).toNat 50175, by omega⟩

/-- How many samples of batch element b chose column p, as the sum of ones a scatter-add leaves on a zero. -/
def wgt (a4 : SIx.Idx → BitVec 32) (b : Fin 4) (p : Fin 50176) : EReal :=
  0 + ∑ _n ∈ Finset.univ.filter (fun n : Fin 12544 => col a4 b n = p), (1 : EReal)

/-- The logistic function 1 / (1 + e^(-x)) on the extended reals. -/
def sg (x : EReal) : EReal := Ideal.logistic x

/-- softplus as both programs spell it: max(x, 0) + log(1 + e^(-|x|)). -/
def spl (x : EReal) : EReal := max x 0 + Ideal.log1p (Ideal.exp (-(max x (-x))))

/-- A target-mask word as the integer it encodes (read signed). -/
def gtf (w : BitVec 32) : EReal := ((w.toInt : ℝ) : EReal)

section sums
variable (a1 : SPm.Idx → EReal) (a3 : SGt.Idx → BitVec 32) (a4 : SIx.Idx → BitVec 32)

/-- The four sums as the kernel forms them: over all columns, weighted by the sample count. -/
def kXW (b : Fin 4) (q : Fin 300) : EReal := ∑ p : Fin 50176, sg (a1 (ix3 b q p)) * wgt a4 b p
def kSP (b : Fin 4) (q : Fin 300) : EReal := ∑ p : Fin 50176, spl (sg (a1 (ix3 b q p))) * wgt a4 b p
def kGW (b : Fin 4) (g : Fin 100) : EReal := ∑ p : Fin 50176, gtf (a3 (ix3 b g p)) * wgt a4 b p
def kXG (b : Fin 4) (q : Fin 300) (g : Fin 100) : EReal :=
  ∑ p : Fin 50176, (sg (a1 (ix3 b q p)) * wgt a4 b p) * gtf (a3 (ix3 b g p))

/-- The four sums as the reference forms them: over the samples. -/
def rXW (b : Fin 4) (q : Fin 300) : EReal := ∑ n : Fin 12544, sg (a1 (ix3 b q (col a4 b n)))
def rSP (b : Fin 4) (q : Fin 300) : EReal := ∑ n : Fin 12544, spl (sg (a1 (ix3 b q (col a4 b n))))
def rGW (b : Fin 4) (g : Fin 100) : EReal := ∑ n : Fin 12544, gtf (a3 (ix3 b g (col a4 b n)))
def rXG (b : Fin 4) (q : Fin 300) (g : Fin 100) : EReal :=
  ∑ n : Fin 12544, sg (a1 (ix3 b q (col a4 b n))) * gtf (a3 (ix3 b g (col a4 b n)))
end sums

/-- The literals of the closing arithmetic, kept as the words both programs print. -/
abbrev c2 : EReal := Ideal.ofBits .f32 0x40000000#32
abbrev c5 : EReal := Ideal.ofBits .f32 0x40A00000#32
abbrev c1 : EReal := Ideal.ofBits .f32 0x3F800000#32
abbrev cN : EReal := Ideal.ofBits .f32 0x46440000#32

/-- The cost at an index from the class term `cc` and the four sums. -/
def tail (cc : SOut.Idx → EReal) (xg : Fin 4 → Fin 300 → Fin 100 → EReal) (xw sp : Fin 4 → Fin 300 → EReal)
    (gw : Fin 4 → Fin 100 → EReal) : SOut.Idx → EReal := fun i =>
  ((c2 * cc i) + c5 * (Ideal.div (sp (i 0) (i 1)) cN - Ideal.div (xg (i 0) (i 1) (i 2)) cN))
    + c5 * (c1 - Ideal.div (c2 * xg (i 0) (i 1) (i 2) + c1) ((xw (i 0) (i 1) + gw (i 0) (i 2)) + c1))

end Cert.MaskCost

end
-- ==== Proof.Law.lean ====
/-
  The regrouping law: a sum over all mask columns, each term weighted by the number of samples that
  chose the column, is the sum over the samples. On the extended reals this needs no finiteness:
  x * (a + b) = x * a + x * b holds for nonnegative a and b, and the weights are sums of ones.
-/
import proofs.«428432_j91250875171593_1_alg».proof.Proof.Spec
import Mathlib.Data.EReal.Operations
import Mathlib.Algebra.BigOperators.Group.Finset.Basic
import Mathlib.Data.Fintype.BigOperators

noncomputable section

namespace Cert.MaskCost

open Idealize.ShloMosaic Idealize.ShloMosaic.ValueIdx

variable (a1 : SPm.Idx → EReal) (a3 : SGt.Idx → BitVec 32) (a4 : SIx.Idx → BitVec 32)

section regroup
variable {ι κ : Type*} [Fintype ι] [Fintype κ] [DecidableEq κ]

/-- A factor times a sum of ones over a finite set is that many copies of the factor. Distributing
    the factor over the sum is sound because every partial sum of ones is nonnegative. -/
private theorem mul_sum_ones (x : EReal) (S : Finset ι) :
    x * ∑ _n ∈ S, (1 : EReal) = ∑ _n ∈ S, x := by
  classical
  induction S using Finset.induction_on with
  | empty => simp
  | insert n S hn ih =>
    rw [Finset.sum_insert hn, Finset.sum_insert hn,
      EReal.left_distrib_of_nonneg zero_le_one (Finset.sum_nonneg fun _ _ => zero_le_one),
      mul_one, ih]

/-- The regrouping law: weighting each value of the index `p` by the number of `n` with `c n = p`
    and summing over `p` is summing over `n`. -/
private theorem regroup (c : ι → κ) (f : κ → EReal) :
    ∑ p, f p * (0 + ∑ _n ∈ Finset.univ.filter (fun n => c n = p), (1 : EReal)) = ∑ n, f (c n) := by
  rw [← Finset.sum_fiberwise' Finset.univ c f]
  refine Finset.sum_congr rfl fun p _ => ?_
  rw [zero_add, mul_sum_ones]

end regroup

theorem kXW_eq_rXW : kXW a1 a4 = rXW a1 a4 := by
  funext b q
  exact regroup (col a4 b) (fun p => sg (a1 (ix3 b q p)))
theorem kSP_eq_rSP : kSP a1 a4 = rSP a1 a4 := by
  funext b q
  exact regroup (col a4 b) (fun p => spl (sg (a1 (ix3 b q p))))
theorem kGW_eq_rGW : kGW a3 a4 = rGW a3 a4 := by
  funext b g
  exact regroup (col a4 b) (fun p => gtf (a3 (ix3 b g p)))
theorem kXG_eq_rXG : kXG a1 a3 a4 = rXG a1 a3 a4 := by
  funext b q g
  refine Eq.trans ?_ (regroup (col a4 b) (fun p => sg (a1 (ix3 b q p)) * gtf (a3 (ix3 b g p))))
  refine Finset.sum_congr rfl fun p _ => ?_
  exact mul_right_comm _ _ _

/-- Column k of tile j of the 28 tiles of 1792 columns. -/
def tcol (j : Fin 28) (k : Fin 1792) : Fin 50176 := ⟨1792 * j.val + k.val, by omega⟩

/-- Every column is column `p % 1792` of tile `p / 1792`, and of no other: the tiling is a bijection. -/
private def tileEquiv : Fin 28 × Fin 1792 ≃ Fin 50176 where
  toFun x := tcol x.1 x.2
  invFun p := (⟨p.val / 1792, by omega⟩, ⟨p.val % 1792, by omega⟩)
  left_inv x := by
    obtain ⟨⟨j, hj⟩, ⟨k, hk⟩⟩ := x
    simp only [tcol, Prod.mk.injEq, Fin.mk.injEq]
    constructor <;> omega
  right_inv p := by
    obtain ⟨p, hp⟩ := p
    simp only [tcol, Fin.mk.injEq]
    omega

/-- A sum over the columns is the sum over the tiles of the sums over each tile's columns. -/
theorem sum_tiles {M : Type*} [AddCommMonoid M] (h : Fin 50176 → M) :
    ∑ j : Fin 28, ∑ k : Fin 1792, h (tcol j k) = ∑ p : Fin 50176, h p := by
  rw [← Fintype.sum_prod_type' (fun j k => h (tcol j k))]
  exact Fintype.sum_equiv tileEquiv _ _ fun _ => rfl

end Cert.MaskCost

end
-- ==== Proof.PreRange.lean ====
/-
  The precondition's last two conjuncts say every sampled column index is at least 0 and below 50176
  as a signed word; so, read as a natural number, it is a column of the masks.
-/
import proofs.«428432_j91250875171593_1_alg».proof.Proof.Spec
import proofs.«428432_j91250875171593_1_alg».proof.Proof.Gen.Pre_finite_inputs
import Idealize.ShloMosaic.Lib.ReduceAll
import Idealize.ShloMosaic.Lib.StableHlo.Predicate

noncomputable section

namespace Cert.MaskCost

open Idealize.ShloMosaic Idealize.ShloMosaic.ValueIdx

/-- A 32-bit word that compares at least 0 and below 50176, both read signed, has its top bit clear, so its
    unsigned value is its signed value and lies below 50176. -/
private theorem toNat_lt_of_signed_range (x : BitVec 32) (h0 : IntOp.cmpi .sge x 0#32 = 1#1)
    (h1 : IntOp.cmpi .slt x 50176#32 = 1#1) : x.toNat < 50176 := by
  rw [IntOp.cmpi_sge, show (0#32 : BitVec 32).toInt = 0 from by decide, BitVec.toInt_pos_iff] at h0
  rw [IntOp.cmpi_slt, show (50176#32 : BitVec 32).toInt = 50176 from by decide,
    BitVec.toInt_eq_toNat_of_lt h0] at h1
  omega

theorem inRange_of_pre (a0 : FVec Ideal Cert.Pre_finite_inputs.S4x300x81 .f32)
    (a1 : FVec Ideal Cert.Pre_finite_inputs.S4x300x50176 .f32) (a2 : IVec Cert.Pre_finite_inputs.S4x100 32)
    (a3 : IVec Cert.Pre_finite_inputs.S4x100x50176 32) (a4 : IVec Cert.Pre_finite_inputs.S4x12544 32)
    (h : Cert.Pre_finite_inputs.fn (F := Ideal) a0 a1 a2 a3 a4 = fun _ => 1#1) : InRange a4 := by
  -- the printed function at its one index: a conjunction of four all-reductions
  have hv := congrFun h ValueIdx.ix0
  dsimp only [Cert.Pre_finite_inputs.fn, Cert.Pre_finite_inputs.fn_part1] at hv
  -- the last conjunct, and the last conjunct of what is left: the two tests of the index words
  obtain ⟨h12, h15⟩ := IntOp.andi_eq_one.1 hv
  obtain ⟨_, h11⟩ := IntOp.andi_eq_one.1 h12
  intro i
  -- the rank-0 shape has exactly one index, so a reduction over every axis has one result;
  -- an all-reduction by "and" that came out 1 had a 1 at every index
  haveI : Subsingleton Cert.Pre_finite_inputs.S_.Idx := ⟨fun _ _ => funext fun d => d.elim0⟩
  have g0 := Host.reduce_andi_all _ _ _ _ _ h11 i
  have g1 := Host.reduce_andi_all _ _ _ _ _ h15 i
  -- the broadcast literals read as the literals, and the vector comparison at i is the word comparison
  exact toNat_lt_of_signed_range (a4 i) g0 g1

end Cert.MaskCost

end
-- ==== Proof.KPieces.lean ====
/-
  One grid point of the kernel, as values. At a point the body adds to each of its four accumulators the
  contribution of the point's tile of 1792 mask columns; at the first tile of a batch element the
  accumulator it adds to is the zero block it has just stored. Here: each case's stores read back as that
  one step (`step3` … `step6` of the tile's three input blocks and the accumulator's previous contents),
  and each step read at an index on the extended reals: the previous value plus a sum over the tile's columns.
-/
import proofs.«428432_j91250875171593_1_alg».proof.Proof.Spec
import proofs.«428432_j91250875171593_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Bridge

open Idealize.ShloMosaic Idealize.ShloMosaic.TcCoe Idealize.SL.Sem Idealize.ShloMosaic.ValueIdx
open Cert.KernelIdeal Cert.KernelIdeal.Gen Cert.MaskCost

section generic
variable {F : FTy → Type} [FloatOps F]

/-- The accumulators after one more tile: the product sums, the weighted logistic sums, the weighted
    softplus sums, the weighted target sums. -/
def step3 (x0 : Vec F S1x300x1792 .f32) (x1 : Vec F S1x100x1792 .i32) (x2 : Vec F S1x1x1792 .f32) (p : Vec F S1x300x100 .f32) : Vec F S1x300x100 .f32 := k0_pay4 (k0_pay9 x1) (k0_pay12 x0 x2) p
def step4 (x0 : Vec F S1x300x1792 .f32) (x2 : Vec F S1x1x1792 .f32) (p : Vec F S1x300x1 .f32) : Vec F S1x300x1 .f32 := k0_pay1 (k0_pay15 x0 x2 p)
def step5 (x0 : Vec F S1x300x1792 .f32) (x2 : Vec F S1x1x1792 .f32) (p : Vec F S1x300x1 .f32) : Vec F S1x300x1 .f32 := k0_pay2 (k0_pay13 x0 x2) p
def step6 (x1 : Vec F S1x100x1792 .i32) (x2 : Vec F S1x1x1792 .f32) (p : Vec F S1x100x1 .f32) : Vec F S1x100x1 .f32 := k0_pay3 (k0_pay14 x1 x2) p

/-- The origin of a rank-3 block, as the constant-zero offset. -/
private theorem hz3 : (![0, 0, 0] : Fin 3 → Nat) = fun _ => 0 := funext fun a => by fin_cases a <;> rfl

/-- A later tile (case B): each accumulator's one covering store is its step over what the point before left. -/
theorem out_B_3 (c : Dev nD) (i : grid0.Coords) (arg2 : Memref sig .tc .vmem S1x300x1792 .f32) (harg2 : arg2.IsWhole) (arg3 : Memref sig .tc .vmem S1x100x1792 .i32) (harg3 : arg3.IsWhole) (arg4 : Memref sig .tc .vmem S1x1x1792 .f32) (harg4 : arg4.IsWhole) (arg5 : Memref sig .tc .vmem S1x300x100 .f32) (harg5 : arg5.IsWhole) (arg6 : Memref sig .tc .vmem S1x300x1 .f32) (harg6 : arg6.IsWhole) (arg7 : Memref sig .tc .vmem S1x300x1 .f32) (harg7 : arg7.IsWhole) (arg8 : Memref sig .tc .vmem S1x100x1 .f32) (harg8 : arg8.IsWhole) (hc0 : ¬cond0_0 i) (x0 : Vec F S1x300x1792 .f32) (x1 : Vec F S1x100x1792 .i32) (x2 : Vec F S1x1x1792 .f32) (xo3 : Vec F S1x300x100 .f32) (xo4 : Vec F S1x300x1 .f32) (xo5 : Vec F S1x300x1 .f32) (xo6 : Vec F S1x100x1 .f32) :
    out0_B_3 c i arg2 harg2 arg3 harg3 arg4 harg4 arg5 harg5 arg6 harg6 arg7 harg7 arg8 harg8 hc0 x0 x1 x2 xo3 xo4 xo5 xo6 = step3 x0 x1 x2 xo3 := by
  unfold out0_B_3
  rw [View.read_writes_eq_canon _ _ _ (cover0_B_3 c i arg2 harg2 arg3 harg3 arg4 harg4 arg5 harg5 arg6 harg6 arg7 harg7 arg8 harg8 hc0 x0 x1 x2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x300x100) hz3, View.ld_unit_zero (S := S1x300x1) hz3, View.ld_unit_zero (S := S1x100x1) hz3, View.ld_unit_zero (S := S1x300x1792) hz3, View.ld_unit_zero (S := S1x100x1792) hz3, View.ld_unit_zero (S := S1x1x1792) hz3]
  rfl
theorem out_B_4 (c : Dev nD) (i : grid0.Coords) (arg2 : Memref sig .tc .vmem S1x300x1792 .f32) (harg2 : arg2.IsWhole) (arg3 : Memref sig .tc .vmem S1x100x1792 .i32) (harg3 : arg3.IsWhole) (arg4 : Memref sig .tc .vmem S1x1x1792 .f32) (harg4 : arg4.IsWhole) (arg5 : Memref sig .tc .vmem S1x300x100 .f32) (harg5 : arg5.IsWhole) (arg6 : Memref sig .tc .vmem S1x300x1 .f32) (harg6 : arg6.IsWhole) (arg7 : Memref sig .tc .vmem S1x300x1 .f32) (harg7 : arg7.IsWhole) (arg8 : Memref sig .tc .vmem S1x100x1 .f32) (harg8 : arg8.IsWhole) (hc0 : ¬cond0_0 i) (x0 : Vec F S1x300x1792 .f32) (x1 : Vec F S1x100x1792 .i32) (x2 : Vec F S1x1x1792 .f32) (xo3 : Vec F S1x300x100 .f32) (xo4 : Vec F S1x300x1 .f32) (xo5 : Vec F S1x300x1 .f32) (xo6 : Vec F S1x100x1 .f32) :
    out0_B_4 c i arg2 harg2 arg3 harg3 arg4 harg4 arg5 harg5 arg6 harg6 arg7 harg7 arg8 harg8 hc0 x0 x1 x2 xo3 xo4 xo5 xo6 = step4 x0 x2 xo4 := by
  unfold out0_B_4
  rw [View.read_writes_eq_canon _ _ _ (cover0_B_4 c i arg2 harg2 arg3 harg3 arg4 harg4 arg5 harg5 arg6 harg6 arg7 harg7 arg8 harg8 hc0 x0 x1 x2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x300x100) hz3, View.ld_unit_zero (S := S1x300x1) hz3, View.ld_unit_zero (S := S1x100x1) hz3, View.ld_unit_zero (S := S1x300x1792) hz3, View.ld_unit_zero (S := S1x100x1792) hz3, View.ld_unit_zero (S := S1x1x1792) hz3]
  rfl
theorem out_B_5 (c : Dev nD) (i : grid0.Coords) (arg2 : Memref sig .tc .vmem S1x300x1792 .f32) (harg2 : arg2.IsWhole) (arg3 : Memref sig .tc .vmem S1x100x1792 .i32) (harg3 : arg3.IsWhole) (arg4 : Memref sig .tc .vmem S1x1x1792 .f32) (harg4 : arg4.IsWhole) (arg5 : Memref sig .tc .vmem S1x300x100 .f32) (harg5 : arg5.IsWhole) (arg6 : Memref sig .tc .vmem S1x300x1 .f32) (harg6 : arg6.IsWhole) (arg7 : Memref sig .tc .vmem S1x300x1 .f32) (harg7 : arg7.IsWhole) (arg8 : Memref sig .tc .vmem S1x100x1 .f32) (harg8 : arg8.IsWhole) (hc0 : ¬cond0_0 i) (x0 : Vec F S1x300x1792 .f32) (x1 : Vec F S1x100x1792 .i32) (x2 : Vec F S1x1x1792 .f32) (xo3 : Vec F S1x300x100 .f32) (xo4 : Vec F S1x300x1 .f32) (xo5 : Vec F S1x300x1 .f32) (xo6 : Vec F S1x100x1 .f32) :
    out0_B_5 c i arg2 harg2 arg3 harg3 arg4 harg4 arg5 harg5 arg6 harg6 arg7 harg7 arg8 harg8 hc0 x0 x1 x2 xo3 xo4 xo5 xo6 = step5 x0 x2 xo5 := by
  unfold out0_B_5
  rw [View.read_writes_eq_canon _ _ _ (cover0_B_5 c i arg2 harg2 arg3 harg3 arg4 harg4 arg5 harg5 arg6 harg6 arg7 harg7 arg8 harg8 hc0 x0 x1 x2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x300x100) hz3, View.ld_unit_zero (S := S1x300x1) hz3, View.ld_unit_zero (S := S1x100x1) hz3, View.ld_unit_zero (S := S1x300x1792) hz3, View.ld_unit_zero (S := S1x100x1792) hz3, View.ld_unit_zero (S := S1x1x1792) hz3]
  rfl
theorem out_B_6 (c : Dev nD) (i : grid0.Coords) (arg2 : Memref sig .tc .vmem S1x300x1792 .f32) (harg2 : arg2.IsWhole) (arg3 : Memref sig .tc .vmem S1x100x1792 .i32) (harg3 : arg3.IsWhole) (arg4 : Memref sig .tc .vmem S1x1x1792 .f32) (harg4 : arg4.IsWhole) (arg5 : Memref sig .tc .vmem S1x300x100 .f32) (harg5 : arg5.IsWhole) (arg6 : Memref sig .tc .vmem S1x300x1 .f32) (harg6 : arg6.IsWhole) (arg7 : Memref sig .tc .vmem S1x300x1 .f32) (harg7 : arg7.IsWhole) (arg8 : Memref sig .tc .vmem S1x100x1 .f32) (harg8 : arg8.IsWhole) (hc0 : ¬cond0_0 i) (x0 : Vec F S1x300x1792 .f32) (x1 : Vec F S1x100x1792 .i32) (x2 : Vec F S1x1x1792 .f32) (xo3 : Vec F S1x300x100 .f32) (xo4 : Vec F S1x300x1 .f32) (xo5 : Vec F S1x300x1 .f32) (xo6 : Vec F S1x100x1 .f32) :
    out0_B_6 c i arg2 harg2 arg3 harg3 arg4 harg4 arg5 harg5 arg6 harg6 arg7 harg7 arg8 harg8 hc0 x0 x1 x2 xo3 xo4 xo5 xo6 = step6 x1 x2 xo6 := by
  unfold out0_B_6
  rw [View.read_writes_eq_canon _ _ _ (cover0_B_6 c i arg2 harg2 arg3 harg3 arg4 harg4 arg5 harg5 arg6 harg6 arg7 harg7 arg8 harg8 hc0 x0 x1 x2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x300x100) hz3, View.ld_unit_zero (S := S1x300x1) hz3, View.ld_unit_zero (S := S1x100x1) hz3, View.ld_unit_zero (S := S1x300x1792) hz3, View.ld_unit_zero (S := S1x100x1792) hz3, View.ld_unit_zero (S := S1x1x1792) hz3]
  rfl

/-- The first tile of a batch element (case A): the zero block is stored first, read back, and stepped. -/
theorem out_A_3 (c : Dev nD) (i : grid0.Coords) (arg2 : Memref sig .tc .vmem S1x300x1792 .f32) (harg2 : arg2.IsWhole) (arg3 : Memref sig .tc .vmem S1x100x1792 .i32) (harg3 : arg3.IsWhole) (arg4 : Memref sig .tc .vmem S1x1x1792 .f32) (harg4 : arg4.IsWhole) (arg5 : Memref sig .tc .vmem S1x300x100 .f32) (harg5 : arg5.IsWhole) (arg6 : Memref sig .tc .vmem S1x300x1 .f32) (harg6 : arg6.IsWhole) (arg7 : Memref sig .tc .vmem S1x300x1 .f32) (harg7 : arg7.IsWhole) (arg8 : Memref sig .tc .vmem S1x100x1 .f32) (harg8 : arg8.IsWhole) (hc0 : cond0_0 i) (x0 : Vec F S1x300x1792 .f32) (x1 : Vec F S1x100x1792 .i32) (x2 : Vec F S1x1x1792 .f32) :
    out0_A_3 c i arg2 harg2 arg3 harg3 arg4 harg4 arg5 harg5 arg6 harg6 arg7 harg7 arg8 harg8 hc0 x0 x1 x2 = step3 x0 x1 x2 k0_pay5 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x300x100) hz3]
  simp only [View.readCov_unit_zero (S := S1x300x100) _ hz3, View.readCov_unit_zero (S := S1x300x1) _ hz3, View.readCov_unit_zero (S := S1x100x1) _ hz3, View.readAt_eq_ld, harg2.read_unread, harg3.read_unread, harg4.read_unread, harg5.read_unread, harg6.read_unread, harg7.read_unread, harg8.read_unread, View.ld_unit_zero (S := S1x300x100) hz3, View.ld_unit_zero (S := S1x300x1) hz3, View.ld_unit_zero (S := S1x100x1) hz3, View.ld_unit_zero (S := S1x300x1792) hz3, View.ld_unit_zero (S := S1x100x1792) hz3, View.ld_unit_zero (S := S1x1x1792) hz3]
  rfl
theorem out_A_4 (c : Dev nD) (i : grid0.Coords) (arg2 : Memref sig .tc .vmem S1x300x1792 .f32) (harg2 : arg2.IsWhole) (arg3 : Memref sig .tc .vmem S1x100x1792 .i32) (harg3 : arg3.IsWhole) (arg4 : Memref sig .tc .vmem S1x1x1792 .f32) (harg4 : arg4.IsWhole) (arg5 : Memref sig .tc .vmem S1x300x100 .f32) (harg5 : arg5.IsWhole) (arg6 : Memref sig .tc .vmem S1x300x1 .f32) (harg6 : arg6.IsWhole) (arg7 : Memref sig .tc .vmem S1x300x1 .f32) (harg7 : arg7.IsWhole) (arg8 : Memref sig .tc .vmem S1x100x1 .f32) (harg8 : arg8.IsWhole) (hc0 : cond0_0 i) (x0 : Vec F S1x300x1792 .f32) (x1 : Vec F S1x100x1792 .i32) (x2 : Vec F S1x1x1792 .f32) :
    out0_A_4 c i arg2 harg2 arg3 harg3 arg4 harg4 arg5 harg5 arg6 harg6 arg7 harg7 arg8 harg8 hc0 x0 x1 x2 = step4 x0 x2 k0_pay6 := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x300x1) hz3]
  simp only [View.readCov_unit_zero (S := S1x300x100) _ hz3, View.readCov_unit_zero (S := S1x300x1) _ hz3, View.readCov_unit_zero (S := S1x100x1) _ hz3, View.readAt_eq_ld, harg2.read_unread, harg3.read_unread, harg4.read_unread, harg5.read_unread, harg6.read_unread, harg7.read_unread, harg8.read_unread, View.ld_unit_zero (S := S1x300x100) hz3, View.ld_unit_zero (S := S1x300x1) hz3, View.ld_unit_zero (S := S1x100x1) hz3, View.ld_unit_zero (S := S1x300x1792) hz3, View.ld_unit_zero (S := S1x100x1792) hz3, View.ld_unit_zero (S := S1x1x1792) hz3]
  rfl
theorem out_A_5 (c : Dev nD) (i : grid0.Coords) (arg2 : Memref sig .tc .vmem S1x300x1792 .f32) (harg2 : arg2.IsWhole) (arg3 : Memref sig .tc .vmem S1x100x1792 .i32) (harg3 : arg3.IsWhole) (arg4 : Memref sig .tc .vmem S1x1x1792 .f32) (harg4 : arg4.IsWhole) (arg5 : Memref sig .tc .vmem S1x300x100 .f32) (harg5 : arg5.IsWhole) (arg6 : Memref sig .tc .vmem S1x300x1 .f32) (harg6 : arg6.IsWhole) (arg7 : Memref sig .tc .vmem S1x300x1 .f32) (harg7 : arg7.IsWhole) (arg8 : Memref sig .tc .vmem S1x100x1 .f32) (harg8 : arg8.IsWhole) (hc0 : cond0_0 i) (x0 : Vec F S1x300x1792 .f32) (x1 : Vec F S1x100x1792 .i32) (x2 : Vec F S1x1x1792 .f32) :
    out0_A_5 c i arg2 harg2 arg3 harg3 arg4 harg4 arg5 harg5 arg6 harg6 arg7 harg7 arg8 harg8 hc0 x0 x1 x2 = step5 x0 x2 k0_pay7 := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x300x1) hz3]
  simp only [View.readCov_unit_zero (S := S1x300x100) _ hz3, View.readCov_unit_zero (S := S1x300x1) _ hz3, View.readCov_unit_zero (S := S1x100x1) _ hz3, View.readAt_eq_ld, harg2.read_unread, harg3.read_unread, harg4.read_unread, harg5.read_unread, harg6.read_unread, harg7.read_unread, harg8.read_unread, View.ld_unit_zero (S := S1x300x100) hz3, View.ld_unit_zero (S := S1x300x1) hz3, View.ld_unit_zero (S := S1x100x1) hz3, View.ld_unit_zero (S := S1x300x1792) hz3, View.ld_unit_zero (S := S1x100x1792) hz3, View.ld_unit_zero (S := S1x1x1792) hz3]
  rfl
theorem out_A_6 (c : Dev nD) (i : grid0.Coords) (arg2 : Memref sig .tc .vmem S1x300x1792 .f32) (harg2 : arg2.IsWhole) (arg3 : Memref sig .tc .vmem S1x100x1792 .i32) (harg3 : arg3.IsWhole) (arg4 : Memref sig .tc .vmem S1x1x1792 .f32) (harg4 : arg4.IsWhole) (arg5 : Memref sig .tc .vmem S1x300x100 .f32) (harg5 : arg5.IsWhole) (arg6 : Memref sig .tc .vmem S1x300x1 .f32) (harg6 : arg6.IsWhole) (arg7 : Memref sig .tc .vmem S1x300x1 .f32) (harg7 : arg7.IsWhole) (arg8 : Memref sig .tc .vmem S1x100x1 .f32) (harg8 : arg8.IsWhole) (hc0 : cond0_0 i) (x0 : Vec F S1x300x1792 .f32) (x1 : Vec F S1x100x1792 .i32) (x2 : Vec F S1x1x1792 .f32) :
    out0_A_6 c i arg2 harg2 arg3 harg3 arg4 harg4 arg5 harg5 arg6 harg6 arg7 harg7 arg8 harg8 hc0 x0 x1 x2 = step6 x1 x2 k0_pay8 := by
  unfold out0_A_6
  rw [View.read_writes_eq_canon _ _ _ (cover0_A_6 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x100x1) hz3]
  simp only [View.readCov_unit_zero (S := S1x300x100) _ hz3, View.readCov_unit_zero (S := S1x300x1) _ hz3, View.readCov_unit_zero (S := S1x100x1) _ hz3, View.readAt_eq_ld, harg2.read_unread, harg3.read_unread, harg4.read_unread, harg5.read_unread, harg6.read_unread, harg7.read_unread, harg8.read_unread, View.ld_unit_zero (S := S1x300x100) hz3, View.ld_unit_zero (S := S1x300x1) hz3, View.ld_unit_zero (S := S1x100x1) hz3, View.ld_unit_zero (S := S1x300x1792) hz3, View.ld_unit_zero (S := S1x100x1792) hz3, View.ld_unit_zero (S := S1x1x1792) hz3]
  rfl

end generic

/-! ## The steps at an index, on the extended reals -/

section layout
variable {α : Type}

/-- A length-`a` vector cast to an `[a, 1]` column reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over the second axis of an `[a, b]` array, read at row `r`, is the sum of that row's entries. -/
private theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  match ax with
  | ⟨0, _⟩ => rfl
  | ⟨1, _⟩ => rfl

end layout

section ideal
variable (x0 : Vec Ideal S1x300x1792 .f32) (x1 : Vec Ideal S1x100x1792 .i32) (x2 : Vec Ideal S1x1x1792 .f32)

/-- The softplus the body spells out, at one entry: the comparison of a value with itself for inequality is false on the
    extended reals, subtracting zero changes nothing, and zero minus an absolute value is its negation. -/
private theorem softplus_word (s : EReal) :
    Scalar.select (Ideal.cmp .one (s - Ideal.ofBits .f32 0x00000000#32) (s - Ideal.ofBits .f32 0x00000000#32))
        (s + Ideal.ofBits .f32 0x00000000#32)
        (max s (Ideal.ofBits .f32 0x00000000#32) + Ideal.log1p (Ideal.exp (Ideal.ofBits .f32 0x00000000#32
          - max (s - Ideal.ofBits .f32 0x00000000#32) (-(s - Ideal.ofBits .f32 0x00000000#32)))))
      = spl s := by
  rw [Ideal.ofBits_zero_f32, sub_zero, zero_sub]
  have hc : Ideal.cmp .one s s = 0#1 := by simp [Ideal.cmp]
  rw [hc]
  rfl

/-- The logistic of the logits block at `(q, k)`. -/
private theorem pay11_apply (q : Fin 300) (k : Fin 1792) :
    k0_pay11 x0 (ix2 q k) = sg (x0 (ix3 (0 : Fin 1) q k)) :=
  congrArg Ideal.logistic (shapeCast_1ab_ab_apply x0 shapeCasts_S1x300x1792_S300x1792 q k)

/-- The weights row broadcast over 300 rows, at `(q, k)`. -/
private theorem row300_apply (q : Fin 300) (k : Fin 1792) :
    broadcastTo S300x1792 (k0_pay10 x2) broadcasts_S1x1792_S300x1792 (ix2 q k) = x2 (ix3 (0 : Fin 1) (0 : Fin 1) k) :=
  (broadcastTo_1b_ab_apply (k0_pay10 x2) broadcasts_S1x1792_S300x1792 q k).trans
    (shapeCast_1ab_ab_apply x2 shapeCasts_S1x1x1792_S1x1792 (0 : Fin 1) k)

/-- The weights row broadcast over 100 rows, at `(g, k)`. -/
private theorem row100_apply (g : Fin 100) (k : Fin 1792) :
    broadcastTo S100x1792 (k0_pay10 x2) broadcasts_S1x1792_S100x1792 (ix2 g k) = x2 (ix3 (0 : Fin 1) (0 : Fin 1) k) :=
  (broadcastTo_1b_ab_apply (k0_pay10 x2) broadcasts_S1x1792_S100x1792 g k).trans
    (shapeCast_1ab_ab_apply x2 shapeCasts_S1x1x1792_S1x1792 (0 : Fin 1) k)

/-- The weighted logistic at `(q, k)`. -/
private theorem pay12_apply (q : Fin 300) (k : Fin 1792) :
    k0_pay12 x0 x2 (ix2 q k) = sg (x0 (ix3 (0 : Fin 1) q k)) * x2 (ix3 (0 : Fin 1) (0 : Fin 1) k) :=
  congrArg₂ (· * ·) (pay11_apply x0 q k) (row300_apply x2 q k)

/-- The weighted softplus of the logistic at `(q, k)`. -/
private theorem pay13_apply (q : Fin 300) (k : Fin 1792) :
    k0_pay13 x0 x2 (ix2 q k) = spl (sg (x0 (ix3 (0 : Fin 1) q k))) * x2 (ix3 (0 : Fin 1) (0 : Fin 1) k) :=
  congrArg₂ (· * ·) ((softplus_word (k0_pay11 x0 (ix2 q k))).trans (congrArg spl (pay11_apply x0 q k))) (row300_apply x2 q k)

/-- The target word at `(g, k)` as the integer it encodes. -/
private theorem pay9_apply (g : Fin 100) (k : Fin 1792) :
    k0_pay9 (F := Ideal) x1 (ix2 g k) = gtf (x1 (ix3 (0 : Fin 1) g k)) :=
  congrArg gtf (shapeCast_1ab_ab_apply x1 shapeCasts_S1x100x1792_S100x1792 g k)

/-- The weighted target at `(g, k)`. -/
private theorem pay14_apply (g : Fin 100) (k : Fin 1792) :
    k0_pay14 x1 x2 (ix2 g k) = gtf (x1 (ix3 (0 : Fin 1) g k)) * x2 (ix3 (0 : Fin 1) (0 : Fin 1) k) :=
  congrArg₂ (· * ·) (pay9_apply x1 g k) (row100_apply x2 g k)
end ideal

section ideal
variable (x0 : Vec Ideal S1x300x1792 .f32) (x1 : Vec Ideal S1x100x1792 .i32) (x2 : Vec Ideal S1x1x1792 .f32)

/-! The product's operand indices at an output index `i` and a contraction index `q`, axis by axis: the left operand's
    row is the output's row and its column the contraction coordinate; the right operand's row is the contraction
    coordinate and its column the output's column. -/
private theorem lhs_mm_0 (i : S300x100.Idx) (q : dot_S300x1792_S1792x100_S300x100_1_0_0_1_n_n.contr.Idx) :
    (dot_S300x1792_S1792x100_S300x100_1_0_0_1_n_n.lhsIdx i q 0).val = (i 0).val := by
  unfold DotDims.lhsIdx
  rw [dif_neg (show ¬(0 : Fin S300x1792.rank) ∈ dot_S300x1792_S1792x100_S300x100_1_0_0_1_n_n.lhsBatch by decide), dif_pos (show (0 : Fin S300x1792.rank) ∈ dot_S300x1792_S1792x100_S300x100_1_0_0_1_n_n.lhsNonContracting by decide)]
  rfl
private theorem lhs_mm_1 (i : S300x100.Idx) (q : dot_S300x1792_S1792x100_S300x100_1_0_0_1_n_n.contr.Idx) :
    (dot_S300x1792_S1792x100_S300x100_1_0_0_1_n_n.lhsIdx i q 1).val = (q ⟨0, by decide⟩).val :=
  dot_S300x1792_S1792x100_S300x100_1_0_0_1_n_n.lhsIdx_val_of_single rfl i q
private theorem rhs_mm_0 (i : S300x100.Idx) (q : dot_S300x1792_S1792x100_S300x100_1_0_0_1_n_n.contr.Idx) :
    (dot_S300x1792_S1792x100_S300x100_1_0_0_1_n_n.rhsIdx i q 0).val = (q ⟨0, by decide⟩).val :=
  dot_S300x1792_S1792x100_S300x100_1_0_0_1_n_n.rhsIdx_val_of_single rfl i q
private theorem rhs_mm_1 (i : S300x100.Idx) (q : dot_S300x1792_S1792x100_S300x100_1_0_0_1_n_n.contr.Idx) :
    (dot_S300x1792_S1792x100_S300x100_1_0_0_1_n_n.rhsIdx i q 1).val = (i 1).val := by
  unfold DotDims.rhsIdx
  rw [dif_neg (show ¬(1 : Fin S1792x100.rank) ∈ dot_S300x1792_S1792x100_S300x100_1_0_0_1_n_n.rhsBatch by decide), dif_pos (show (1 : Fin S1792x100.rank) ∈ dot_S300x1792_S1792x100_S300x100_1_0_0_1_n_n.rhsNonContracting by decide)]
  rfl

/-- The product into a zero accumulator, read at `(q, g)`: the sum over the 1792 columns of the left row times the right column. -/
private theorem mm_apply (l : FVec Ideal S300x1792 .bf16) (r : FVec Ideal S1792x100 .bf16) (q : Fin 300) (g : Fin 100) :
    matmul dot_S300x1792_S1792x100_S300x100_1_0_0_1_n_n none l r (constant (F := Ideal) S300x100 .f32 0x00000000#32) (ix2 q g)
      = ∑ k : Fin 1792, l (ix2 q k) * r (ix2 k g) := by
  simp only [matmul]
  rw [Ideal.matmul_constant_zero_apply, ← Equiv.sum_comp (ValueIdx.contrEquiv1 dot_S300x1792_S1792x100_S300x100_1_0_0_1_n_n 1792 rfl rfl).symm]
  refine Finset.sum_congr rfl fun k _ => ?_
  have hk := ValueIdx.contrEquiv1_symm_val dot_S300x1792_S1792x100_S300x100_1_0_0_1_n_n 1792 rfl rfl k
  have el : dot_S300x1792_S1792x100_S300x100_1_0_0_1_n_n.lhsIdx (ix2 q g) ((ValueIdx.contrEquiv1 dot_S300x1792_S1792x100_S300x100_1_0_0_1_n_n 1792 rfl rfl).symm k) = ix2 q k := funext fun a => Fin.ext (by
    match a with
    | ⟨0, _⟩ => exact lhs_mm_0 _ _
    | ⟨1, _⟩ => exact (lhs_mm_1 _ _).trans hk)
  have er : dot_S300x1792_S1792x100_S300x100_1_0_0_1_n_n.rhsIdx (ix2 q g) ((ValueIdx.contrEquiv1 dot_S300x1792_S1792x100_S300x100_1_0_0_1_n_n 1792 rfl rfl).symm k) = ix2 k g := funext fun a => Fin.ext (by
    match a with
    | ⟨0, _⟩ => exact (rhs_mm_0 _ _).trans hk
    | ⟨1, _⟩ => exact rhs_mm_1 _ _)
  rw [el, er]

/-- The product sums after one more tile, at `(q, g)`. -/
theorem step3_apply (p : Vec Ideal S1x300x100 .f32) (q : Fin 300) (g : Fin 100) :
    step3 x0 x1 x2 p (ix3 (0 : Fin 1) q g)
      = p (ix3 (0 : Fin 1) q g) + ∑ k : Fin 1792, (sg (x0 (ix3 (0 : Fin 1) q k)) * x2 (ix3 (0 : Fin 1) (0 : Fin 1) k)) * gtf (x1 (ix3 (0 : Fin 1) g k)) := by
  unfold step3 k0_pay4
  refine (shapeCast_ab_1ab_apply _ shapeCasts_S300x100_S1x300x100 (0 : Fin 1) q g).trans ?_
  refine congrArg₂ (· + ·) (shapeCast_1ab_ab_apply p shapeCasts_S1x300x100_S300x100 q g) ?_
  refine (mm_apply _ _ q g).trans ?_
  refine Finset.sum_congr rfl fun k _ => ?_
  refine congrArg₂ (· * ·) (pay12_apply x0 x2 q k) ?_
  exact (transpose_ix2_apply _ transposes_S100x1792_p1_0_S1792x100 k g).trans (pay9_apply x1 g k)

/-- The weighted logistic sums after one more tile, at row `q`. -/
theorem step4_apply (p : Vec Ideal S1x300x1 .f32) (q : Fin 300) :
    step4 x0 x2 p (ix3 (0 : Fin 1) q (0 : Fin 1))
      = p (ix3 (0 : Fin 1) q (0 : Fin 1)) + ∑ k : Fin 1792, sg (x0 (ix3 (0 : Fin 1) q k)) * x2 (ix3 (0 : Fin 1) (0 : Fin 1) k) := by
  unfold step4 k0_pay1 k0_pay15
  refine (shapeCast_ab_1ab_apply _ shapeCasts_S300x1_S1x300x1 (0 : Fin 1) q (0 : Fin 1)).trans ?_
  refine congrArg₂ (· + ·) (shapeCast_1ab_ab_apply p shapeCasts_S1x300x1_S300x1 q (0 : Fin 1)) ?_
  refine (shapeCast_a_a1_apply _ shapeCasts_S300_S300x1 q (0 : Fin 1)).trans ?_
  refine (rowsum_apply (k0_pay12 x0 x2) reduces_S300x1792_S300 (.inl rfl) rfl q).trans ?_
  exact Finset.sum_congr rfl fun k _ => pay12_apply x0 x2 q k

/-- The weighted softplus sums after one more tile, at row `q`. -/
theorem step5_apply (p : Vec Ideal S1x300x1 .f32) (q : Fin 300) :
    step5 x0 x2 p (ix3 (0 : Fin 1) q (0 : Fin 1))
      = p (ix3 (0 : Fin 1) q (0 : Fin 1)) + ∑ k : Fin 1792, spl (sg (x0 (ix3 (0 : Fin 1) q k))) * x2 (ix3 (0 : Fin 1) (0 : Fin 1) k) := by
  unfold step5 k0_pay2
  refine (shapeCast_ab_1ab_apply _ shapeCasts_S300x1_S1x300x1 (0 : Fin 1) q (0 : Fin 1)).trans ?_
  refine congrArg₂ (· + ·) (shapeCast_1ab_ab_apply p shapeCasts_S1x300x1_S300x1 q (0 : Fin 1)) ?_
  refine (shapeCast_a_a1_apply _ shapeCasts_S300_S300x1 q (0 : Fin 1)).trans ?_
  refine (rowsum_apply (k0_pay13 x0 x2) reduces_S300x1792_S300 (.inl rfl) rfl q).trans ?_
  exact Finset.sum_congr rfl fun k _ => pay13_apply x0 x2 q k

/-- The weighted target sums after one more tile, at row `g`. -/
theorem step6_apply (p : Vec Ideal S1x100x1 .f32) (g : Fin 100) :
    step6 x1 x2 p (ix3 (0 : Fin 1) g (0 : Fin 1))
      = p (ix3 (0 : Fin 1) g (0 : Fin 1)) + ∑ k : Fin 1792, gtf (x1 (ix3 (0 : Fin 1) g k)) * x2 (ix3 (0 : Fin 1) (0 : Fin 1) k) := by
  unfold step6 k0_pay3
  refine (shapeCast_ab_1ab_apply _ shapeCasts_S100x1_S1x100x1 (0 : Fin 1) g (0 : Fin 1)).trans ?_
  refine congrArg₂ (· + ·) (shapeCast_1ab_ab_apply p shapeCasts_S1x100x1_S100x1 g (0 : Fin 1)) ?_
  refine (shapeCast_a_a1_apply _ shapeCasts_S100_S100x1 g (0 : Fin 1)).trans ?_
  refine (rowsum_apply (k0_pay14 x1 x2) reduces_S100x1792_S100 (.inl rfl) rfl g).trans ?_
  exact Finset.sum_congr rfl fun k _ => pay14_apply x1 x2 g k

/-- The zero blocks of the first tile are zero at every index. -/
theorem pay5_apply (i : S1x300x100.Idx) : k0_pay5 (F := Ideal) i = 0 := Ideal.ofBits_zero_f32
theorem pay6_apply (i : S1x300x1.Idx) : k0_pay6 (F := Ideal) i = 0 := Ideal.ofBits_zero_f32
theorem pay7_apply (i : S1x300x1.Idx) : k0_pay7 (F := Ideal) i = 0 := Ideal.ofBits_zero_f32
theorem pay8_apply (i : S1x100x1.Idx) : k0_pay8 (F := Ideal) i = 0 := Ideal.ofBits_zero_f32

end ideal

end Cert.KernelIdeal.Bridge

end
-- ==== Proof.KWeights.lean ====
/-
  The weight row the kernel stages. Before the launch the host scatters a one, for every sample n of batch
  element b, onto position (b, column of the sample) of a zero array, and reshapes the result to one row per
  batch element. With every sample's column index in range no update is dropped, so the entry at (b, 0, p)
  is zero plus one for each sample of b that chose p.
-/
import proofs.«428432_j91250875171593_1_alg».proof.Proof.Spec
import proofs.«428432_j91250875171593_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

noncomputable section

namespace Cert.KernelIdeal.Bridge

open Idealize.ShloMosaic Idealize.ShloMosaic.TcCoe Idealize.SL.Sem Idealize.ShloMosaic.ValueIdx
open Cert.KernelIdeal Cert.KernelIdeal.Gen Cert.MaskCost

variable (m : (ℓ : Loc nD τ sig) → Buf (Elt Ideal) ℓ)

/-! ## The arrays the host builds before the scatter -/

/-- The batch word of every start index: the batch number (an iota along the batch axis), passed through the
    wrap "if negative, add the extent 4", which leaves a non-negative word as it is. -/
private def bWord : IVec S4x1 32 :=
  select (cmpi .slt (broadcastInDim S4x1 ![0] bcast_S4_S4x1_0 (iotaInDim S4 32 0)) (broadcastInDim S4x1 ![] bcast_S_S4x1 (constantI S_ 32 0#32)))
    (addi (broadcastInDim S4x1 ![0] bcast_S4_S4x1_0 (iotaInDim S4 32 0)) (broadcastInDim S4x1 ![] bcast_S_S4x1 (constantI S_ 32 4#32)))
    (broadcastInDim S4x1 ![0] bcast_S4_S4x1_0 (iotaInDim S4 32 0))

/-- The column word of every start index: the sample's index word, passed through the wrap "if negative, add
    the extent 50176". -/
private def cWord (a4 : IVec S4x12544 32) : IVec S4x12544 32 :=
  select (cmpi .slt a4 (broadcastInDim S4x12544 ![] bcast_S_S4x12544 (constantI S_ 32 0#32)))
    (addi a4 (broadcastInDim S4x12544 ![] bcast_S_S4x12544 (constantI S_ 32 50176#32))) a4

/-- The start indices of the scatter: for sample (b, n) the pair (batch word, column word). -/
private def startIdx (a4 : IVec S4x12544 32) : IVec S4x12544x2 32 :=
  concatenate S4x12544x2 2
    [⟨S4x12544x1, broadcastInDim S4x12544x1 ![0, 1] bcast_S4x12544_S4x12544x1_0_1
        (broadcastInDim S4x12544 ![0, 1] bcast_S4x1_S4x12544_0_1 bWord)⟩,
     ⟨S4x12544x1, broadcastInDim S4x12544x1 ![0, 1] bcast_S4x12544_S4x12544x1_0_1 (cWord a4)⟩]
    concatenates_S4x12544x1_S4x12544x1_S4x12544x2_d2

/-- The scatter of a one per sample onto a zero array, before the reshape to one row per batch element. -/
private def scattered (a4 : IVec S4x12544 32) : S4x50176.Idx → EReal :=
  Host.scatterAdd (F := Ideal) (φ := .f32) scatter_S4x50176_S4x12544x2_S4x12544_n_01_01_2
    (broadcastInDim S4x50176 ![] bcast_S_S4x50176 (constant (F := Ideal) S_ .f32 0x00000000#32))
    (startIdx a4)
    (broadcastInDim S4x12544 ![] bcast_S_S4x12544 (constant (F := Ideal) S_ .f32 0x3F800000#32))

/-- The staged weight array is the reshape of that scatter: the host operations before the launch, composed. -/
private theorem staged_eq (c : Dev nD) :
    (V (F := Ideal) m c main_v39 : S4x1x50176.Idx → EReal)
      = shapeCast S4x1x50176 (scattered (m ((c.tc : Thread nD τ).loc main_arg4))) shapeCasts_S4x50176_S4x1x50176 := by
  dsimp only [Gen.V, Gen.V0]
  simp only [Gen.hostOps0, Gen.hostOps0_1, Gen.hostOps0_2, List.flatten_cons, List.flatten_nil, List.append_nil, List.cons_append, List.nil_append]
  after_results_simp
  rfl

/-! ## Where an update lands

The scatter has no window axes: both operand axes are named by the start index, so update (b', n) lands at the
operand index whose two coordinates are the two words of its start index, read signed, when both are inside the
operand, and nowhere otherwise. -/

private abbrev dS := scatter_S4x50176_S4x12544x2_S4x12544_n_01_01_2

/-- Component k of update j's start index is read at (j 0, j 1, k). -/
private theorem siIdx_eq (j : S4x12544.Idx) (k : Fin 2) :
    dS.siIdx j k = ix3 (j 0) (j 1) k := by
  funext b
  match b with
  | ⟨0, _⟩ => rfl
  | ⟨1, _⟩ => rfl
  | ⟨2, _⟩ => rfl

/-- The start on operand axis a is that word, read signed. -/
private theorem start_eq (idx : IVec S4x12544x2 32) (j : S4x12544.Idx) (a : Fin 2) :
    dS.start j idx a = (idx (ix3 (j 0) (j 1) a)).toInt := by
  have key : ∀ k : Fin 2, (idx (dS.siIdx j k)).toInt = (idx (ix3 (j 0) (j 1) k)).toInt :=
    fun k => congrArg (fun x => (idx x).toInt) (siIdx_eq j k)
  match a with
  | ⟨0, _⟩ => exact key 0
  | ⟨1, _⟩ => exact key 1

/-- No window coordinate is added on either axis. -/
private theorem window_eq (j : S4x12544.Idx) (a : Fin 2) : dS.window j a = 0 := by
  match a with
  | ⟨0, _⟩ => rfl
  | ⟨1, _⟩ => rfl

/-- Update j lands at i exactly when, on both axes, its start word read signed is i's coordinate. -/
private theorem resultIdx_eq_some_iff (idx : IVec S4x12544x2 32) (j : S4x12544.Idx) (i : S4x50176.Idx) :
    dS.resultIdx? j idx = some i ↔ ∀ a : Fin 2, (idx (ix3 (j 0) (j 1) a)).toInt = ((i a).val : Int) := by
  unfold ScatterDims.resultIdx?
  constructor
  · intro h a
    split at h
    · rename_i hh
      have e := congrFun (Option.some.inj h) a
      have e' := congrArg Fin.val e
      have h1 := (hh a).1
      rw [start_eq, window_eq] at h1
      simp only [start_eq, window_eq] at e'
      omega
    · exact absurd h (by simp)
  · intro h
    have hh : ∀ a, 0 ≤ dS.start j idx a + dS.window j a ∧ dS.start j idx a + dS.window j a < S4x50176.size a := by
      intro a
      rw [start_eq, window_eq, h a]
      have := (i a).isLt
      omega
    rw [dif_pos hh]
    congr 1
    funext a
    apply Fin.ext
    show (dS.start j idx a + dS.window j a).toNat = (i a).val
    rw [start_eq, window_eq, h a]
    omega

/-! ## The start indices read at a sample -/

/-- The wrap of a possibly negative index leaves a word that is not negative (read signed) as it is. -/
private theorem wrap_apply {s : Shape} (x z e : IVec s 32) (j : s.Idx) (hz : z j = 0#32) (hx : (x j).toNat < 2 ^ 31) :
    select (cmpi .slt x z) (addi x e) x j = x j := by
  have hlt : (x j).slt (z j) = false := by
    rw [hz]
    simp only [BitVec.slt, BitVec.toInt_zero, decide_eq_false_iff_not, Int.not_lt]
    have e := BitVec.toInt_eq_toNat_cond (x j)
    omega
  show (if BitVec.ofBool ((x j).slt (z j)) = 1 then _ else _) = _
  rw [hlt]
  rfl

/-- The batch word at batch element b is the number b. -/
private theorem bWord_apply (b : Fin 4) : bWord (ix2 b (0 : Fin 1)) = BitVec.ofNat 32 b.val := by
  unfold bWord
  rw [wrap_apply _ _ _ _ rfl]
  · rfl
  · show (BitVec.ofNat 32 b.val).toNat < 2 ^ 31
    rw [BitVec.toNat_ofNat]
    have := b.isLt
    omega

/-- The column word of a sample whose index is in range is the index word itself. -/
private theorem cWord_apply (a4 : IVec S4x12544 32) (j : S4x12544.Idx) (h : (a4 j).toNat < 50176) : cWord a4 j = a4 j := by
  unfold cWord
  exact wrap_apply _ _ _ _ rfl (by omega)

/-- Component 0 of sample (b, n)'s start index is the number b. -/
private theorem startIdx_zero (a4 : IVec S4x12544 32) (b : Fin 4) (n : Fin 12544) :
    startIdx a4 (ix3 b n (0 : Fin 2)) = BitVec.ofNat 32 b.val := by
  unfold startIdx
  refine (concatenate_pair_apply_left (t := S4x12544x2) (s₁ := S4x12544x1) (s₂ := S4x12544x1) (2 : Fin 3) _ _ _
    (ix3 b n (0 : Fin 2)) rfl (ix3 b n (0 : Fin 1)) (fun a => match a with | ⟨0, _⟩ => rfl | ⟨1, _⟩ => rfl | ⟨2, _⟩ => rfl)).trans ?_
  refine (broadcastInDim_apply _ _ _ _ (ix2 b n) (fun a => match a with | ⟨0, _⟩ => rfl | ⟨1, _⟩ => rfl)).trans ?_
  refine (broadcastInDim_apply _ _ _ _ (ix2 b (0 : Fin 1)) (fun a => match a with | ⟨0, _⟩ => rfl | ⟨1, _⟩ => rfl)).trans ?_
  exact bWord_apply b

/-- Component 1 of sample (b, n)'s start index is its index word, when that is in range. -/
private theorem startIdx_one (a4 : IVec S4x12544 32) (b : Fin 4) (n : Fin 12544) (h : (a4 (ix2 b n)).toNat < 50176) :
    startIdx a4 (ix3 b n (1 : Fin 2)) = a4 (ix2 b n) := by
  unfold startIdx
  refine (concatenate_pair_apply_right (t := S4x12544x2) (s₁ := S4x12544x1) (s₂ := S4x12544x1) (2 : Fin 3) _ _ _
    (ix3 b n (1 : Fin 2)) rfl rfl (ix3 b n (0 : Fin 1))
    (fun a => match a with | ⟨0, _⟩ => fun _ => rfl | ⟨1, _⟩ => fun _ => rfl | ⟨2, _⟩ => fun hne => absurd rfl hne) rfl).trans ?_
  refine (broadcastInDim_apply _ _ _ _ (ix2 b n) (fun a => match a with | ⟨0, _⟩ => rfl | ⟨1, _⟩ => rfl)).trans ?_
  exact cWord_apply a4 _ h

/-! ## The count -/

/-- A word below 2^31 read signed is the number it encodes. -/
private theorem toInt_of_lt (w : BitVec 32) (h : w.toNat < 2 ^ 31) : w.toInt = (w.toNat : Int) := by
  have e := BitVec.toInt_eq_toNat_cond w
  omega

/-- With the index in range, the sample's column is p exactly when its index word encodes p. -/
private theorem col_eq_iff (a4 : IVec S4x12544 32) (b : Fin 4) (n : Fin 12544) (p : Fin 50176)
    (h : (a4 (ix2 b n)).toNat < 50176) : col a4 b n = p ↔ (a4 (ix2 b n)).toNat = p.val := by
  rw [Fin.ext_iff]
  show min (a4 (ix2 b n)).toNat 50175 = p.val ↔ _
  omega

/-- Sample (b', n)'s update lands at (b, p) exactly when b' = b and the sample's column is p. -/
private theorem land_iff (a4 : IVec S4x12544 32) (hr : InRange a4) (b' : Fin 4) (n : Fin 12544) (b : Fin 4) (p : Fin 50176) :
    dS.resultIdx? (ix2 b' n) (startIdx a4) = some (ix2 b p) ↔ b' = b ∧ col a4 b' n = p := by
  have hn := hr (ix2 b' n)
  have e0 : (startIdx a4 (ix3 b' n (0 : Fin 2))).toInt = (b'.val : Int) := by
    rw [startIdx_zero, toInt_of_lt _ (by rw [BitVec.toNat_ofNat]; have := b'.isLt; omega), BitVec.toNat_ofNat]
    have := b'.isLt
    omega
  have e1 : (startIdx a4 (ix3 b' n (1 : Fin 2))).toInt = ((a4 (ix2 b' n)).toNat : Int) := by
    rw [startIdx_one _ _ _ hn, toInt_of_lt _ (by omega)]
  rw [resultIdx_eq_some_iff, col_eq_iff _ _ _ _ hn, Fin.ext_iff]
  constructor
  · intro h
    have h0 := h 0
    have h1 := h 1
    change (startIdx a4 (ix3 b' n (0 : Fin 2))).toInt = (b.val : Int) at h0
    change (startIdx a4 (ix3 b' n (1 : Fin 2))).toInt = (p.val : Int) at h1
    rw [e0] at h0
    rw [e1] at h1
    omega
  · intro h a
    match a with
    | ⟨0, _⟩ =>
      change (startIdx a4 (ix3 b' n (0 : Fin 2))).toInt = (b.val : Int)
      rw [e0]; omega
    | ⟨1, _⟩ =>
      change (startIdx a4 (ix3 b' n (1 : Fin 2))).toInt = (p.val : Int)
      rw [e1]; omega

/-- The word 0x3F800000 is the number one: sign 0, exponent field 127, fraction 0. -/
private theorem ofBits_one_f32 : Ideal.ofBits .f32 0x3F800000#32 = 1 := by
  simp [Ideal.ofBits, Ideal.ieee, -EReal.coe_mul]; norm_num

/-- The scatter at (b, p): zero plus a one for every sample of b whose column is p. The sum over all updates
    splits by batch element; the other batch elements' updates land elsewhere and contribute nothing. -/
private theorem scattered_apply (a4 : IVec S4x12544 32) (hr : InRange a4) (b : Fin 4) (p : Fin 50176) :
    scattered a4 (ix2 b p) = wgt a4 b p := by
  unfold scattered wgt
  simp only [Host.scatterAdd, Ideal.hostScatterAdd_def, Ideal.hostScatterAdd]
  rw [broadcastInDim_scalar_apply, constant_apply, Ideal.ofBits_zero_f32]
  congr 1
  rw [Finset.sum_filter, Finset.sum_filter, sum_idx2, Finset.sum_eq_single b]
  · refine Finset.sum_congr rfl fun n _ => ?_
    rw [broadcastInDim_scalar_apply, constant_apply, ofBits_one_f32]
    exact if_congr ((land_iff a4 hr b n b p).trans (and_iff_right rfl)) rfl rfl
  · intro b' _ hne
    refine Finset.sum_eq_zero fun n _ => ?_
    rw [if_neg]
    rw [land_iff a4 hr]
    exact fun h => hne h.1
  · intro h
    exact absurd (Finset.mem_univ b) h

/-- The staged weight at (b, 0, p) is the sample count of column p in batch element b: the reshape reads the
    scatter at (b, p) (both are position b * 50176 + p in row-major order). -/
theorem weights_apply (c : Dev nD) (hr : InRange (m ((c.tc : Thread nD τ).loc main_arg4))) (b : Fin 4) (p : Fin 50176) :
    (V (F := Ideal) m c main_v39) (ix3 b (0 : Fin 1) p) = wgt (m ((c.tc : Thread nD τ).loc main_arg4)) b p := by
  refine (congrFun (staged_eq m c) (ix3 b (0 : Fin 1) p)).trans ?_
  refine (shapeCast_apply _ _ (ix3 b (0 : Fin 1) p) (ix2 b p) ?_).trans (scattered_apply _ hr b p)
  rw [Shape.rowMajor_val_two, Shape.rowMajor_val_three]
  show b.val * 50176 + p.val = (b.val * 1 + 0) * 50176 + p.val
  omega

end Cert.KernelIdeal.Bridge

end
-- ==== Proof.KAcc.lean ====
/-
  The accumulators over the grid. The grid runs, for each batch element b, through the 28 tiles of 1792
  columns in order. After tile j of batch element b each accumulator holds the sum over tiles 0 … j of the
  tile's contribution (the first tile starts from the stored zero block): by induction on the point. At the
  last tile the four accumulators are the four sums over all 50176 columns, weighted by the sample counts.
-/
import proofs.«428432_j91250875171593_1_alg».proof.Proof.Spec
import proofs.«428432_j91250875171593_1_alg».proof.Proof.Law
import proofs.«428432_j91250875171593_1_alg».proof.Proof.KPieces
import proofs.«428432_j91250875171593_1_alg».proof.Proof.KWeights

noncomputable section

namespace Cert.KernelIdeal.Bridge

open Idealize.ShloMosaic Idealize.ShloMosaic.TcCoe Idealize.SL.Sem Idealize.ShloMosaic.ValueIdx
open Cert.KernelIdeal Cert.KernelIdeal.Gen Cert.MaskCost

variable (m : (ℓ : Loc nD τ sig) → Buf (Elt Ideal) ℓ)

/-- The grid has 4 · 28 points. -/
theorem N_eq : cfg0.N = 112 := N_0

/-- The three input blocks of a point, each at its literal type. -/
private abbrev xblk (c : Dev nD) (t : Fin cfg0.N) : Vec Ideal S1x300x1792 .f32 := iblk m c 0 t
private abbrev gblk (c : Dev nD) (t : Fin cfg0.N) : Vec Ideal S1x100x1792 .i32 := iblk m c 1 t
private abbrev wblk (c : Dev nD) (t : Fin cfg0.N) : Vec Ideal S1x1x1792 .f32 := iblk m c 2 t

/-- Column k of tile j (the tile number read modulo 28, so that it is a column for every natural j). -/
private def ncol (j : ℕ) (k : Fin 1792) : Fin 50176 := ⟨1792 * (j % 28) + k.val, by omega⟩
/-- The batch element of point n. -/
private def nb (n : ℕ) : Fin 4 := ⟨(n / 28) % 4, by omega⟩

/-- At point t the three input windows sit at block (t / 28, 0, t % 28): batch element t / 28, tile t % 28. -/
private theorem idx0 : ∀ t : Fin cfg0.N, win0_0.index t 0 = t.val / 28 ∧ win0_0.index t 1 = 0 ∧ win0_0.index t 2 = t.val % 28 :=
  (by decide +kernel : ∀ t : Fin grid0.N, _)
private theorem idx1 : ∀ t : Fin cfg0.N, win0_1.index t 0 = t.val / 28 ∧ win0_1.index t 1 = 0 ∧ win0_1.index t 2 = t.val % 28 :=
  (by decide +kernel : ∀ t : Fin grid0.N, _)
private theorem idx2 : ∀ t : Fin cfg0.N, win0_2.index t 0 = t.val / 28 ∧ win0_2.index t 1 = 0 ∧ win0_2.index t 2 = t.val % 28 :=
  (by decide +kernel : ∀ t : Fin grid0.N, _)

/-- Entry (0, q, k) of the logits block of point t is the logit of batch element t / 28, query q, at column k of
    tile t % 28: a block's coordinate is the block index times the block size plus the coordinate inside. -/
private theorem xblk_apply (c : Dev nD) (t : Fin cfg0.N) (q : Fin 300) (k : Fin 1792) :
    xblk m c t (ix3 (0 : Fin 1) q k) = m ((c.tc : Thread nD τ).loc main_arg1) (ix3 (nb t.val) q (ncol (t.val % 28) k)) := by
  have hi := idx0 t
  have hN : t.val < 112 := lt_of_lt_of_eq t.isLt N_0
  unfold xblk iblk
  rw [View.read_apply]
  show V m c main_arg1 _ = m (c.tc.loc main_arg1) _
  rw [V_main_arg1 m c]
  congr 1
  funext a
  apply Fin.ext
  match a with
  | ⟨0, _⟩ => show win0_0.index t 0 * 1 + 1 * 0 = (t.val / 28) % 4; have h := hi.1; omega
  | ⟨1, _⟩ => show win0_0.index t 1 * 300 + 1 * q.val = q.val; have h := hi.2.1; omega
  | ⟨2, _⟩ => show win0_0.index t 2 * 1792 + 1 * k.val = 1792 * ((t.val % 28) % 28) + k.val; have h := hi.2.2; omega

/-- The same for the target-mask block: target g of batch element t / 28 at column k of tile t % 28. -/
private theorem gblk_apply (c : Dev nD) (t : Fin cfg0.N) (g : Fin 100) (k : Fin 1792) :
    gblk m c t (ix3 (0 : Fin 1) g k) = m ((c.tc : Thread nD τ).loc main_arg3) (ix3 (nb t.val) g (ncol (t.val % 28) k)) := by
  have hi := idx1 t
  have hN : t.val < 112 := lt_of_lt_of_eq t.isLt N_0
  unfold gblk iblk
  rw [View.read_apply]
  show V m c main_arg3 _ = m (c.tc.loc main_arg3) _
  rw [V_main_arg3 m c]
  congr 1
  funext a
  apply Fin.ext
  match a with
  | ⟨0, _⟩ => show win0_1.index t 0 * 1 + 1 * 0 = (t.val / 28) % 4; have h := hi.1; omega
  | ⟨1, _⟩ => show win0_1.index t 1 * 100 + 1 * g.val = g.val; have h := hi.2.1; omega
  | ⟨2, _⟩ => show win0_1.index t 2 * 1792 + 1 * k.val = 1792 * ((t.val % 28) % 28) + k.val; have h := hi.2.2; omega

/-- The weight block of point t holds, at column k, the number of samples of batch element t / 28 that chose
    column k of tile t % 28. -/
private theorem wblk_apply (c : Dev nD) (hr : InRange (m ((c.tc : Thread nD τ).loc main_arg4))) (t : Fin cfg0.N) (k : Fin 1792) :
    wblk m c t (ix3 (0 : Fin 1) (0 : Fin 1) k) = wgt (m ((c.tc : Thread nD τ).loc main_arg4)) (nb t.val) (ncol (t.val % 28) k) := by
  have hi := idx2 t
  have hN : t.val < 112 := lt_of_lt_of_eq t.isLt N_0
  rw [← weights_apply m c hr (nb t.val) (ncol (t.val % 28) k)]
  unfold wblk iblk
  rw [View.read_apply]
  show V m c main_v39 _ = V m c main_v39 _
  congr 1
  funext a
  apply Fin.ext
  match a with
  | ⟨0, _⟩ => show win0_2.index t 0 * 1 + 1 * 0 = (t.val / 28) % 4; have h := hi.1; omega
  | ⟨1, _⟩ => show win0_2.index t 1 * 1 + 1 * 0 = 0; have h := hi.2.1; omega
  | ⟨2, _⟩ => show win0_2.index t 2 * 1792 + 1 * k.val = 1792 * ((t.val % 28) % 28) + k.val; have h := hi.2.2; omega

section terms
variable (a1 : SPm.Idx → EReal) (a3 : SGt.Idx → BitVec 32) (a4 : SIx.Idx → BitVec 32)

/-- What tile j adds to each of the four sums of batch element b. -/
private def tXG (b : Fin 4) (q : Fin 300) (g : Fin 100) (j : ℕ) : EReal :=
  ∑ k : Fin 1792, (sg (a1 (ix3 b q (ncol j k))) * wgt a4 b (ncol j k)) * gtf (a3 (ix3 b g (ncol j k)))
private def tXW (b : Fin 4) (q : Fin 300) (j : ℕ) : EReal :=
  ∑ k : Fin 1792, sg (a1 (ix3 b q (ncol j k))) * wgt a4 b (ncol j k)
private def tSP (b : Fin 4) (q : Fin 300) (j : ℕ) : EReal :=
  ∑ k : Fin 1792, spl (sg (a1 (ix3 b q (ncol j k)))) * wgt a4 b (ncol j k)
private def tGW (b : Fin 4) (g : Fin 100) (j : ℕ) : EReal :=
  ∑ k : Fin 1792, gtf (a3 (ix3 b g (ncol j k))) * wgt a4 b (ncol j k)

/-- For a tile number below 28 the total column function is the tiling's. -/
private theorem ncol_eq_tcol (j : Fin 28) (k : Fin 1792) : ncol j.val k = tcol j k :=
  Fin.ext (by show 1792 * (j.val % 28) + k.val = 1792 * j.val + k.val; have := j.isLt; omega)

/-- The 28 tiles' contributions add up to the sums over all 50176 columns. -/
private theorem sum_tXG (b : Fin 4) (q : Fin 300) (g : Fin 100) : ∑ j ∈ Finset.range 28, tXG a1 a3 a4 b q g j = kXG a1 a3 a4 b q g := by
  rw [Finset.sum_range]
  unfold kXG
  rw [← sum_tiles (fun p => (sg (a1 (ix3 b q p)) * wgt a4 b p) * gtf (a3 (ix3 b g p)))]
  refine Finset.sum_congr rfl fun j _ => ?_
  unfold tXG
  refine Finset.sum_congr rfl fun k _ => ?_
  rw [ncol_eq_tcol j k]
private theorem sum_tXW (b : Fin 4) (q : Fin 300) : ∑ j ∈ Finset.range 28, tXW a1 a4 b q j = kXW a1 a4 b q := by
  rw [Finset.sum_range]
  unfold kXW
  rw [← sum_tiles (fun p => sg (a1 (ix3 b q p)) * wgt a4 b p)]
  refine Finset.sum_congr rfl fun j _ => ?_
  unfold tXW
  refine Finset.sum_congr rfl fun k _ => ?_
  rw [ncol_eq_tcol j k]
private theorem sum_tSP (b : Fin 4) (q : Fin 300) : ∑ j ∈ Finset.range 28, tSP a1 a4 b q j = kSP a1 a4 b q := by
  rw [Finset.sum_range]
  unfold kSP
  rw [← sum_tiles (fun p => spl (sg (a1 (ix3 b q p))) * wgt a4 b p)]
  refine Finset.sum_congr rfl fun j _ => ?_
  unfold tSP
  refine Finset.sum_congr rfl fun k _ => ?_
  rw [ncol_eq_tcol j k]
private theorem sum_tGW (b : Fin 4) (g : Fin 100) : ∑ j ∈ Finset.range 28, tGW a3 a4 b g j = kGW a3 a4 b g := by
  rw [Finset.sum_range]
  unfold kGW
  rw [← sum_tiles (fun p => gtf (a3 (ix3 b g p)) * wgt a4 b p)]
  refine Finset.sum_congr rfl fun j _ => ?_
  unfold tGW
  refine Finset.sum_congr rfl fun k _ => ?_
  rw [ncol_eq_tcol j k]
end terms

/-- One point's tile sums, from its blocks: the tile is number t % 28 of batch element t / 28. -/
private theorem tile3 (c : Dev nD) (hr : InRange (m ((c.tc : Thread nD τ).loc main_arg4))) (t : Fin cfg0.N) (q : Fin 300) (g : Fin 100) :
    ∑ k : Fin 1792, (sg (xblk m c t (ix3 (0 : Fin 1) q k)) * wblk m c t (ix3 (0 : Fin 1) (0 : Fin 1) k)) * gtf (gblk m c t (ix3 (0 : Fin 1) g k))
      = tXG (m ((c.tc : Thread nD τ).loc main_arg1)) (m ((c.tc : Thread nD τ).loc main_arg3)) (m ((c.tc : Thread nD τ).loc main_arg4)) (nb t.val) q g (t.val % 28) := by
  unfold tXG
  refine Finset.sum_congr rfl fun k _ => ?_
  rw [xblk_apply m c t q k, wblk_apply m c hr t k, gblk_apply m c t g k]
private theorem tile4 (c : Dev nD) (hr : InRange (m ((c.tc : Thread nD τ).loc main_arg4))) (t : Fin cfg0.N) (q : Fin 300) :
    ∑ k : Fin 1792, sg (xblk m c t (ix3 (0 : Fin 1) q k)) * wblk m c t (ix3 (0 : Fin 1) (0 : Fin 1) k)
      = tXW (m ((c.tc : Thread nD τ).loc main_arg1)) (m ((c.tc : Thread nD τ).loc main_arg4)) (nb t.val) q (t.val % 28) := by
  unfold tXW
  refine Finset.sum_congr rfl fun k _ => ?_
  rw [xblk_apply m c t q k, wblk_apply m c hr t k]
private theorem tile5 (c : Dev nD) (hr : InRange (m ((c.tc : Thread nD τ).loc main_arg4))) (t : Fin cfg0.N) (q : Fin 300) :
    ∑ k : Fin 1792, spl (sg (xblk m c t (ix3 (0 : Fin 1) q k))) * wblk m c t (ix3 (0 : Fin 1) (0 : Fin 1) k)
      = tSP (m ((c.tc : Thread nD τ).loc main_arg1)) (m ((c.tc : Thread nD τ).loc main_arg4)) (nb t.val) q (t.val % 28) := by
  unfold tSP
  refine Finset.sum_congr rfl fun k _ => ?_
  rw [xblk_apply m c t q k, wblk_apply m c hr t k]
private theorem tile6 (c : Dev nD) (hr : InRange (m ((c.tc : Thread nD τ).loc main_arg4))) (t : Fin cfg0.N) (g : Fin 100) :
    ∑ k : Fin 1792, gtf (gblk m c t (ix3 (0 : Fin 1) g k)) * wblk m c t (ix3 (0 : Fin 1) (0 : Fin 1) k)
      = tGW (m ((c.tc : Thread nD τ).loc main_arg3)) (m ((c.tc : Thread nD τ).loc main_arg4)) (nb t.val) g (t.val % 28) := by
  unfold tGW
  refine Finset.sum_congr rfl fun k _ => ?_
  rw [gblk_apply m c t g k, wblk_apply m c hr t k]

/-! ## The invariant: after point n each accumulator is the sum of the tiles 0 … n % 28 of batch element n / 28

By induction on the point. At the first tile of a batch element (n % 28 = 0) the step starts from the zero block,
so the accumulator is tile 0's contribution alone. At a later tile the step adds the tile's contribution to what
point n - 1 left, which is the same batch element's sum over the tiles before (n - 1 and n have the same quotient
by 28, and (n - 1) % 28 + 1 = n % 28). -/

private theorem inv3 (c : Dev nD) (hr : InRange (m ((c.tc : Thread nD τ).loc main_arg4))) (q : Fin 300) (g : Fin 100) : ∀ (n : ℕ) (hn : n < cfg0.N),
    (outsAt0 (F := Ideal) m c n hn).1 (ix3 (0 : Fin 1) q g)
      = ∑ j ∈ Finset.range (n % 28 + 1), tXG (m ((c.tc : Thread nD τ).loc main_arg1)) (m ((c.tc : Thread nD τ).loc main_arg3)) (m ((c.tc : Thread nD τ).loc main_arg4)) (nb n) q g j := by
  intro n
  induction n using Nat.strong_induction_on with
  | _ n ih =>
    intro hn
    have hN : n < 112 := lt_of_lt_of_eq hn N_0
    by_cases h0 : n % 28 = 0
    · rw [outsAt0_A m c ⟨n, hn⟩ h0]
      dsimp only
      refine (congrFun (out_A_3 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) ((hcond0_0 ⟨n, hn⟩).mpr h0) (xblk m c ⟨n, hn⟩) (gblk m c ⟨n, hn⟩) (wblk m c ⟨n, hn⟩)) (ix3 (0 : Fin 1) q g)).trans ?_
      rw [step3_apply, pay5_apply, zero_add, tile3 m c hr ⟨n, hn⟩ q g]
      show tXG (m ((c.tc : Thread nD τ).loc main_arg1)) (m ((c.tc : Thread nD τ).loc main_arg3)) (m ((c.tc : Thread nD τ).loc main_arg4)) (nb n) q g (n % 28) = _
      rw [h0, Finset.sum_range_succ, Finset.range_zero, Finset.sum_empty, zero_add]
    · have hp : n - 1 < cfg0.N := Nat.lt_of_le_of_lt (Nat.sub_le _ _) hn
      rw [outsAt0_B m c ⟨n, hn⟩ h0]
      dsimp only
      refine (congrFun (out_B_3 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (fun h => h0 ((hcond0_0 ⟨n, hn⟩).mp h)) (xblk m c ⟨n, hn⟩) (gblk m c ⟨n, hn⟩) (wblk m c ⟨n, hn⟩) (outsAt0 (F := Ideal) m c (n - 1) hp).1 (outsAt0 (F := Ideal) m c (n - 1) hp).2.1 (outsAt0 (F := Ideal) m c (n - 1) hp).2.2.1 (outsAt0 (F := Ideal) m c (n - 1) hp).2.2.2) (ix3 (0 : Fin 1) q g)).trans ?_
      rw [step3_apply, ih (n - 1) (by omega) hp, tile3 m c hr ⟨n, hn⟩ q g]
      have e1 : (n - 1) % 28 + 1 = n % 28 := by omega
      have e2 : nb (n - 1) = nb n := Fin.ext (by show ((n - 1) / 28) % 4 = (n / 28) % 4; omega)
      rw [e1, e2, Finset.sum_range_succ]

private theorem inv4 (c : Dev nD) (hr : InRange (m ((c.tc : Thread nD τ).loc main_arg4))) (q : Fin 300) : ∀ (n : ℕ) (hn : n < cfg0.N),
    (outsAt0 (F := Ideal) m c n hn).2.1 (ix3 (0 : Fin 1) q (0 : Fin 1))
      = ∑ j ∈ Finset.range (n % 28 + 1), tXW (m ((c.tc : Thread nD τ).loc main_arg1)) (m ((c.tc : Thread nD τ).loc main_arg4)) (nb n) q j := by
  intro n
  induction n using Nat.strong_induction_on with
  | _ n ih =>
    intro hn
    have hN : n < 112 := lt_of_lt_of_eq hn N_0
    by_cases h0 : n % 28 = 0
    · rw [outsAt0_A m c ⟨n, hn⟩ h0]
      dsimp only
      refine (congrFun (out_A_4 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) ((hcond0_0 ⟨n, hn⟩).mpr h0) (xblk m c ⟨n, hn⟩) (gblk m c ⟨n, hn⟩) (wblk m c ⟨n, hn⟩)) (ix3 (0 : Fin 1) q (0 : Fin 1))).trans ?_
      rw [step4_apply, pay6_apply, zero_add, tile4 m c hr ⟨n, hn⟩ q]
      show tXW (m ((c.tc : Thread nD τ).loc main_arg1)) (m ((c.tc : Thread nD τ).loc main_arg4)) (nb n) q (n % 28) = _
      rw [h0, Finset.sum_range_succ, Finset.range_zero, Finset.sum_empty, zero_add]
    · have hp : n - 1 < cfg0.N := Nat.lt_of_le_of_lt (Nat.sub_le _ _) hn
      rw [outsAt0_B m c ⟨n, hn⟩ h0]
      dsimp only
      refine (congrFun (out_B_4 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (fun h => h0 ((hcond0_0 ⟨n, hn⟩).mp h)) (xblk m c ⟨n, hn⟩) (gblk m c ⟨n, hn⟩) (wblk m c ⟨n, hn⟩) (outsAt0 (F := Ideal) m c (n - 1) hp).1 (outsAt0 (F := Ideal) m c (n - 1) hp).2.1 (outsAt0 (F := Ideal) m c (n - 1) hp).2.2.1 (outsAt0 (F := Ideal) m c (n - 1) hp).2.2.2) (ix3 (0 : Fin 1) q (0 : Fin 1))).trans ?_
      rw [step4_apply, ih (n - 1) (by omega) hp, tile4 m c hr ⟨n, hn⟩ q]
      have e1 : (n - 1) % 28 + 1 = n % 28 := by omega
      have e2 : nb (n - 1) = nb n := Fin.ext (by show ((n - 1) / 28) % 4 = (n / 28) % 4; omega)
      rw [e1, e2, Finset.sum_range_succ]

private theorem inv5 (c : Dev nD) (hr : InRange (m ((c.tc : Thread nD τ).loc main_arg4))) (q : Fin 300) : ∀ (n : ℕ) (hn : n < cfg0.N),
    (outsAt0 (F := Ideal) m c n hn).2.2.1 (ix3 (0 : Fin 1) q (0 : Fin 1))
      = ∑ j ∈ Finset.range (n % 28 + 1), tSP (m ((c.tc : Thread nD τ).loc main_arg1)) (m ((c.tc : Thread nD τ).loc main_arg4)) (nb n) q j := by
  intro n
  induction n using Nat.strong_induction_on with
  | _ n ih =>
    intro hn
    have hN : n < 112 := lt_of_lt_of_eq hn N_0
    by_cases h0 : n % 28 = 0
    · rw [outsAt0_A m c ⟨n, hn⟩ h0]
      dsimp only
      refine (congrFun (out_A_5 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) ((hcond0_0 ⟨n, hn⟩).mpr h0) (xblk m c ⟨n, hn⟩) (gblk m c ⟨n, hn⟩) (wblk m c ⟨n, hn⟩)) (ix3 (0 : Fin 1) q (0 : Fin 1))).trans ?_
      rw [step5_apply, pay7_apply, zero_add, tile5 m c hr ⟨n, hn⟩ q]
      show tSP (m ((c.tc : Thread nD τ).loc main_arg1)) (m ((c.tc : Thread nD τ).loc main_arg4)) (nb n) q (n % 28) = _
      rw [h0, Finset.sum_range_succ, Finset.range_zero, Finset.sum_empty, zero_add]
    · have hp : n - 1 < cfg0.N := Nat.lt_of_le_of_lt (Nat.sub_le _ _) hn
      rw [outsAt0_B m c ⟨n, hn⟩ h0]
      dsimp only
      refine (congrFun (out_B_5 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (fun h => h0 ((hcond0_0 ⟨n, hn⟩).mp h)) (xblk m c ⟨n, hn⟩) (gblk m c ⟨n, hn⟩) (wblk m c ⟨n, hn⟩) (outsAt0 (F := Ideal) m c (n - 1) hp).1 (outsAt0 (F := Ideal) m c (n - 1) hp).2.1 (outsAt0 (F := Ideal) m c (n - 1) hp).2.2.1 (outsAt0 (F := Ideal) m c (n - 1) hp).2.2.2) (ix3 (0 : Fin 1) q (0 : Fin 1))).trans ?_
      rw [step5_apply, ih (n - 1) (by omega) hp, tile5 m c hr ⟨n, hn⟩ q]
      have e1 : (n - 1) % 28 + 1 = n % 28 := by omega
      have e2 : nb (n - 1) = nb n := Fin.ext (by show ((n - 1) / 28) % 4 = (n / 28) % 4; omega)
      rw [e1, e2, Finset.sum_range_succ]

private theorem inv6 (c : Dev nD) (hr : InRange (m ((c.tc : Thread nD τ).loc main_arg4))) (g : Fin 100) : ∀ (n : ℕ) (hn : n < cfg0.N),
    (outsAt0 (F := Ideal) m c n hn).2.2.2 (ix3 (0 : Fin 1) g (0 : Fin 1))
      = ∑ j ∈ Finset.range (n % 28 + 1), tGW (m ((c.tc : Thread nD τ).loc main_arg3)) (m ((c.tc : Thread nD τ).loc main_arg4)) (nb n) g j := by
  intro n
  induction n using Nat.strong_induction_on with
  | _ n ih =>
    intro hn
    have hN : n < 112 := lt_of_lt_of_eq hn N_0
    by_cases h0 : n % 28 = 0
    · rw [outsAt0_A m c ⟨n, hn⟩ h0]
      dsimp only
      refine (congrFun (out_A_6 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) ((hcond0_0 ⟨n, hn⟩).mpr h0) (xblk m c ⟨n, hn⟩) (gblk m c ⟨n, hn⟩) (wblk m c ⟨n, hn⟩)) (ix3 (0 : Fin 1) g (0 : Fin 1))).trans ?_
      rw [step6_apply, pay8_apply, zero_add, tile6 m c hr ⟨n, hn⟩ g]
      show tGW (m ((c.tc : Thread nD τ).loc main_arg3)) (m ((c.tc : Thread nD τ).loc main_arg4)) (nb n) g (n % 28) = _
      rw [h0, Finset.sum_range_succ, Finset.range_zero, Finset.sum_empty, zero_add]
    · have hp : n - 1 < cfg0.N := Nat.lt_of_le_of_lt (Nat.sub_le _ _) hn
      rw [outsAt0_B m c ⟨n, hn⟩ h0]
      dsimp only
      refine (congrFun (out_B_6 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (fun h => h0 ((hcond0_0 ⟨n, hn⟩).mp h)) (xblk m c ⟨n, hn⟩) (gblk m c ⟨n, hn⟩) (wblk m c ⟨n, hn⟩) (outsAt0 (F := Ideal) m c (n - 1) hp).1 (outsAt0 (F := Ideal) m c (n - 1) hp).2.1 (outsAt0 (F := Ideal) m c (n - 1) hp).2.2.1 (outsAt0 (F := Ideal) m c (n - 1) hp).2.2.2) (ix3 (0 : Fin 1) g (0 : Fin 1))).trans ?_
      rw [step6_apply, ih (n - 1) (by omega) hp, tile6 m c hr ⟨n, hn⟩ g]
      have e1 : (n - 1) % 28 + 1 = n % 28 := by omega
      have e2 : nb (n - 1) = nb n := Fin.ext (by show ((n - 1) / 28) % 4 = (n / 28) % 4; omega)
      rw [e1, e2, Finset.sum_range_succ]

/-- After the last tile of batch element b the four accumulators hold the four weighted column sums. -/
theorem acc3_last (c : Dev nD) (hr : InRange (m ((c.tc : Thread nD τ).loc main_arg4))) (b : Fin 4) (h : 28 * b.val + 27 < cfg0.N)
    (q : Fin 300) (g : Fin 100) :
    (outsAt0 (F := Ideal) m c (28 * b.val + 27) h).1 (ix3 (0 : Fin 1) q g)
      = kXG (m ((c.tc : Thread nD τ).loc main_arg1)) (m ((c.tc : Thread nD τ).loc main_arg3)) (m ((c.tc : Thread nD τ).loc main_arg4)) b q g := by
  have e1 : (28 * b.val + 27) % 28 + 1 = 28 := by omega
  have e2 : nb (28 * b.val + 27) = b := Fin.ext (by show ((28 * b.val + 27) / 28) % 4 = b.val; have := b.isLt; omega)
  rw [inv3 m c hr q g (28 * b.val + 27) h, e1, e2, sum_tXG]
theorem acc4_last (c : Dev nD) (hr : InRange (m ((c.tc : Thread nD τ).loc main_arg4))) (b : Fin 4) (h : 28 * b.val + 27 < cfg0.N)
    (q : Fin 300) :
    (outsAt0 (F := Ideal) m c (28 * b.val + 27) h).2.1 (ix3 (0 : Fin 1) q (0 : Fin 1))
      = kXW (m ((c.tc : Thread nD τ).loc main_arg1)) (m ((c.tc : Thread nD τ).loc main_arg4)) b q := by
  have e1 : (28 * b.val + 27) % 28 + 1 = 28 := by omega
  have e2 : nb (28 * b.val + 27) = b := Fin.ext (by show ((28 * b.val + 27) / 28) % 4 = b.val; have := b.isLt; omega)
  rw [inv4 m c hr q (28 * b.val + 27) h, e1, e2, sum_tXW]
theorem acc5_last (c : Dev nD) (hr : InRange (m ((c.tc : Thread nD τ).loc main_arg4))) (b : Fin 4) (h : 28 * b.val + 27 < cfg0.N)
    (q : Fin 300) :
    (outsAt0 (F := Ideal) m c (28 * b.val + 27) h).2.2.1 (ix3 (0 : Fin 1) q (0 : Fin 1))
      = kSP (m ((c.tc : Thread nD τ).loc main_arg1)) (m ((c.tc : Thread nD τ).loc main_arg4)) b q := by
  have e1 : (28 * b.val + 27) % 28 + 1 = 28 := by omega
  have e2 : nb (28 * b.val + 27) = b := Fin.ext (by show ((28 * b.val + 27) / 28) % 4 = b.val; have := b.isLt; omega)
  rw [inv5 m c hr q (28 * b.val + 27) h, e1, e2, sum_tSP]
theorem acc6_last (c : Dev nD) (hr : InRange (m ((c.tc : Thread nD τ).loc main_arg4))) (b : Fin 4) (h : 28 * b.val + 27 < cfg0.N)
    (g : Fin 100) :
    (outsAt0 (F := Ideal) m c (28 * b.val + 27) h).2.2.2 (ix3 (0 : Fin 1) g (0 : Fin 1))
      = kGW (m ((c.tc : Thread nD τ).loc main_arg3)) (m ((c.tc : Thread nD τ).loc main_arg4)) b g := by
  have e1 : (28 * b.val + 27) % 28 + 1 = 28 := by omega
  have e2 : nb (28 * b.val + 27) = b := Fin.ext (by show ((28 * b.val + 27) / 28) % 4 = b.val; have := b.isLt; omega)
  rw [inv6 m c hr g (28 * b.val + 27) h, e1, e2, sum_tGW]

end Cert.KernelIdeal.Bridge

end
-- ==== Proof.KClass.lean ====
/-
  The class term of the cost: minus the softmax of the class logits (along the class axis) at the target
  label, the label first clipped to the class range [0, 80] and a negative one wrapped by 81. It is computed
  by the program's first host operations from the logits `a0` and the labels `a2` alone.
-/
import proofs.«428432_j91250875171593_1_alg».proof.Proof.Gen.KernelIdeal.Frame
import Idealize.ShloMosaic.Lib.StableHlo.Run

noncomputable section

namespace Cert.KernelIdeal.Bridge

open Idealize.ShloMosaic Idealize.ShloMosaic.TcCoe Idealize.SL.Sem
open Cert.KernelIdeal Cert.KernelIdeal.Gen

variable {F : FTy → Type} [FloatOps F]

/-- The class term as a function of the logits and the labels. -/
def ccK (a0 : FVec F S4x300x81 .f32) (a2 : IVec S4x100 32) : FVec F S4x300x100 .f32 :=
  Host.negf (Host.gather gather_S4x300x81_S4x100x1_S4x300x100_1_2_0_0_2_2_13001
    (Host.divf
      (Host.exp (subf a0 (broadcastInDim S4x300x81 ![0, 1, 2] bcast_S4x300x1_S4x300x81_0_1_2 (broadcastInDim S4x300x1 ![0, 1] bcast_S4x300_S4x300x1_0_1 (maximumf (broadcastInDim S4x300 ![] bcast_S_S4x300 (constant S_ .f32 0xFF800000#32)) (Host.reduce FloatOps.maximumf a0 (constant S_ .f32 0xFF800000#32) reducesTo_S4x300x81_S4x300_d2 h_S_))))))
      (broadcastInDim S4x300x81 ![0, 1, 2] bcast_S4x300x1_S4x300x81_0_1_2 (broadcastInDim S4x300x1 ![0, 1] bcast_S4x300_S4x300x1_0_1
        (Host.reduceAdd (Host.exp (subf a0 (broadcastInDim S4x300x81 ![0, 1, 2] bcast_S4x300x1_S4x300x81_0_1_2 (broadcastInDim S4x300x1 ![0, 1] bcast_S4x300_S4x300x1_0_1 (maximumf (broadcastInDim S4x300 ![] bcast_S_S4x300 (constant S_ .f32 0xFF800000#32)) (Host.reduce FloatOps.maximumf a0 (constant S_ .f32 0xFF800000#32) reducesTo_S4x300x81_S4x300_d2 h_S_))))))
          (constant S_ .f32 0x00000000#32) reducesTo_S4x300x81_S4x300_d2 h_S_))))
    (broadcastInDim S4x100x1 ![0, 1] bcast_S4x100_S4x100x1_0_1
      (select
        (cmpi .slt (minsi (broadcastInDim S4x100 ![] bcast_S_S4x100 (id (constantI S_ 32 80#32))) (maxsi (broadcastInDim S4x100 ![] bcast_S_S4x100 (id (constantI S_ 32 0#32))) a2)) (broadcastInDim S4x100 ![] bcast_S_S4x100 (constantI S_ 32 0#32)))
        (addi (minsi (broadcastInDim S4x100 ![] bcast_S_S4x100 (id (constantI S_ 32 80#32))) (maxsi (broadcastInDim S4x100 ![] bcast_S_S4x100 (id (constantI S_ 32 0#32))) a2)) (broadcastInDim S4x100 ![] bcast_S_S4x100 (constantI S_ 32 81#32)))
        (minsi (broadcastInDim S4x100 ![] bcast_S_S4x100 (id (constantI S_ 32 80#32))) (maxsi (broadcastInDim S4x100 ![] bcast_S_S4x100 (id (constantI S_ 32 0#32))) a2)))))

variable (m : (ℓ : Loc nD τ sig) → Buf (Elt F) ℓ)

set_option maxHeartbeats 4000000 in
/-- When the launch starts, the buffer of `%19` holds the class term of the two argument arrays. -/
theorem ccK_V (c : Dev nD) :
    (V m c main_v19 : S4x300x100.Idx → Elt F .f32)
      = ccK (m ((c.tc : Thread nD τ).loc main_arg0)) (m ((c.tc : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results_simp
  rfl

end Cert.KernelIdeal.Bridge

end
-- ==== Proof.KRun.lean ====
/-
  The kernel program's result. Each of the four result arrays of the launch is written back once per batch
  element, after its last tile, so it holds the four weighted column sums; the host operations after the
  launch combine them with the class term into the cost, index by index.
-/
import proofs.«428432_j91250875171593_1_alg».proof.Proof.Spec
import proofs.«428432_j91250875171593_1_alg».proof.Proof.KAcc
import proofs.«428432_j91250875171593_1_alg».proof.Proof.KClass
import Idealize.ShloMosaic.Lib.StableHlo.Run
import Idealize.ShloMosaic.Lib.Pipeline.Value

noncomputable section

namespace Cert.KernelIdeal.Bridge

open Idealize.ShloMosaic Idealize.ShloMosaic.TcCoe Idealize.SL.Sem Idealize.ShloMosaic.ValueIdx
open Cert.KernelIdeal Cert.KernelIdeal.Gen Cert.MaskCost
open Idealize.ShloMosaic.Pipeline (Dat)

variable (m : (ℓ : Loc nD τ sig) → Buf (Elt Ideal) ℓ) (ρ : Dev nD → PrngReg)

/-! ## The four result arrays as functions of the argument arrays -/

/-- The array of the sums XG: entry (b, q, g) is the weighted column sum of s(pm) · gt. -/
abbrev resXG (c : Dev nD) : S4x300x100.Idx → EReal := fun i =>
  kXG (m ((c.tc : Thread nD τ).loc main_arg1)) (m ((c.tc : Thread nD τ).loc main_arg3)) (m ((c.tc : Thread nD τ).loc main_arg4)) (i 0) (i 1) (i 2)
/-- The array of the sums XW: entry (b, q, 0) is the weighted column sum of s(pm). -/
abbrev resXW (c : Dev nD) : S4x300x1.Idx → EReal := fun i =>
  kXW (m ((c.tc : Thread nD τ).loc main_arg1)) (m ((c.tc : Thread nD τ).loc main_arg4)) (i 0) (i 1)
/-- The array of the sums SP: entry (b, q, 0) is the weighted column sum of softplus(s(pm)). -/
abbrev resSP (c : Dev nD) : S4x300x1.Idx → EReal := fun i =>
  kSP (m ((c.tc : Thread nD τ).loc main_arg1)) (m ((c.tc : Thread nD τ).loc main_arg4)) (i 0) (i 1)
/-- The array of the sums GW: entry (b, g, 0) is the weighted column sum of gt. -/
abbrev resGW (c : Dev nD) : S4x100x1.Idx → EReal := fun i =>
  kGW (m ((c.tc : Thread nD τ).loc main_arg3)) (m ((c.tc : Thread nD τ).loc main_arg4)) (i 0) (i 1)

/-! ## Where each result block lies: at point t the block of batch element t / 28, whole on the other axes -/

theorem blockOf_XG : ∀ t : Fin cfg0.N, win0_3.index t (0 : Fin 3) = t.val / 28 ∧ win0_3.index t (1 : Fin 3) = 0 ∧ win0_3.index t (2 : Fin 3) = 0 :=
  (by decide +kernel : ∀ t : Fin grid0.N, _)
theorem blockOf_XW : ∀ t : Fin cfg0.N, win0_4.index t (0 : Fin 3) = t.val / 28 ∧ win0_4.index t (1 : Fin 3) = 0 ∧ win0_4.index t (2 : Fin 3) = 0 :=
  (by decide +kernel : ∀ t : Fin grid0.N, _)
theorem blockOf_SP : ∀ t : Fin cfg0.N, win0_5.index t (0 : Fin 3) = t.val / 28 ∧ win0_5.index t (1 : Fin 3) = 0 ∧ win0_5.index t (2 : Fin 3) = 0 :=
  (by decide +kernel : ∀ t : Fin grid0.N, _)
theorem blockOf_GW : ∀ t : Fin cfg0.N, win0_6.index t (0 : Fin 3) = t.val / 28 ∧ win0_6.index t (1 : Fin 3) = 0 ∧ win0_6.index t (2 : Fin 3) = 0 :=
  (by decide +kernel : ∀ t : Fin grid0.N, _)

/-! ## A block that holds batch element b's sums is the array's block at the last tile of b -/

/-- If a block X holds at (0, q, g) what the array G holds at (b, q, g), then X is what the write-back at the
    last tile of batch element b takes from G's place. -/
theorem lastTile_XG (t : Fin cfg0.N) (b : Fin 4) (hb : t.val = 28 * b.val + 27)
    (X : S1x300x100.Idx → EReal) (G : S4x300x100.Idx → EReal)
    (hX : ∀ (q : Fin 300) (g : Fin 100), X (ix3 (0 : Fin 1) q g) = G (ix3 b q g)) :
    (cfg0.win 3).cut (grid0.coords t) X = ((cfg0.win 3).blk t).view.read (Elt Ideal) G := by
  funext y
  show X y = G (((cfg0.win 3).blk t).view.emb y)
  obtain ⟨e0, e1, e2⟩ := blockOf_XG t
  obtain ⟨y0, q, g, rfl⟩ : ∃ (y0 : Fin 1) (q : Fin 300) (g : Fin 100), (y : S1x300x100.Idx) = ix3 y0 q g := ⟨y 0, y 1, y 2, eq_ix3 y⟩
  obtain rfl : y0 = 0 := Subsingleton.elim _ _
  rw [hX]
  congr 1
  funext a
  apply Fin.ext
  match a with
  | ⟨0, _⟩ => show b.val = win0_3.index t (0 : Fin 3) * 1 + 1 * ((0 : Fin 1) : Nat); rw [e0]; show b.val = _ * 1 + 1 * 0; omega
  | ⟨1, _⟩ => show q.val = win0_3.index t (1 : Fin 3) * 300 + 1 * q.val; rw [e1]; omega
  | ⟨2, _⟩ => show g.val = win0_3.index t (2 : Fin 3) * 100 + 1 * g.val; rw [e2]; omega

theorem lastTile_XW (t : Fin cfg0.N) (b : Fin 4) (hb : t.val = 28 * b.val + 27)
    (X : S1x300x1.Idx → EReal) (G : S4x300x1.Idx → EReal)
    (hX : ∀ q : Fin 300, X (ix3 (0 : Fin 1) q (0 : Fin 1)) = G (ix3 b q (0 : Fin 1))) :
    (cfg0.win 4).cut (grid0.coords t) X = ((cfg0.win 4).blk t).view.read (Elt Ideal) G := by
  funext y
  show X y = G (((cfg0.win 4).blk t).view.emb y)
  obtain ⟨e0, e1, e2⟩ := blockOf_XW t
  obtain ⟨y0, q, y2, rfl⟩ : ∃ (y0 : Fin 1) (q : Fin 300) (y2 : Fin 1), (y : S1x300x1.Idx) = ix3 y0 q y2 := ⟨y 0, y 1, y 2, eq_ix3 y⟩
  obtain rfl : y0 = 0 := Subsingleton.elim _ _
  obtain rfl : y2 = 0 := Subsingleton.elim _ _
  rw [hX]
  congr 1
  funext a
  apply Fin.ext
  match a with
  | ⟨0, _⟩ => show b.val = win0_4.index t (0 : Fin 3) * 1 + 1 * ((0 : Fin 1) : Nat); rw [e0]; show b.val = _ * 1 + 1 * 0; omega
  | ⟨1, _⟩ => show q.val = win0_4.index t (1 : Fin 3) * 300 + 1 * q.val; rw [e1]; omega
  | ⟨2, _⟩ => show ((0 : Fin 1) : Nat) = win0_4.index t (2 : Fin 3) * 1 + 1 * ((0 : Fin 1) : Nat); rw [e2]; rfl

theorem lastTile_SP (t : Fin cfg0.N) (b : Fin 4) (hb : t.val = 28 * b.val + 27)
    (X : S1x300x1.Idx → EReal) (G : S4x300x1.Idx → EReal)
    (hX : ∀ q : Fin 300, X (ix3 (0 : Fin 1) q (0 : Fin 1)) = G (ix3 b q (0 : Fin 1))) :
    (cfg0.win 5).cut (grid0.coords t) X = ((cfg0.win 5).blk t).view.read (Elt Ideal) G := by
  funext y
  show X y = G (((cfg0.win 5).blk t).view.emb y)
  obtain ⟨e0, e1, e2⟩ := blockOf_SP t
  obtain ⟨y0, q, y2, rfl⟩ : ∃ (y0 : Fin 1) (q : Fin 300) (y2 : Fin 1), (y : S1x300x1.Idx) = ix3 y0 q y2 := ⟨y 0, y 1, y 2, eq_ix3 y⟩
  obtain rfl : y0 = 0 := Subsingleton.elim _ _
  obtain rfl : y2 = 0 := Subsingleton.elim _ _
  rw [hX]
  congr 1
  funext a
  apply Fin.ext
  match a with
  | ⟨0, _⟩ => show b.val = win0_5.index t (0 : Fin 3) * 1 + 1 * ((0 : Fin 1) : Nat); rw [e0]; show b.val = _ * 1 + 1 * 0; omega
  | ⟨1, _⟩ => show q.val = win0_5.index t (1 : Fin 3) * 300 + 1 * q.val; rw [e1]; omega
  | ⟨2, _⟩ => show ((0 : Fin 1) : Nat) = win0_5.index t (2 : Fin 3) * 1 + 1 * ((0 : Fin 1) : Nat); rw [e2]; rfl

theorem lastTile_GW (t : Fin cfg0.N) (b : Fin 4) (hb : t.val = 28 * b.val + 27)
    (X : S1x100x1.Idx → EReal) (G : S4x100x1.Idx → EReal)
    (hX : ∀ g : Fin 100, X (ix3 (0 : Fin 1) g (0 : Fin 1)) = G (ix3 b g (0 : Fin 1))) :
    (cfg0.win 6).cut (grid0.coords t) X = ((cfg0.win 6).blk t).view.read (Elt Ideal) G := by
  funext y
  show X y = G (((cfg0.win 6).blk t).view.emb y)
  obtain ⟨e0, e1, e2⟩ := blockOf_GW t
  obtain ⟨y0, g, y2, rfl⟩ : ∃ (y0 : Fin 1) (g : Fin 100) (y2 : Fin 1), (y : S1x100x1.Idx) = ix3 y0 g y2 := ⟨y 0, y 1, y 2, eq_ix3 y⟩
  obtain rfl : y0 = 0 := Subsingleton.elim _ _
  obtain rfl : y2 = 0 := Subsingleton.elim _ _
  rw [hX]
  congr 1
  funext a
  apply Fin.ext
  match a with
  | ⟨0, _⟩ => show b.val = win0_6.index t (0 : Fin 3) * 1 + 1 * ((0 : Fin 1) : Nat); rw [e0]; show b.val = _ * 1 + 1 * 0; omega
  | ⟨1, _⟩ => show g.val = win0_6.index t (1 : Fin 3) * 100 + 1 * g.val; rw [e1]; omega
  | ⟨2, _⟩ => show ((0 : Fin 1) : Nat) = win0_6.index t (2 : Fin 3) * 1 + 1 * ((0 : Fin 1) : Nat); rw [e2]; rfl

/-! ## What each write-back writes: the sums of its batch element -/

/-- A point that writes back is the last tile 28 b + 27 of a batch element b. -/
theorem lastTile_of_mod {tv : ℕ} (htl : tv < cfg0.N) (h27 : tv % 28 = 27) : ∃ b : Fin 4, tv = 28 * b.val + 27 := by
  have hN : cfg0.N = 112 := N_eq
  exact ⟨⟨tv / 28, by omega⟩, by show tv = 28 * (tv / 28) + 27; omega⟩

theorem writeback_XG (c : Dev nD) (hr : InRange (m ((c.tc : Thread nD τ).loc main_arg4))) (t : Fin cfg0.N)
    (hf : (cfg0.win 3).flush t = true) :
    (dats m 0 c).flushed 3 t = ((cfg0.win 3).blk t).view.read (Elt Ideal) (resXG m c) := by
  have h27 := (flush0_3 t).mp hf
  obtain ⟨tv, htl⟩ := t
  obtain ⟨b, hb⟩ := lastTile_of_mod htl h27
  subst hb
  show (cfg0.win 3).cut (grid0.coords ⟨28 * b.val + 27, htl⟩) ((dats m 0 c).after 3 ⟨28 * b.val + 27, htl⟩) = _
  rw [after0_3]
  exact lastTile_XG ⟨28 * b.val + 27, htl⟩ b rfl _ (resXG m c) (fun q g => acc3_last m c hr b htl q g)

theorem writeback_XW (c : Dev nD) (hr : InRange (m ((c.tc : Thread nD τ).loc main_arg4))) (t : Fin cfg0.N)
    (hf : (cfg0.win 4).flush t = true) :
    (dats m 0 c).flushed 4 t = ((cfg0.win 4).blk t).view.read (Elt Ideal) (resXW m c) := by
  have h27 := (flush0_4 t).mp hf
  obtain ⟨tv, htl⟩ := t
  obtain ⟨b, hb⟩ := lastTile_of_mod htl h27
  subst hb
  show (cfg0.win 4).cut (grid0.coords ⟨28 * b.val + 27, htl⟩) ((dats m 0 c).after 4 ⟨28 * b.val + 27, htl⟩) = _
  rw [after0_4]
  exact lastTile_XW ⟨28 * b.val + 27, htl⟩ b rfl _ (resXW m c) (fun q => acc4_last m c hr b htl q)

theorem writeback_SP (c : Dev nD) (hr : InRange (m ((c.tc : Thread nD τ).loc main_arg4))) (t : Fin cfg0.N)
    (hf : (cfg0.win 5).flush t = true) :
    (dats m 0 c).flushed 5 t = ((cfg0.win 5).blk t).view.read (Elt Ideal) (resSP m c) := by
  have h27 := (flush0_5 t).mp hf
  obtain ⟨tv, htl⟩ := t
  obtain ⟨b, hb⟩ := lastTile_of_mod htl h27
  subst hb
  show (cfg0.win 5).cut (grid0.coords ⟨28 * b.val + 27, htl⟩) ((dats m 0 c).after 5 ⟨28 * b.val + 27, htl⟩) = _
  rw [after0_5]
  exact lastTile_SP ⟨28 * b.val + 27, htl⟩ b rfl _ (resSP m c) (fun q => acc5_last m c hr b htl q)

theorem writeback_GW (c : Dev nD) (hr : InRange (m ((c.tc : Thread nD τ).loc main_arg4))) (t : Fin cfg0.N)
    (hf : (cfg0.win 6).flush t = true) :
    (dats m 0 c).flushed 6 t = ((cfg0.win 6).blk t).view.read (Elt Ideal) (resGW m c) := by
  have h27 := (flush0_6 t).mp hf
  obtain ⟨tv, htl⟩ := t
  obtain ⟨b, hb⟩ := lastTile_of_mod htl h27
  subst hb
  show (cfg0.win 6).cut (grid0.coords ⟨28 * b.val + 27, htl⟩) ((dats m 0 c).after 6 ⟨28 * b.val + 27, htl⟩) = _
  rw [after0_6]
  exact lastTile_GW ⟨28 * b.val + 27, htl⟩ b rfl _ (resGW m c) (fun g => acc6_last m c hr b htl g)

/-! ## The write-backs cover each array: index (b, …) lies in the block written at the last tile of b -/

theorem mem_block_XG (t : Fin cfg0.N) (i : S4x300x100.Idx) :
    i ∈ ((cfg0.win 3).blk t).view.set ↔ ∀ a : Fin 3, win0_3.index t a * S1x300x100.size a ≤ (i a).val ∧ (i a).val < win0_3.index t a * S1x300x100.size a + S1x300x100.size a := by
  show i ∈ ((View.whole main_v40_0).slice (win0_3.rect t)).set ↔ _
  rw [View.set_slice_whole, Rect.mem_set_unit]
  exact Iff.rfl
theorem mem_block_XW (t : Fin cfg0.N) (i : S4x300x1.Idx) :
    i ∈ ((cfg0.win 4).blk t).view.set ↔ ∀ a : Fin 3, win0_4.index t a * S1x300x1.size a ≤ (i a).val ∧ (i a).val < win0_4.index t a * S1x300x1.size a + S1x300x1.size a := by
  show i ∈ ((View.whole main_v40_1).slice (win0_4.rect t)).set ↔ _
  rw [View.set_slice_whole, Rect.mem_set_unit]
  exact Iff.rfl
theorem mem_block_SP (t : Fin cfg0.N) (i : S4x300x1.Idx) :
    i ∈ ((cfg0.win 5).blk t).view.set ↔ ∀ a : Fin 3, win0_5.index t a * S1x300x1.size a ≤ (i a).val ∧ (i a).val < win0_5.index t a * S1x300x1.size a + S1x300x1.size a := by
  show i ∈ ((View.whole main_v40_2).slice (win0_5.rect t)).set ↔ _
  rw [View.set_slice_whole, Rect.mem_set_unit]
  exact Iff.rfl
theorem mem_block_GW (t : Fin cfg0.N) (i : S4x100x1.Idx) :
    i ∈ ((cfg0.win 6).blk t).view.set ↔ ∀ a : Fin 3, win0_6.index t a * S1x100x1.size a ≤ (i a).val ∧ (i a).val < win0_6.index t a * S1x100x1.size a + S1x100x1.size a := by
  show i ∈ ((View.whole main_v40_3).slice (win0_6.rect t)).set ↔ _
  rw [View.set_slice_whole, Rect.mem_set_unit]
  exact Iff.rfl

/-- After the launch the first result array holds the sums XG. -/
theorem array_XG (c : Dev nD) (hr : InRange (m ((c.tc : Thread nD τ).loc main_arg4))) :
    (dats m 0 c).arrAt 3 cfg0.N = resXG m c :=
  (dats m 0 c).arrAt_eq_of_cover 3 (resXG m c) (writeback_XG m c hr) fun i => by
    have hN : cfg0.N = 112 := N_eq
    have hi0 : (i 0 : Nat) < 4 := (i 0).isLt
    have hi1 : (i 1 : Nat) < 300 := (i 1).isLt
    have hi2 : (i 2 : Nat) < 100 := (i 2).isLt
    have ht : 28 * (i 0 : Nat) + 27 < cfg0.N := by omega
    obtain ⟨e0, e1, e2⟩ := blockOf_XG ⟨28 * (i 0 : Nat) + 27, ht⟩
    refine ⟨⟨28 * (i 0 : Nat) + 27, ht⟩, (flush0_3 _).mpr (by show (28 * (i 0 : Nat) + 27) % 28 = 27; omega), ?_⟩
    rw [mem_block_XG]
    intro a
    match a with
    | ⟨0, _⟩ => show win0_3.index _ (0 : Fin 3) * 1 ≤ (i 0).val ∧ (i 0).val < win0_3.index _ (0 : Fin 3) * 1 + 1; rw [e0]; dsimp only; omega
    | ⟨1, _⟩ => show win0_3.index _ (1 : Fin 3) * 300 ≤ (i 1).val ∧ (i 1).val < win0_3.index _ (1 : Fin 3) * 300 + 300; rw [e1]; omega
    | ⟨2, _⟩ => show win0_3.index _ (2 : Fin 3) * 100 ≤ (i 2).val ∧ (i 2).val < win0_3.index _ (2 : Fin 3) * 100 + 100; rw [e2]; omega

/-- After the launch the second result array holds the sums XW. -/
theorem array_XW (c : Dev nD) (hr : InRange (m ((c.tc : Thread nD τ).loc main_arg4))) :
    (dats m 0 c).arrAt 4 cfg0.N = resXW m c :=
  (dats m 0 c).arrAt_eq_of_cover 4 (resXW m c) (writeback_XW m c hr) fun i => by
    have hN : cfg0.N = 112 := N_eq
    have hi0 : (i 0 : Nat) < 4 := (i 0).isLt
    have hi1 : (i 1 : Nat) < 300 := (i 1).isLt
    have hi2 : (i 2 : Nat) < 1 := (i 2).isLt
    have ht : 28 * (i 0 : Nat) + 27 < cfg0.N := by omega
    obtain ⟨e0, e1, e2⟩ := blockOf_XW ⟨28 * (i 0 : Nat) + 27, ht⟩
    refine ⟨⟨28 * (i 0 : Nat) + 27, ht⟩, (flush0_4 _).mpr (by show (28 * (i 0 : Nat) + 27) % 28 = 27; omega), ?_⟩
    rw [mem_block_XW]
    intro a
    match a with
    | ⟨0, _⟩ => show win0_4.index _ (0 : Fin 3) * 1 ≤ (i 0).val ∧ (i 0).val < win0_4.index _ (0 : Fin 3) * 1 + 1; rw [e0]; dsimp only; omega
    | ⟨1, _⟩ => show win0_4.index _ (1 : Fin 3) * 300 ≤ (i 1).val ∧ (i 1).val < win0_4.index _ (1 : Fin 3) * 300 + 300; rw [e1]; omega
    | ⟨2, _⟩ => show win0_4.index _ (2 : Fin 3) * 1 ≤ (i 2).val ∧ (i 2).val < win0_4.index _ (2 : Fin 3) * 1 + 1; rw [e2]; omega

/-- After the launch the third result array holds the sums SP. -/
theorem array_SP (c : Dev nD) (hr : InRange (m ((c.tc : Thread nD τ).loc main_arg4))) :
    (dats m 0 c).arrAt 5 cfg0.N = resSP m c :=
  (dats m 0 c).arrAt_eq_of_cover 5 (resSP m c) (writeback_SP m c hr) fun i => by
    have hN : cfg0.N = 112 := N_eq
    have hi0 : (i 0 : Nat) < 4 := (i 0).isLt
    have hi1 : (i 1 : Nat) < 300 := (i 1).isLt
    have hi2 : (i 2 : Nat) < 1 := (i 2).isLt
    have ht : 28 * (i 0 : Nat) + 27 < cfg0.N := by omega
    obtain ⟨e0, e1, e2⟩ := blockOf_SP ⟨28 * (i 0 : Nat) + 27, ht⟩
    refine ⟨⟨28 * (i 0 : Nat) + 27, ht⟩, (flush0_5 _).mpr (by show (28 * (i 0 : Nat) + 27) % 28 = 27; omega), ?_⟩
    rw [mem_block_SP]
    intro a
    match a with
    | ⟨0, _⟩ => show win0_5.index _ (0 : Fin 3) * 1 ≤ (i 0).val ∧ (i 0).val < win0_5.index _ (0 : Fin 3) * 1 + 1; rw [e0]; dsimp only; omega
    | ⟨1, _⟩ => show win0_5.index _ (1 : Fin 3) * 300 ≤ (i 1).val ∧ (i 1).val < win0_5.index _ (1 : Fin 3) * 300 + 300; rw [e1]; omega
    | ⟨2, _⟩ => show win0_5.index _ (2 : Fin 3) * 1 ≤ (i 2).val ∧ (i 2).val < win0_5.index _ (2 : Fin 3) * 1 + 1; rw [e2]; omega

/-- After the launch the fourth result array holds the sums GW. -/
theorem array_GW (c : Dev nD) (hr : InRange (m ((c.tc : Thread nD τ).loc main_arg4))) :
    (dats m 0 c).arrAt 6 cfg0.N = resGW m c :=
  (dats m 0 c).arrAt_eq_of_cover 6 (resGW m c) (writeback_GW m c hr) fun i => by
    have hN : cfg0.N = 112 := N_eq
    have hi0 : (i 0 : Nat) < 4 := (i 0).isLt
    have hi1 : (i 1 : Nat) < 100 := (i 1).isLt
    have hi2 : (i 2 : Nat) < 1 := (i 2).isLt
    have ht : 28 * (i 0 : Nat) + 27 < cfg0.N := by omega
    obtain ⟨e0, e1, e2⟩ := blockOf_GW ⟨28 * (i 0 : Nat) + 27, ht⟩
    refine ⟨⟨28 * (i 0 : Nat) + 27, ht⟩, (flush0_6 _).mpr (by show (28 * (i 0 : Nat) + 27) % 28 = 27; omega), ?_⟩
    rw [mem_block_GW]
    intro a
    match a with
    | ⟨0, _⟩ => show win0_6.index _ (0 : Fin 3) * 1 ≤ (i 0).val ∧ (i 0).val < win0_6.index _ (0 : Fin 3) * 1 + 1; rw [e0]; dsimp only; omega
    | ⟨1, _⟩ => show win0_6.index _ (1 : Fin 3) * 100 ≤ (i 1).val ∧ (i 1).val < win0_6.index _ (1 : Fin 3) * 100 + 100; rw [e1]; omega
    | ⟨2, _⟩ => show win0_6.index _ (2 : Fin 3) * 1 ≤ (i 2).val ∧ (i 2).val < win0_6.index _ (2 : Fin 3) * 1 + 1; rw [e2]; omega

/-! ## The closing arithmetic -/

/-- The closing arithmetic as the program prints it, as one function of the class term and the four result arrays. -/
def tailK (cc x0 : FVec Ideal S4x300x100 .f32) (x1 x2 : FVec Ideal S4x300x1 .f32) (x3 : FVec Ideal S4x100x1 .f32) :
    FVec Ideal S4x300x100 .f32 :=
  addf
    (addf
      (mulf (broadcastInDim S4x300x100 ![] bcast_S_S4x300x100 (constant (F := Ideal) S_ .f32 0x40000000#32)) cc)
      (mulf (broadcastInDim S4x300x100 ![] bcast_S_S4x300x100 (constant (F := Ideal) S_ .f32 0x40A00000#32))
        (subf
          (broadcastInDim S4x300x100 ![0, 1, 2] bcast_S4x300x1_S4x300x100_0_1_2
            (broadcastInDim S4x300x1 ![0, 1] bcast_S4x300_S4x300x1_0_1
              (Host.divf (shapeCast S4x300 x2 shapeCasts_S4x300x1_S4x300)
                (broadcastInDim S4x300 ![] bcast_S_S4x300 (constant (F := Ideal) S_ .f32 0x46440000#32)))))
          (Host.divf x0 (broadcastInDim S4x300x100 ![] bcast_S_S4x300x100 (constant (F := Ideal) S_ .f32 0x46440000#32))))))
    (mulf (broadcastInDim S4x300x100 ![] bcast_S_S4x300x100 (constant (F := Ideal) S_ .f32 0x40A00000#32))
      (subf (broadcastInDim S4x300x100 ![] bcast_S_S4x300x100 (constant (F := Ideal) S_ .f32 0x3F800000#32))
        (Host.divf
          (addf (mulf (broadcastInDim S4x300x100 ![] bcast_S_S4x300x100 (constant (F := Ideal) S_ .f32 0x40000000#32)) x0)
            (broadcastInDim S4x300x100 ![] bcast_S_S4x300x100 (constant (F := Ideal) S_ .f32 0x3F800000#32)))
          (addf
            (addf
              (broadcastInDim S4x300x100 ![0, 1, 2] bcast_S4x300x1_S4x300x100_0_1_2
                (broadcastInDim S4x300x1 ![0, 1] bcast_S4x300_S4x300x1_0_1 (shapeCast S4x300 x1 shapeCasts_S4x300x1_S4x300)))
              (broadcastInDim S4x300x100 ![0, 1, 2] bcast_S4x1x100_S4x300x100_0_1_2
                (broadcastInDim S4x1x100 ![0, 2] bcast_S4x100_S4x1x100_0_2 (shapeCast S4x100 x3 shapeCasts_S4x100x1_S4x100))))
            (broadcastInDim S4x300x100 ![] bcast_S_S4x300x100 (constant (F := Ideal) S_ .f32 0x3F800000#32))))))

/-! ### The layout operations of the closing arithmetic, read at an index -/

/-- A scalar broadcast to the result shape reads the scalar everywhere. -/
theorem bc_scalar3 (x : FVec Ideal S_ .f32) (j : S4x300x100.Idx) :
    broadcastInDim S4x300x100 ![] bcast_S_S4x300x100 x j = x ix0 :=
  broadcastInDim_apply _ _ x j ix0 (fun a => a.elim0)

/-- A scalar broadcast to the query shape reads the scalar everywhere. -/
theorem bc_scalar2 (x : FVec Ideal S_ .f32) (j : S4x300.Idx) :
    broadcastInDim S4x300 ![] bcast_S_S4x300 x j = x ix0 :=
  broadcastInDim_apply _ _ x j ix0 (fun a => a.elim0)

/-- A per-query array given a trailing unit axis. -/
theorem bc_q1 (x : FVec Ideal S4x300 .f32) (b : Fin 4) (q : Fin 300) (u : Fin 1) :
    broadcastInDim S4x300x1 ![0, 1] bcast_S4x300_S4x300x1_0_1 x (ix3 b q u) = x (ix2 b q) :=
  broadcastInDim_apply _ _ x (ix3 b q u) (ix2 b q) (fun a => by
    match a with
    | ⟨0, _⟩ => rfl
    | ⟨1, _⟩ => rfl)

/-- A per-query column spread over the targets. -/
theorem bc_qg (x : FVec Ideal S4x300x1 .f32) (b : Fin 4) (q : Fin 300) (g : Fin 100) :
    broadcastInDim S4x300x100 ![0, 1, 2] bcast_S4x300x1_S4x300x100_0_1_2 x (ix3 b q g) = x (ix3 b q (0 : Fin 1)) :=
  broadcastInDim_apply _ _ x (ix3 b q g) (ix3 b q 0) (fun a => by
    match a with
    | ⟨0, _⟩ => rfl
    | ⟨1, _⟩ => rfl
    | ⟨2, _⟩ => rfl)

/-- A per-target array given a middle unit axis. -/
theorem bc_g1 (x : FVec Ideal S4x100 .f32) (b : Fin 4) (u : Fin 1) (g : Fin 100) :
    broadcastInDim S4x1x100 ![0, 2] bcast_S4x100_S4x1x100_0_2 x (ix3 b u g) = x (ix2 b g) :=
  broadcastInDim_apply _ _ x (ix3 b u g) (ix2 b g) (fun a => by
    match a with
    | ⟨0, _⟩ => rfl
    | ⟨1, _⟩ => rfl)

/-- A per-target row spread over the queries. -/
theorem bc_gq (x : FVec Ideal S4x1x100 .f32) (b : Fin 4) (q : Fin 300) (g : Fin 100) :
    broadcastInDim S4x300x100 ![0, 1, 2] bcast_S4x1x100_S4x300x100_0_1_2 x (ix3 b q g) = x (ix3 b (0 : Fin 1) g) :=
  broadcastInDim_apply _ _ x (ix3 b q g) (ix3 b 0 g) (fun a => by
    match a with
    | ⟨0, _⟩ => rfl
    | ⟨1, _⟩ => rfl
    | ⟨2, _⟩ => rfl)

/-- Dropping the trailing unit axis of a per-query column. -/
theorem rs_q (x : FVec Ideal S4x300x1 .f32) (b : Fin 4) (q : Fin 300) :
    shapeCast S4x300 x shapeCasts_S4x300x1_S4x300 (ix2 b q) = x (ix3 b q (0 : Fin 1)) :=
  shapeCast_apply x _ (ix2 b q) (ix3 b q 0) (by
    rw [Shape.rowMajor_val_three, Shape.rowMajor_val_two]
    show (b.val * 300 + q.val) * 1 + 0 = b.val * 300 + q.val
    omega)

/-- Dropping the trailing unit axis of a per-target column. -/
theorem rs_g (x : FVec Ideal S4x100x1 .f32) (b : Fin 4) (g : Fin 100) :
    shapeCast S4x100 x shapeCasts_S4x100x1_S4x100 (ix2 b g) = x (ix3 b g (0 : Fin 1)) :=
  shapeCast_apply x _ (ix2 b g) (ix3 b g 0) (by
    rw [Shape.rowMajor_val_three, Shape.rowMajor_val_two]
    show (b.val * 100 + g.val) * 1 + 0 = b.val * 100 + g.val
    omega)

/-- The host's quotient of two arrays at an index is the quotient of the entries. -/
theorem hdiv_apply {s : Shape} (x y : FVec Ideal s .f32) (i : s.Idx) : Host.divf x y i = Ideal.div (x i) (y i) := rfl

/-- The printed closing arithmetic, read at an index, is the cost of the specification. -/
theorem tailK_eq (cc x0 : FVec Ideal S4x300x100 .f32) (x1 x2 : FVec Ideal S4x300x1 .f32) (x3 : FVec Ideal S4x100x1 .f32) :
    tailK cc x0 x1 x2 x3 = tail cc (fun b q g => x0 (ix3 b q g)) (fun b q => x1 (ix3 b q (0 : Fin 1)))
      (fun b q => x2 (ix3 b q (0 : Fin 1))) (fun b g => x3 (ix3 b g (0 : Fin 1))) := by
  funext i
  obtain ⟨b, q, g, rfl⟩ : ∃ (b : Fin 4) (q : Fin 300) (g : Fin 100), i = ix3 b q g := ⟨i 0, i 1, i 2, eq_ix3 i⟩
  unfold tailK tail
  simp only [addf_apply, mulf_apply, subf_apply, hdiv_apply]
  rw [bc_scalar3, bc_scalar3, bc_scalar3, bc_scalar3, bc_qg, bc_qg, bc_gq, bc_q1, bc_q1, bc_g1, hdiv_apply, rs_q, rs_q, rs_g,
    bc_scalar2]
  rfl

/-! ## The host operations after the launch compute the closing arithmetic of the result arrays -/

set_option maxHeartbeats 2000000 in
/-- What the last buffer holds at the end: the closing arithmetic of the class term, as the launch found it,
    and of the four result arrays, as the launch left them. -/
theorem cost_ops (c : Dev nD) :
    (Pipeline.afterTail₀ cfgs (dats (F := Ideal) m) 0 (V0 m) [hostOps1] c main_v72 : S4x300x100.Idx → EReal)
      = tailK (V m c main_v19) ((dats m 0 c).arrAt 3 cfg0.N) ((dats m 0 c).arrAt 4 cfg0.N)
          ((dats m 0 c).arrAt 5 cfg0.N) ((dats m 0 c).arrAt 6 cfg0.N) := by
  have w0 : Pipeline.withArrays (cfgs 0).spec c (V0 m c) (fun w => (dats m 0 c).arrAt w (cfgs 0).N) (Proc.devRef .tc main_v40_0)
      = (dats m 0 c).arrAt 3 cfg0.N := Pipeline.withArrays_arr spec0 launch0.win.arr_inj c _ _ 3
  have w1 : Pipeline.withArrays (cfgs 0).spec c (V0 m c) (fun w => (dats m 0 c).arrAt w (cfgs 0).N) (Proc.devRef .tc main_v40_1)
      = (dats m 0 c).arrAt 4 cfg0.N := Pipeline.withArrays_arr spec0 launch0.win.arr_inj c _ _ 4
  have w2 : Pipeline.withArrays (cfgs 0).spec c (V0 m c) (fun w => (dats m 0 c).arrAt w (cfgs 0).N) (Proc.devRef .tc main_v40_2)
      = (dats m 0 c).arrAt 5 cfg0.N := Pipeline.withArrays_arr spec0 launch0.win.arr_inj c _ _ 5
  have w3 : Pipeline.withArrays (cfgs 0).spec c (V0 m c) (fun w => (dats m 0 c).arrAt w (cfgs 0).N) (Proc.devRef .tc main_v40_3)
      = (dats m 0 c).arrAt 6 cfg0.N := Pipeline.withArrays_arr spec0 launch0.win.arr_inj c _ _ 6
  have wc : Pipeline.withArrays (cfgs 0).spec c (V0 m c) (fun w => (dats m 0 c).arrAt w (cfgs 0).N) (Proc.devRef .tc main_v19)
      = V m c main_v19 :=
    Pipeline.withArrays_of_ne _ c (V0 m c) _ main_v19 (by exact (by decide : ∀ w, Pipeline.arrRef spec0 w ≠ main_v19))
  unfold Pipeline.afterTail₀
  simp only [hostOps1, List.flatten_cons, List.flatten_nil, List.append_nil]
  after_results_simp
  rw [w0, w1, w2, w3, wc]
  rfl

/-- The last buffer ends at the cost of the specification. -/
theorem cost_value (c : Dev nD) (hr : InRange (m ((c.tc : Thread nD τ).loc main_arg4))) :
    (Pipeline.afterTail₀ cfgs (dats (F := Ideal) m) 0 (V0 m) [hostOps1] c main_v72 : S4x300x100.Idx → EReal)
      = tail (ccK (F := Ideal) (m ((c.tc : Thread nD τ).loc main_arg0)) (m ((c.tc : Thread nD τ).loc main_arg2)))
          (kXG (m ((c.tc : Thread nD τ).loc main_arg1)) (m ((c.tc : Thread nD τ).loc main_arg3)) (m ((c.tc : Thread nD τ).loc main_arg4)))
          (kXW (m ((c.tc : Thread nD τ).loc main_arg1)) (m ((c.tc : Thread nD τ).loc main_arg4)))
          (kSP (m ((c.tc : Thread nD τ).loc main_arg1)) (m ((c.tc : Thread nD τ).loc main_arg4)))
          (kGW (m ((c.tc : Thread nD τ).loc main_arg3)) (m ((c.tc : Thread nD τ).loc main_arg4))) := by
  rw [cost_ops, ccK_V, array_XG m c hr, array_XW m c hr, array_SP m c hr, array_GW m c hr, tailK_eq]

/-! ## The run -/

theorem run (hr : ∀ c : Dev nD, InRange (m ((c.tc : Thread nD τ).loc main_arg4))) :
    θ_run (defs (F := Ideal)) (onTc (τ := τ) (main (F := Ideal))) ⟨m, fun _ => 0, ρ⟩ fun r => ∀ c : Dev nD,
      r.2.mem ((c.tc : Thread nD τ).loc main_v72)
        = tail (ccK (F := Ideal) (m ((c.tc : Thread nD τ).loc main_arg0)) (m ((c.tc : Thread nD τ).loc main_arg2)))
            (kXG (m ((c.tc : Thread nD τ).loc main_arg1)) (m ((c.tc : Thread nD τ).loc main_arg3)) (m ((c.tc : Thread nD τ).loc main_arg4)))
            (kXW (m ((c.tc : Thread nD τ).loc main_arg1)) (m ((c.tc : Thread nD τ).loc main_arg4)))
            (kSP (m ((c.tc : Thread nD τ).loc main_arg1)) (m ((c.tc : Thread nD τ).loc main_arg4)))
            (kGW (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v72 (Pipeline.mem_restRefs_of main_v72 (by decide) (by decide))).trans (cost_value m c (hr c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

end Cert.KernelIdeal.Bridge

end
-- ==== Proof.RRun.lean ====
/-
  The reference program's result. It gathers the sampled columns of the mask logits and of the target masks
  (with every index in range the gather reads exactly column `col b n`), applies the logistic function
  and softplus, sums over the samples, and combines the four sums with the class term into the cost.
-/
import proofs.«428432_j91250875171593_1_alg».proof.Proof.Spec
import proofs.«428432_j91250875171593_1_alg».proof.Proof.Gen.ReferenceIdeal.Run
import proofs.«428432_j91250875171593_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Bridge

open Idealize.ShloMosaic Idealize.ShloMosaic.TcCoe Idealize.SL.Sem Idealize.ShloMosaic.ValueIdx
open Cert.ReferenceIdeal Cert.ReferenceIdeal.Gen Cert.MaskCost

/-- The class term, as the reference's first host operations compute it (the generated stage of `%19`). -/
abbrev ccR {F : FTy → Type} [FloatOps F] (a0 : FVec F S4x300x81 .f32) (a2 : IVec S4x100 32) : FVec F S4x300x100 .f32 :=
  Cert.ReferenceIdeal.Read.val_main_v19 (F := F) a0 a2

/-! ## Words and scalars -/

/-- A word below 50176 is non-negative when read signed. -/
theorem toInt_of_lt (w : BitVec 32) (h : w.toNat < 50176) : w.toInt = (w.toNat : Int) := by
  rw [BitVec.toInt_eq_toNat_cond]; split <;> omega

theorem toInt_toNat_of_lt (w : BitVec 32) (h : w.toNat < 50176) : w.toInt.toNat = w.toNat := by
  rw [toInt_of_lt w h]; exact Int.toNat_natCast _

/-- The negative-index wrap keeps a word that is in range. -/
theorem wrap_keep (w : BitVec 32) (h : w.toNat < 50176) :
    Scalar.select (IntOp.cmpi .slt w 0#32) (IntOp.addi w 50176#32) w = w := by
  have h0 : IntOp.cmpi .slt w 0#32 = 0#1 := by
    unfold IntOp.cmpi
    have : w.slt 0#32 = false := by
      simp only [BitVec.slt, toInt_of_lt w h]
      simp
    simp [this]
  rw [h0]; exact select_zero _ _

/-- The quotient 1 / (1 + e^(-x)), with the literal word of one, is the logistic function. -/
theorem sg_eq (x : EReal) :
    Ideal.div (Ideal.ofBits .f32 0x3F800000#32) (Ideal.ofBits .f32 0x3F800000#32 + Ideal.exp (-x)) = sg x := by
  rw [Ideal.ofBits_one_f32]; rfl

/-- The reference's softplus: with d = x - 0 the comparison d ≠ d is never true on the extended reals, so the
    select takes max(x, 0) + log(1 + e^(-|d|)), and d = x. -/
theorem spl_eq (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      = spl x := by
  rw [Ideal.ofBits_zero_f32, sub_zero]
  have h0 : Ideal.cmp .une x x = 0#1 := by simp [Ideal.cmp]
  rw [h0, select_zero]; rfl

theorem gtf_eq (w : BitVec 32) : FloatOps.sitofp (F := Ideal) .f32 w = gtf w := rfl

/-! ## The two gathers at an index -/

section Gather
variable {α : Type}

/-- The gather of the mask logits reads, at result index (b, q, n), the operand at (b, q, s) where s is the start
    index word at (b, n, 0) read signed and clamped to the last column: axis 0 is the batching axis, axis 1 the
    offset axis, axis 2 the collapsed axis the start index names. -/
theorem gatherPm_apply (x : S4x300x50176.Idx → α) (idx : IVec S4x12544x1 32) (b : Fin 4) (q : Fin 300) (n : Fin 12544) :
    Host.gather gather_S4x300x50176_S4x12544x1_S4x300x12544_1_2_0_0_2_2_13001 x idx (ix3 b q n)
      = x (ix3 b q ⟨min (idx (ix3 b n (0 : Fin 1))).toInt.toNat 50175, by omega⟩) := by
  unfold Host.gather
  congr 1
  funext a
  refine Fin.ext ?_
  match a with
  | ⟨0, _⟩ =>
    show gather_S4x300x50176_S4x12544x1_S4x300x12544_1_2_0_0_2_2_13001.start (ix3 b q n) idx 0
        + gather_S4x300x50176_S4x12544x1_S4x300x12544_1_2_0_0_2_2_13001.batchCoord (ix3 b q n) 0
        + gather_S4x300x50176_S4x12544x1_S4x300x12544_1_2_0_0_2_2_13001.offCoord (ix3 b q n) 0 = b.val
    rw [GatherDims.start_batching _ _ _ _ (by decide),
      GatherDims.offCoord_eq_zero _ _ _ (by decide)]
    simp only [Nat.zero_add, Nat.add_zero]
    unfold GatherDims.batchCoord
    rw [dif_pos (by decide)]
    rfl
  | ⟨1, _⟩ =>
    show gather_S4x300x50176_S4x12544x1_S4x300x12544_1_2_0_0_2_2_13001.start (ix3 b q n) idx 1
        + gather_S4x300x50176_S4x12544x1_S4x300x12544_1_2_0_0_2_2_13001.batchCoord (ix3 b q n) 1
        + gather_S4x300x50176_S4x12544x1_S4x300x12544_1_2_0_0_2_2_13001.offCoord (ix3 b q n) 1 = q.val
    rw [GatherDims.batchCoord_eq_zero _ _ _ (by decide)]
    unfold GatherDims.start
    rw [dif_neg (by decide)]
    simp only [Nat.zero_add, Nat.add_zero]
    unfold GatherDims.offCoord
    rw [dif_pos (by decide)]
    rfl
  | ⟨2, _⟩ =>
    show gather_S4x300x50176_S4x12544x1_S4x300x12544_1_2_0_0_2_2_13001.start (ix3 b q n) idx 2
        + gather_S4x300x50176_S4x12544x1_S4x300x12544_1_2_0_0_2_2_13001.batchCoord (ix3 b q n) 2
        + gather_S4x300x50176_S4x12544x1_S4x300x12544_1_2_0_0_2_2_13001.offCoord (ix3 b q n) 2
        = min (idx (ix3 b n (0 : Fin 1))).toInt.toNat 50175
    rw [GatherDims.batchCoord_eq_zero _ _ _ (by decide),
      GatherDims.offCoord_eq_zero _ _ _ (by decide)]
    simp only [Nat.add_zero]
    unfold GatherDims.start
    rw [dif_pos (show (2 : Fin S4x300x50176.rank) ∈ gather_S4x300x50176_S4x12544x1_S4x300x12544_1_2_0_0_2_2_13001.startIndexMap by decide)]
    have hsi : gather_S4x300x50176_S4x12544x1_S4x300x12544_1_2_0_0_2_2_13001.siIdx (ix3 b q n)
        ⟨List.idxOf (2 : Fin S4x300x50176.rank) gather_S4x300x50176_S4x12544x1_S4x300x12544_1_2_0_0_2_2_13001.startIndexMap,
          List.idxOf_lt_length_iff.2 (by decide)⟩ = ix3 b n (0 : Fin 1) := by
      funext c; refine Fin.ext ?_
      match c with
      | ⟨0, _⟩ => rfl
      | ⟨1, _⟩ => rfl
      | ⟨2, _⟩ => rfl
    rw [hsi]
    rfl

end Gather

section GatherGt
variable {α : Type}

/-- The gather of the target masks reads the same column: the record differs only in the offset axis's extent. -/
theorem gatherGt_apply (x : S4x100x50176.Idx → α) (idx : IVec S4x12544x1 32) (b : Fin 4) (q : Fin 100) (n : Fin 12544) :
    Host.gather gather_S4x100x50176_S4x12544x1_S4x100x12544_1_2_0_0_2_2_11001 x idx (ix3 b q n)
      = x (ix3 b q ⟨min (idx (ix3 b n (0 : Fin 1))).toInt.toNat 50175, by omega⟩) := by
  unfold Host.gather
  congr 1
  funext a
  refine Fin.ext ?_
  match a with
  | ⟨0, _⟩ =>
    show gather_S4x100x50176_S4x12544x1_S4x100x12544_1_2_0_0_2_2_11001.start (ix3 b q n) idx 0
        + gather_S4x100x50176_S4x12544x1_S4x100x12544_1_2_0_0_2_2_11001.batchCoord (ix3 b q n) 0
        + gather_S4x100x50176_S4x12544x1_S4x100x12544_1_2_0_0_2_2_11001.offCoord (ix3 b q n) 0 = b.val
    rw [GatherDims.start_batching _ _ _ _ (by decide),
      GatherDims.offCoord_eq_zero _ _ _ (by decide)]
    simp only [Nat.zero_add, Nat.add_zero]
    unfold GatherDims.batchCoord
    rw [dif_pos (by decide)]
    rfl
  | ⟨1, _⟩ =>
    show gather_S4x100x50176_S4x12544x1_S4x100x12544_1_2_0_0_2_2_11001.start (ix3 b q n) idx 1
        + gather_S4x100x50176_S4x12544x1_S4x100x12544_1_2_0_0_2_2_11001.batchCoord (ix3 b q n) 1
        + gather_S4x100x50176_S4x12544x1_S4x100x12544_1_2_0_0_2_2_11001.offCoord (ix3 b q n) 1 = q.val
    rw [GatherDims.batchCoord_eq_zero _ _ _ (by decide)]
    unfold GatherDims.start
    rw [dif_neg (by decide)]
    simp only [Nat.zero_add, Nat.add_zero]
    unfold GatherDims.offCoord
    rw [dif_pos (by decide)]
    rfl
  | ⟨2, _⟩ =>
    show gather_S4x100x50176_S4x12544x1_S4x100x12544_1_2_0_0_2_2_11001.start (ix3 b q n) idx 2
        + gather_S4x100x50176_S4x12544x1_S4x100x12544_1_2_0_0_2_2_11001.batchCoord (ix3 b q n) 2
        + gather_S4x100x50176_S4x12544x1_S4x100x12544_1_2_0_0_2_2_11001.offCoord (ix3 b q n) 2
        = min (idx (ix3 b n (0 : Fin 1))).toInt.toNat 50175
    rw [GatherDims.batchCoord_eq_zero _ _ _ (by decide),
      GatherDims.offCoord_eq_zero _ _ _ (by decide)]
    simp only [Nat.add_zero]
    unfold GatherDims.start
    rw [dif_pos (show (2 : Fin S4x100x50176.rank) ∈ gather_S4x100x50176_S4x12544x1_S4x100x12544_1_2_0_0_2_2_11001.startIndexMap by decide)]
    have hsi : gather_S4x100x50176_S4x12544x1_S4x100x12544_1_2_0_0_2_2_11001.siIdx (ix3 b q n)
        ⟨List.idxOf (2 : Fin S4x100x50176.rank) gather_S4x100x50176_S4x12544x1_S4x100x12544_1_2_0_0_2_2_11001.startIndexMap,
          List.idxOf_lt_length_iff.2 (by decide)⟩ = ix3 b n (0 : Fin 1) := by
      funext c; refine Fin.ext ?_
      match c with
      | ⟨0, _⟩ => rfl
      | ⟨1, _⟩ => rfl
      | ⟨2, _⟩ => rfl
    rw [hsi]
    rfl

end GatherGt

/-! ## The reference's stages at an index -/

section Stages
variable (x1 : (⟨S4x300x50176, .f32⟩ : BufTy).Contents (Elt Ideal))
  (x3 : (⟨S4x100x50176, .i32⟩ : BufTy).Contents (Elt Ideal))
  (x4 : (⟨S4x12544, .i32⟩ : BufTy).Contents (Elt Ideal)) (hr : InRange x4)
include hr

/-- The start index word of sample (b, n): an index in range is not wrapped. -/
theorem v25_at (b : Fin 4) (n : Fin 12544) :
    Read.val_main_v25 (F := Ideal) x4 (ix3 b n (0 : Fin 1)) = x4 (ix2 b n) := by
  have e : Read.idx_main_v25 (ix3 b n (0 : Fin 1)) = ix2 b n :=
    funext fun a => Fin.ext (by match a with | ⟨0, _⟩ => rfl | ⟨1, _⟩ => rfl)
  rw [Read.val_main_v25_apply, Read.val_main_v24_apply, Read.val_main_v21_apply, Read.val_main_v23_apply,
    Read.val_main_v20_apply, Read.val_main_v22_apply, Read.val_main_c_5_apply, Read.val_main_c_6_apply, e]
  exact wrap_keep _ (hr _)

theorem v32_at (b : Fin 4) (n : Fin 12544) :
    Read.val_main_v32 (F := Ideal) x4 (ix3 b n (0 : Fin 1)) = x4 (ix2 b n) := by
  have e : Read.idx_main_v32 (ix3 b n (0 : Fin 1)) = ix2 b n :=
    funext fun a => Fin.ext (by match a with | ⟨0, _⟩ => rfl | ⟨1, _⟩ => rfl)
  rw [Read.val_main_v32_apply, Read.val_main_v31_apply, Read.val_main_v28_apply, Read.val_main_v30_apply,
    Read.val_main_v27_apply, Read.val_main_v29_apply, Read.val_main_c_7_apply, Read.val_main_c_8_apply, e]
  exact wrap_keep _ (hr _)

/-- The gathered mask logit of sample n is the logit in column `col b n`. -/
theorem v26_at (b : Fin 4) (q : Fin 300) (n : Fin 12544) :
    Read.val_main_v26 (F := Ideal) x1 x4 (ix3 b q n) = x1 (ix3 b q (col x4 b n)) := by
  unfold Read.val_main_v26
  refine (gatherPm_apply x1 (Read.val_main_v25 (F := Ideal) x4) b q n).trans ?_
  refine congrArg x1 (congrArg (ix3 b q) (Fin.ext ?_))
  show min (Read.val_main_v25 (F := Ideal) x4 (ix3 b n (0 : Fin 1))).toInt.toNat 50175 = min (x4 (ix2 b n)).toNat 50175
  rw [v25_at x4 hr, toInt_toNat_of_lt _ (hr _)]

/-- The gathered target-mask word of sample n is the word in column `col b n`. -/
theorem v33_at (b : Fin 4) (g : Fin 100) (n : Fin 12544) :
    Read.val_main_v33 (F := Ideal) x3 x4 (ix3 b g n) = x3 (ix3 b g (col x4 b n)) := by
  unfold Read.val_main_v33
  refine (gatherGt_apply x3 (Read.val_main_v32 (F := Ideal) x4) b g n).trans ?_
  refine congrArg x3 (congrArg (ix3 b g) (Fin.ext ?_))
  show min (Read.val_main_v32 (F := Ideal) x4 (ix3 b n (0 : Fin 1))).toInt.toNat 50175 = min (x4 (ix2 b n)).toNat 50175
  rw [v32_at x4 hr, toInt_toNat_of_lt _ (hr _)]

/-- The target mask as a float. -/
theorem v34_at (b : Fin 4) (g : Fin 100) (n : Fin 12544) :
    Read.val_main_v34 (F := Ideal) x3 x4 (ix3 b g n) = gtf (x3 (ix3 b g (col x4 b n))) := by
  rw [Read.val_main_v34_apply, v33_at x3 x4 hr]; rfl

/-- The logistic function of the gathered logit. -/
theorem v40_at (b : Fin 4) (q : Fin 300) (n : Fin 12544) :
    Read.val_main_v40 (F := Ideal) x1 x4 (ix3 b q n) = sg (x1 (ix3 b q (col x4 b n))) := by
  rw [Read.val_main_v40_apply, Read.val_main_v39_apply, Read.val_main_cst_10_apply, Read.val_main_v38_apply,
    Read.val_main_v37_apply, Read.val_main_cst_9_apply, Read.val_main_v36_apply, Read.val_main_v35_apply,
    v26_at x1 x4 hr]
  exact sg_eq _

/-- softplus of it. -/
theorem v41_at (b : Fin 4) (q : Fin 300) (n : Fin 12544) :
    Read.val_main_v41 (F := Ideal) x1 x4 (ix3 b q n) = spl (sg (x1 (ix3 b q (col x4 b n)))) := by
  rw [Read.val_main_v41_apply, Read.val_main_call1_v4_apply, Read.val_main_call1_v6_apply, Read.val_main_call1_v11_apply,
    Read.val_main_call1_v1_apply, Read.val_main_call1_v10_apply, Read.val_main_call1_v9_apply, Read.val_main_call1_v8_apply,
    Read.val_main_call1_v7_apply, Read.val_main_call1_v3_apply, Read.val_main_call1_v0_apply, Read.val_main_call1_v2_apply,
    Read.val_main_call1_v5_apply, Read.val_main_call1_cst_apply, v40_at x1 x4 hr]
  exact spl_eq _

/-! ## The four sums over the samples -/

theorem v42_at (b : Fin 4) (q : Fin 300) :
    Read.val_main_v42 (F := Ideal) x1 x4 (ix2 b q) = rSP x1 x4 b q := by
  have e : ∀ k : Fin 12544, Read.idx_main_v42 (ix2 b q) k = ix3 b q k := fun k =>
    funext fun a => Fin.ext (by match a with | ⟨0, _⟩ => rfl | ⟨1, _⟩ => rfl | ⟨2, _⟩ => rfl)
  rw [Read.val_main_v42_apply, Read.val_main_cst_11_apply]
  show Ideal.ofBits .f32 0x00000000#32 + _ = _
  rw [Ideal.ofBits_zero_f32, zero_add]
  unfold rSP
  exact Finset.sum_congr rfl fun k _ => by rw [e k, v41_at x1 x4 hr]

theorem v51_at (b : Fin 4) (q : Fin 300) :
    Read.val_main_v51 (F := Ideal) x1 x4 (ix2 b q) = rXW x1 x4 b q := by
  have e : ∀ k : Fin 12544, Read.idx_main_v51 (ix2 b q) k = ix3 b q k := fun k =>
    funext fun a => Fin.ext (by match a with | ⟨0, _⟩ => rfl | ⟨1, _⟩ => rfl | ⟨2, _⟩ => rfl)
  rw [Read.val_main_v51_apply, Read.val_main_cst_14_apply]
  show Ideal.ofBits .f32 0x00000000#32 + _ = _
  rw [Ideal.ofBits_zero_f32, zero_add]
  unfold rXW
  exact Finset.sum_congr rfl fun k _ => by rw [e k, v40_at x1 x4 hr]

theorem v53_at (b : Fin 4) (g : Fin 100) :
    Read.val_main_v53 (F := Ideal) x3 x4 (ix2 b g) = rGW x3 x4 b g := by
  have e : ∀ k : Fin 12544, Read.idx_main_v53 (ix2 b g) k = ix3 b g k := fun k =>
    funext fun a => Fin.ext (by match a with | ⟨0, _⟩ => rfl | ⟨1, _⟩ => rfl | ⟨2, _⟩ => rfl)
  rw [Read.val_main_v53_apply, Read.val_main_cst_15_apply]
  show Ideal.ofBits .f32 0x00000000#32 + _ = _
  rw [Ideal.ofBits_zero_f32, zero_add]
  unfold rGW
  exact Finset.sum_congr rfl fun k _ => by rw [e k, v34_at x3 x4 hr]

theorem v45_at (b : Fin 4) (q : Fin 300) (g : Fin 100) :
    Read.val_main_v45 (F := Ideal) x1 x3 x4 (ix3 b q g) = rXG x1 x3 x4 b q g := by
  have el : ∀ k : Fin 12544, Read.lidx_main_v45 (ix3 b q g) k = ix3 b q k := fun k =>
    funext fun a => Fin.ext (by match a with | ⟨0, _⟩ => rfl | ⟨1, _⟩ => rfl | ⟨2, _⟩ => rfl)
  have er : ∀ k : Fin 12544, Read.ridx_main_v45 (ix3 b q g) k = ix3 b g k := fun k =>
    funext fun a => Fin.ext (by match a with | ⟨0, _⟩ => rfl | ⟨1, _⟩ => rfl | ⟨2, _⟩ => rfl)
  rw [Read.val_main_v45_apply]
  unfold rXG
  exact Finset.sum_congr rfl fun k _ => by rw [el k, er k, v40_at x1 x4 hr, v34_at x3 x4 hr]

end Stages

/-! ## The result is the cost -/

theorem result_eq (a0 : (⟨S4x300x81, .f32⟩ : BufTy).Contents (Elt Ideal))
    (a1 : (⟨S4x300x50176, .f32⟩ : BufTy).Contents (Elt Ideal))
    (a2 : (⟨S4x100, .i32⟩ : BufTy).Contents (Elt Ideal))
    (a3 : (⟨S4x100x50176, .i32⟩ : BufTy).Contents (Elt Ideal))
    (a4 : (⟨S4x12544, .i32⟩ : BufTy).Contents (Elt Ideal)) (hr : InRange a4) :
    Read.val_main_v74 (F := Ideal) a0 a1 a2 a3 a4
      = tail (ccR (F := Ideal) a0 a2) (rXG a1 a3 a4) (rXW a1 a4) (rSP a1 a4) (rGW a3 a4) := by
  funext i
  obtain ⟨b, q, g, rfl⟩ : ∃ (b : Fin 4) (q : Fin 300) (g : Fin 100), i = ix3 b q g := ⟨i 0, i 1, i 2, eq_ix3 i⟩
  have e1 : Read.idx_main_v46 (Read.idx_main_v49 (ix3 b q g)) = ix2 b q :=
    funext fun a => Fin.ext (by match a with | ⟨0, _⟩ => rfl | ⟨1, _⟩ => rfl)
  have e2 : Read.idx_main_v52 (Read.idx_main_v55 (ix3 b q g)) = ix2 b q :=
    funext fun a => Fin.ext (by match a with | ⟨0, _⟩ => rfl | ⟨1, _⟩ => rfl)
  have e3 : Read.idx_main_v54 (Read.idx_main_v56 (ix3 b q g)) = ix2 b g :=
    funext fun a => Fin.ext (by match a with | ⟨0, _⟩ => rfl | ⟨1, _⟩ => rfl)
  rw [Read.val_main_v74_apply, Read.val_main_v71_apply, Read.val_main_v73_apply, Read.val_main_v68_apply,
    Read.val_main_v70_apply, Read.val_main_v67_apply, Read.val_main_cst_20_apply, Read.val_main_v69_apply,
    Read.val_main_cst_21_apply, Read.val_main_v50_apply, Read.val_main_v49_apply, Read.val_main_v46_apply,
    Read.val_main_v44_apply, Read.val_main_v48_apply, Read.val_main_v47_apply, Read.val_main_cst_13_apply,
    Read.val_main_v43_apply, Read.val_main_cst_12_apply, Read.val_main_v72_apply, Read.val_main_cst_22_apply,
    Read.val_main_v66_apply, Read.val_main_v65_apply, Read.val_main_cst_19_apply, Read.val_main_v64_apply,
    Read.val_main_v61_apply, Read.val_main_v59_apply, Read.val_main_v58_apply, Read.val_main_cst_16_apply,
    Read.val_main_v60_apply, Read.val_main_cst_17_apply, Read.val_main_v63_apply, Read.val_main_v57_apply,
    Read.val_main_v55_apply, Read.val_main_v52_apply, Read.val_main_v56_apply, Read.val_main_v54_apply,
    Read.val_main_v62_apply, Read.val_main_cst_18_apply,
    e1, e2, e3, v42_at a1 a4 hr, v51_at a1 a4 hr, v53_at a3 a4 hr, v45_at a1 a3 a4 hr]
  rfl

variable (m : (ℓ : Loc nD τ sig) → Buf (Elt Ideal) ℓ) (ρ : Dev nD → PrngReg)

theorem run (hr : ∀ c : Dev nD, InRange (m ((c.tc : Thread nD τ).loc main_arg4))) :
    θ_run (defs (F := Ideal)) (onTc (τ := τ) (main (F := Ideal))) ⟨m, fun _ => 0, ρ⟩ fun r => ∀ c : Dev nD,
      r.2.mem ((c.tc : Thread nD τ).loc main_v74)
        = tail (ccR (F := Ideal) (m ((c.tc : Thread nD τ).loc main_arg0)) (m ((c.tc : Thread nD τ).loc main_arg2)))
            (rXG (m ((c.tc : Thread nD τ).loc main_arg1)) (m ((c.tc : Thread nD τ).loc main_arg3)) (m ((c.tc : Thread nD τ).loc main_arg4)))
            (rXW (m ((c.tc : Thread nD τ).loc main_arg1)) (m ((c.tc : Thread nD τ).loc main_arg4)))
            (rSP (m ((c.tc : Thread nD τ).loc main_arg1)) (m ((c.tc : Thread nD τ).loc main_arg4)))
            (rGW (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans (by rw [Read.val_main_v74_eq]; exact result_eq _ _ _ _ _ (hr c)), (h c).2⟩)
    (Cert.ReferenceIdeal.Value.run (F := Ideal) m ρ)

end Cert.ReferenceIdeal.Bridge

end
-- ==== Proof.ClassTerm.lean ====
/-
  The class term is one computation in both programs: the softmax of the class logits along the class axis,
  read at the target label (clipped to the class range, a negative label wrapped), negated. The two programs
  print the same host operations for it, so the two terms are equal by unfolding their records.
-/
import proofs.«428432_j91250875171593_1_alg».proof.Proof.KClass
import proofs.«428432_j91250875171593_1_alg».proof.Proof.RRun

noncomputable section

namespace Cert.Proof

open Idealize.ShloMosaic

theorem classTerm_eq {F : FTy → Type} [FloatOps F] (a0 : FVec F Cert.KernelIdeal.S4x300x81 .f32) (a2 : IVec Cert.KernelIdeal.S4x100 32) :
    Cert.KernelIdeal.Bridge.ccK (F := F) a0 a2 = Cert.ReferenceIdeal.Bridge.ccR (F := F) a0 a2 := rfl

end Cert.Proof

end
-- ==== Proof.lean ====
/-
  The certificate's claims assembled.

  Frames: the two kernel programs' frames are the generated frame certificates; the reference's frame is its
  generated run with the result dropped. `preserves` is trivial: the ideal pass rewrote nothing.

  The algebraic claim. Under the precondition every sampled column index is a column of the masks, so the
  reference's gathers read exactly the sampled columns and the kernel's scatter of ones drops nothing: its weight
  row counts, per column, the samples that chose it. Both programs then end at the same index-wise cost
  (`Cert.MaskCost.tail`) of the class term and four sums; the class term is the same host computation in both
  programs, and the kernel's sums over all columns weighted by the counts are the reference's sums over the
  samples, regrouped by column (`Cert.MaskCost.kXG_eq_rXG` and its three companions).
-/
import proofs.«428432_j91250875171593_1_alg».proof.Defs
import proofs.«428432_j91250875171593_1_alg».proof.Proof.Gen.Kernel
import proofs.«428432_j91250875171593_1_alg».proof.Proof.Gen.Kernel.Frame
import proofs.«428432_j91250875171593_1_alg».proof.Proof.Gen.KernelIdeal
import proofs.«428432_j91250875171593_1_alg».proof.Proof.Gen.KernelIdeal.Frame
import proofs.«428432_j91250875171593_1_alg».proof.Proof.Gen.ReferenceIdeal
import proofs.«428432_j91250875171593_1_alg».proof.Proof.Gen.ReferenceIdeal.Run
import proofs.«428432_j91250875171593_1_alg».proof.Proof.Gen.Pre_finite_inputs
import proofs.«428432_j91250875171593_1_alg».proof.Proof.Spec
import proofs.«428432_j91250875171593_1_alg».proof.Proof.Law
import proofs.«428432_j91250875171593_1_alg».proof.Proof.PreRange
import proofs.«428432_j91250875171593_1_alg».proof.Proof.KRun
import proofs.«428432_j91250875171593_1_alg».proof.Proof.RRun
import proofs.«428432_j91250875171593_1_alg».proof.Proof.ClassTerm
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hr : ∀ c : Dev Cert.KernelIdeal.nD, Cert.MaskCost.InRange
      (m ((c.tc : Thread Cert.KernelIdeal.nD Cert.KernelIdeal.τ).loc Cert.KernelIdeal.main_arg4)) :=
    fun c => Cert.MaskCost.inRange_of_pre _ _ _ _ _ (hpre c)
  have hr' : ∀ c : Dev Cert.ReferenceIdeal.nD, Cert.MaskCost.InRange
      (m' ((c.tc : Thread Cert.ReferenceIdeal.nD Cert.ReferenceIdeal.τ).loc Cert.ReferenceIdeal.main_arg4)) :=
    fun c => by rw [(hagree c).2.2.2.2]; exact hr c
  refine ⟨_, Cert.KernelIdeal.Bridge.run m ρ hr, ?_⟩
  refine (θ_run Cert.ReferenceIdeal.defs _ _).mono (fun _ h c => ⟨(h c).1.trans ?_, (h c).2⟩)
    (Cert.ReferenceIdeal.Bridge.run m' ρ' hr')
  rw [(hagree c).1, (hagree c).2.1, (hagree c).2.2.1, (hagree c).2.2.2.1, (hagree c).2.2.2.2,
    ← Cert.MaskCost.kXG_eq_rXG, ← Cert.MaskCost.kXW_eq_rXW, ← Cert.MaskCost.kSP_eq_rSP, ← Cert.MaskCost.kGW_eq_rGW,
    Cert.Proof.classTerm_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
